-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x2x256 : Shape := ⟨3, ![4096, 2, 256]⟩
abbrev S4096 : Shape := ⟨1, ![4096]⟩
abbrev S_ : Shape := ⟨0, ![]⟩
abbrev S4096x2 : Shape := ⟨2, ![4096, 2]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x2x256 : S_.BroadcastsInDim S4096x2x256 (![] : Fin 0 → Fin S4096x2x256.rank)
  reducesTo_S4096x2x256_S_d0_1_2 : S4096x2x256.ReducesTo [0, 1, 2] S_
  reducesTo_S4096x256_S4096_d1 : S4096x256.ReducesTo [1] S4096
  bcast_S_S4096 : S_.BroadcastsInDim S4096 (![] : Fin 0 → Fin S4096.rank)
  reducesTo_S4096_S_d0 : S4096.ReducesTo [0] S_
  reducesTo_S4096x2x256_S4096x2_d2 : S4096x2x256.ReducesTo [2] S4096x2
  bcast_S_S4096x2 : S_.BroadcastsInDim S4096x2 (![] : Fin 0 → Fin S4096x2.rank)
  reducesTo_S4096x2_S_d0_1 : S4096x2.ReducesTo [0, 1] S_

variable [Facts]

def fn_part1 {F : FTy → Type} [FloatOps F] (main_v15 : IVec S_ 1) (main_v16 : FVec F S4096x2x256 .f32) : IVec S_ 1 :=
  let main_cst_5 : FVec F S_ .f32 := constant S_ .f32 0x00000000#32
  let main_v17 : FVec F S4096x2 .f32 := (fun x v => Host.reduceAdd x v reducesTo_S4096x2x256_S4096x2_d2 h_S_) main_v16 main_cst_5
  let main_v18 : FVec F S4096x2 .f32 := Host.sqrt main_v17
  let main_cst_6 : FVec F S_ .f32 := constant S_ .f32 0x2B8CBCCC#32
  let main_v19 : FVec F S4096x2 .f32 := broadcastInDim S4096x2 ![] bcast_S_S4096x2 main_cst_6
  let main_v20 : IVec S4096x2 1 := cmpf .oge main_v18 main_v19
  let main_c_7 : IVec S_ 1 := constantI S_ 1 1#1
  let main_v21 : IVec S_ 1 := (fun x v => Host.reduce IntOp.andi x v reducesTo_S4096x2_S_d0_1 h_S_) main_v20 main_c_7
  let main_v22 : IVec S_ 1 := andi main_v15 main_v21
  main_v22

def fn {F : FTy → Type} [FloatOps F] (main_arg0 : FVec F S4096x256 .f32) (main_arg1 : FVec F S4096x2x256 .f32) (main_arg2 : IVec S4096 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x2x256 .f32 := Host.absf main_arg1
  let main_cst_0 : FVec F S_ .f32 := constant S_ .f32 0x7F800000#32
  let main_v5 : FVec F S4096x2x256 .f32 := broadcastInDim S4096x2x256 ![] bcast_S_S4096x2x256 main_cst_0
  let main_v6 : IVec S4096x2x256 1 := cmpf .olt main_v4 main_v5
  let main_c_1 : IVec S_ 1 := constantI S_ 1 1#1
  let main_v7 : IVec S_ 1 := (fun x v => Host.reduce IntOp.andi x v reducesTo_S4096x2x256_S_d0_1_2 h_S_) main_v6 main_c_1
  let main_v8 : IVec S_ 1 := andi main_v3 main_v7
  let main_v9 : FVec F S4096x256 .f32 := mulf main_arg0 main_arg0
  let main_cst_2 : FVec F S_ .f32 := constant S_ .f32 0x00000000#32
  let main_v10 : FVec F S4096 .f32 := (fun x v => Host.reduceAdd x v reducesTo_S4096x256_S4096_d1 h_S_) main_v9 main_cst_2
  let main_v11 : FVec F S4096 .f32 := Host.sqrt main_v10
  let main_cst_3 : FVec F S_ .f32 := constant S_ .f32 0x2B8CBCCC#32
  let main_v12 : FVec F S4096 .f32 := broadcastInDim S4096 ![] bcast_S_S4096 main_cst_3
  let main_v13 : IVec S4096 1 := cmpf .oge main_v11 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  let main_v16 : FVec F S4096x2x256 .f32 := mulf main_arg1 main_arg1
  fn_part1 (F := F) main_v15 main_v16
-- ==== Kernel.lean ====
abbrev S4096x256 : Shape := ⟨2, ![4096, 256]⟩
abbrev S4096x2x256 : Shape := ⟨3, ![4096, 2, 256]⟩
abbrev S4096 : Shape := ⟨1, ![4096]⟩
abbrev S4096x1x256 : Shape := ⟨3, ![4096, 1, 256]⟩
abbrev S4096x1 : Shape := ⟨2, ![4096, 1]⟩
abbrev S1x4096 : Shape := ⟨2, ![1, 4096]⟩
abbrev S_ : Shape := ⟨0, ![]⟩
abbrev S1024x256 : Shape := ⟨2, ![1024, 256]⟩
abbrev S1024x1 : Shape := ⟨2, ![1024, 1]⟩
abbrev S1x1024 : Shape := ⟨2, ![1, 1024]⟩
abbrev S1x512 : Shape := ⟨2, ![1, 512]⟩
abbrev S1024x512 : Shape := ⟨2, ![1024, 512]⟩
abbrev S512x256 : Shape := ⟨2, ![512, 256]⟩
abbrev S1024 : Shape := ⟨1, ![1024]⟩

abbrev nBuf : Space → Nat
  | .hbm => 47
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x2x256, .f32⟩
  | .hbm, ⟨2, _⟩ => ⟨S4096, .i32⟩
  | .hbm, ⟨3, _⟩ => ⟨S4096x1x256, .f32⟩
  | .hbm, ⟨4, _⟩ => ⟨S4096x256, .f32⟩
  | .hbm, ⟨5, _⟩ => ⟨S4096x1x256, .f32⟩
  | .hbm, ⟨6, _⟩ => ⟨S4096x256, .f32⟩
  | .hbm, ⟨7, _⟩ => ⟨S4096x1, .i32⟩
  | .hbm, ⟨8, _⟩ => ⟨S1x4096, .i32⟩
  | .hbm, ⟨9, _⟩ => ⟨S4096x256, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x256, .f32⟩
  | .hbm, ⟨18, _⟩ => ⟨S4096x256, .f32⟩
  | .hbm, ⟨19, _⟩ => ⟨S4096x256, .bf16⟩
  | .hbm, ⟨20, _⟩ => ⟨S4096x256, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x256, .f32⟩
  | .hbm, ⟨29, _⟩ => ⟨S4096x256, .f32⟩
  | .hbm, ⟨30, _⟩ => ⟨S4096x256, .bf16⟩
  | .hbm, ⟨31, _⟩ => ⟨S4096x256, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x256, .f32⟩
  | .hbm, ⟨40, _⟩ => ⟨S4096x256, .f32⟩
  | .hbm, ⟨41, _⟩ => ⟨S4096x256, .bf16⟩
  | .hbm, ⟨42, _⟩ => ⟨S1x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S1024x1, .i32⟩
  | .local _ .vmem, ⟨10, _⟩ => ⟨S1024x1, .i32⟩
  | .local _ .vmem, ⟨11, _⟩ => ⟨S1x4096, .i32⟩
  | .local _ .vmem, ⟨12, _⟩ => ⟨S1x1024, .f32⟩
  | .local _ .vmem, ⟨13, _⟩ => ⟨S1x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S4096x2x256_S4096x1x256_0_0_0 : S4096x2x256.Slices ![0, 0, 0] S4096x1x256
  shapeCasts_S4096x1x256_S4096x256 : S4096x1x256.ShapeCasts S4096x256
  slices_S4096x2x256_S4096x1x256_0_1_0 : S4096x2x256.Slices ![0, 1, 0] S4096x1x256
  shapeCasts_S4096_S4096x1 : S4096.ShapeCasts S4096x1
  shapeCasts_S4096_S1x4096 : S4096.ShapeCasts S1x4096
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bitsLt_bf16_f32 : FTy.bits .bf16 < FTy.bits .f32
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x4096_S1x512_0_0 : ∀ a, (![0, 0] : Fin 2 → Nat) a + S1x512.size a ≤ S1x4096.size a
  h_S1x512 : 0 < S1x512.numel
  shapeCasts_S1x512_S1x512 : S1x512.ShapeCasts S1x512
  broadcasts_S1x512_S1024x512 : S1x512.Broadcasts S1024x512
  broadcasts_S1024x1_S1024x512 : S1024x1.Broadcasts S1024x512
  inb_S4096x256_S512x256_0_0 : ∀ a, (![0, 0] : Fin 2 → Nat) a + S512x256.size a ≤ S4096x256.size a
  h_S512x256 : 0 < S512x256.numel
  shapeCasts_S512x256_S512x256 : S512x256.ShapeCasts S512x256
  reduces_S1024x512_S1024 : S1024x512.Reduces [1] S1024
  shapeCasts_S1024_S1024x1 : S1024.ShapeCasts S1024x1
  inb_S1x4096_S1x512_0_512 : ∀ a, (![0, 512] : Fin 2 → Nat) a + S1x512.size a ≤ S1x4096.size a
  inb_S4096x256_S512x256_512_0 : ∀ a, (![512, 0] : Fin 2 → Nat) a + S512x256.size a ≤ S4096x256.size a
  inb_S1x4096_S1x512_0_1024 : ∀ a, (![0, 1024] : Fin 2 → Nat) a + S1x512.size a ≤ S1x4096.size a
  inb_S4096x256_S512x256_1024_0 : ∀ a, (![1024, 0] : Fin 2 → Nat) a + S512x256.size a ≤ S4096x256.size a
  inb_S1x4096_S1x512_0_1536 : ∀ a, (![0, 1536] : Fin 2 → Nat) a + S1x512.size a ≤ S1x4096.size a
  inb_S4096x256_S512x256_1536_0 : ∀ a, (![1536, 0] : Fin 2 → Nat) a + S512x256.size a ≤ S4096x256.size a
  inb_S1x4096_S1x512_0_2048 : ∀ a, (![0, 2048] : Fin 2 → Nat) a + S1x512.size a ≤ S1x4096.size a
  inb_S4096x256_S512x256_2048_0 : ∀ a, (![2048, 0] : Fin 2 → Nat) a + S512x256.size a ≤ S4096x256.size a
  inb_S1x4096_S1x512_0_2560 : ∀ a, (![0, 2560] : Fin 2 → Nat) a + S1x512.size a ≤ S1x4096.size a
  inb_S4096x256_S512x256_2560_0 : ∀ a, (![2560, 0] : Fin 2 → Nat) a + S512x256.size a ≤ S4096x256.size a
  inb_S1x4096_S1x512_0_3072 : ∀ a, (![0, 3072] : Fin 2 → Nat) a + S1x512.size a ≤ S1x4096.size a
  inb_S4096x256_S512x256_3072_0 : ∀ a, (![3072, 0] : Fin 2 → Nat) a + S512x256.size a ≤ S4096x256.size a
  inb_S1x4096_S1x512_0_3584 : ∀ a, (![0, 3584] : Fin 2 → Nat) a + S1x512.size a ≤ S1x4096.size a
  inb_S4096x256_S512x256_3584_0 : ∀ a, (![3584, 0] : Fin 2 → Nat) a + S512x256.size a ≤ S4096x256.size a
  inb_S1024x256_S1024x256_0_0 : ∀ a, (![0, 0] : Fin 2 → Nat) a + S1024x256.size a ≤ S1024x256.size a
  reduces_S1024x256_S1024 : S1024x256.Reduces [1] S1024
  broadcasts_S1024x1_S1024x256 : S1024x1.Broadcasts S1024x256
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  reducesTo_S1x4096_S_d0_1 : S1x4096.ReducesTo [0, 1] S_
  dot_S1024x256_S512x256_S1024x512_1_1_0_0_n_n_wf : DotDims.WF S1024x256 S512x256 S1024x512 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .f32 = 32 ∨ (Rect.block (s := S4096x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .bf16 = 32 ∨ (Rect.block (s := S4096x256) S4096x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x256.size a
  hwx0_4 : ∀ i : grid0.Coords, EltTy.bits .bf16 = 32 ∨ (Rect.block (s := S4096x256) S4096x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x256.size a
  hwx0_5 : ∀ i : grid0.Coords, EltTy.bits .bf16 = 32 ∨ (Rect.block (s := S4096x256) S4096x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .i32 = 32 ∨ (Rect.block (s := S4096x1) S1024x1.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .i32 = 32 ∨ (Rect.block (s := S1x4096) S1x4096.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x4096.size a
  hwx0_8 : ∀ i : grid0.Coords, EltTy.bits .f32 = 32 ∨ (Rect.block (s := S1x4096) S1x1024.size (cc0_transform_8 i) (hinb0_8 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4096x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S4096x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S4096x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x2x256 : Shape := ⟨3, ![4096, 2, 256]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S4096x2x1 : Shape := ⟨3, ![4096, 2, 1]⟩
abbrev S8192 : Shape := ⟨1, ![8192]⟩
abbrev S1x8192 : Shape := ⟨2, ![1, 8192]⟩
abbrev S4096x8192 : Shape := ⟨2, ![4096, 8192]⟩
abbrev S4096x1x256 : Shape := ⟨3, ![4096, 1, 256]⟩
abbrev S8192x256 : Shape := ⟨2, ![8192, 256]⟩
abbrev S8192x1 : Shape := ⟨2, ![8192, 1]⟩
abbrev S8192x8192 : Shape := ⟨2, ![8192, 8192]⟩
abbrev S256x8192 : Shape := ⟨2, ![256, 8192]⟩
abbrev S1x4096 : Shape := ⟨2, ![1, 4096]⟩
abbrev S2x4096 : Shape := ⟨2, ![2, 4096]⟩

abbrev nBuf : Space → Nat
  | .hbm => 155
  | .vmem => 0
  | .smem => 0
  | _ => 0

abbrev hbmTy0_0 (i : Nat) : BufTy := match i % 128 with
  | 0 => ⟨S4096x256, .f32⟩
  | 1 => ⟨S4096x2x256, .f32⟩
  | 2 => ⟨S4096, .i32⟩
  | 3 => ⟨S4096x256, .f32⟩
  | 4 => ⟨S_, .f32⟩
  | 5 => ⟨S4096, .f32⟩
  | 6 => ⟨S4096x1, .f32⟩
  | 7 => ⟨S4096x1, .f32⟩
  | 8 => ⟨S_, .f32⟩
  | 9 => ⟨S4096x1, .f32⟩
  | 10 => ⟨S4096x1, .f32⟩
  | 11 => ⟨S4096x256, .f32⟩
  | 12 => ⟨S4096x256, .f32⟩
  | 13 => ⟨S4096x2x256, .f32⟩
  | 14 => ⟨S_, .f32⟩
  | 15 => ⟨S4096x2, .f32⟩
  | 16 => ⟨S4096x2x1, .f32⟩
  | 17 => ⟨S4096x2x1, .f32⟩
  | 18 => ⟨S_, .f32⟩
  | 19 => ⟨S4096x2x1, .f32⟩
  | 20 => ⟨S4096x2x1, .f32⟩
  | 21 => ⟨S4096x2x256, .f32⟩
  | 22 => ⟨S4096x2x256, .f32⟩
  | 23 => ⟨S8192, .i32⟩
  | 24 => ⟨S1x8192, .i32⟩
  | 25 => ⟨S4096x1, .i32⟩
  | 26 => ⟨S4096x8192, .i32⟩
  | 27 => ⟨S4096x8192, .i32⟩
  | 28 => ⟨S4096x8192, .i1⟩
  | 29 => ⟨S4096, .i32⟩
  | 30 => ⟨S4096x1x256, .f32⟩
  | 31 => ⟨S4096x256, .f32⟩
  | 32 => ⟨S8192x256, .f32⟩
  | 33 => ⟨S8192x256, .f32⟩
  | 34 => ⟨S_, .f32⟩
  | 35 => ⟨S8192, .f32⟩
  | 36 => ⟨S8192x1, .f32⟩
  | 37 => ⟨S8192x256, .f32⟩
  | 38 => ⟨S_, .f32⟩
  | 39 => ⟨S8192, .f32⟩
  | 40 => ⟨S1x8192, .f32⟩
  | 41 => ⟨S8192x8192, .f32⟩
  | 42 => ⟨S8192x8192, .f32⟩
  | 43 => ⟨S8192x8192, .f32⟩
  | 44 => ⟨S256x8192, .f32⟩
  | 45 => ⟨S8192x8192, .f32⟩
  | 46 => ⟨S_, .f32⟩
  | 47 => ⟨S8192x8192, .f32⟩
  | 48 => ⟨S8192x8192, .f32⟩
  | 49 => ⟨S8192x8192, .f32⟩
  | 50 => ⟨S_, .f32⟩
  | 51 => ⟨S8192x8192, .f32⟩
  | 52 => ⟨S8192x8192, .f32⟩
  | 53 => ⟨S8192x8192, .f32⟩
  | 54 => ⟨S_, .i32⟩
  | 55 => ⟨S4096, .i32⟩
  | 56 => ⟨S4096, .i32⟩
  | 57 => ⟨S_, .i32⟩
  | 58 => ⟨S4096, .i32⟩
  | 59 => ⟨S4096, .i1⟩
  | 60 => ⟨S_, .i32⟩
  | 61 => ⟨S4096, .i32⟩
  | 62 => ⟨S4096, .i32⟩
  | 63 => ⟨S4096, .i32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S4096x1, .i32⟩
  | 72 => ⟨S4096x1, .i32⟩
  | 73 => ⟨S4096x2, .i32⟩
  | 74 => ⟨S4096, .f32⟩
  | 75 => ⟨S4096x8192, .f32⟩
  | 76 => ⟨S_, .f32⟩
  | 77 => ⟨S_, .f32⟩
  | 78 => ⟨S4096x8192, .f32⟩
  | 79 => ⟨S4096x8192, .f32⟩
  | 80 => ⟨S_, .f32⟩
  | 81 => ⟨S4096, .f32⟩
  | 82 => ⟨S4096, .f32⟩
  | 83 => ⟨S_, .f32⟩
  | 84 => ⟨S4096, .f32⟩
  | 85 => ⟨S4096, .f32⟩
  | 86 => ⟨S_, .f32⟩
  | 87 => ⟨S4096, .f32⟩
  | 88 => ⟨S4096, .f32⟩
  | 89 => ⟨S4096x1x256, .f32⟩
  | 90 => ⟨S4096x256, .f32⟩
  | 91 => ⟨S8192x256, .f32⟩
  | 92 => ⟨S8192x256, .f32⟩
  | 93 => ⟨S_, .f32⟩
  | 94 => ⟨S8192, .f32⟩
  | 95 => ⟨S8192x1, .f32⟩
  | 96 => ⟨S8192x256, .f32⟩
  | 97 => ⟨S_, .f32⟩
  | 98 => ⟨S8192, .f32⟩
  | 99 => ⟨S1x8192, .f32⟩
  | 100 => ⟨S8192x8192, .f32⟩
  | 101 => ⟨S8192x8192, .f32⟩
  | 102 => ⟨S8192x8192, .f32⟩
  | 103 => ⟨S256x8192, .f32⟩
  | 104 => ⟨S8192x8192, .f32⟩
  | 105 => ⟨S_, .f32⟩
  | 106 => ⟨S8192x8192, .f32⟩
  | 107 => ⟨S8192x8192, .f32⟩
  | 108 => ⟨S8192x8192, .f32⟩
  | 109 => ⟨S_, .f32⟩
  | 110 => ⟨S8192x8192, .f32⟩
  | 111 => ⟨S8192x8192, .f32⟩
  | 112 => ⟨S8192x8192, .f32⟩
  | 113 => ⟨S_, .i32⟩
  | 114 => ⟨S4096, .i32⟩
  | 115 => ⟨S4096, .i32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S_, .i32⟩
  | 124 => ⟨S4096, .i32⟩
  | 125 => ⟨S4096, .i1⟩
  | 126 => ⟨S_, .i32⟩
  | 127 => ⟨S4096, .i32⟩
  | _ => ⟨S4096x256, .f32⟩

abbrev hbmTy0_1 (i : Nat) : BufTy := match i % 128 with
  | 0 => ⟨S4096, .i32⟩
  | 1 => ⟨S4096, .i32⟩
  | 2 => ⟨S4096x1, .i32⟩
  | 3 => ⟨S4096x1, .i32⟩
  | 4 => ⟨S4096x2, .i32⟩
  | 5 => ⟨S4096, .f32⟩
  | 6 => ⟨S4096x8192, .f32⟩
  | 7 => ⟨S_, .f32⟩
  | 8 => ⟨S_, .f32⟩
  | 9 => ⟨S4096x8192, .f32⟩
  | 10 => ⟨S4096x8192, .f32⟩
  | 11 => ⟨S_, .f32⟩
  | 12 => ⟨S4096, .f32⟩
  | 13 => ⟨S4096, .f32⟩
  | 14 => ⟨S_, .f32⟩
  | 15 => ⟨S4096, .f32⟩
  | 16 => ⟨S4096, .f32⟩
  | 17 => ⟨S_, .f32⟩
  | 18 => ⟨S4096, .f32⟩
  | 19 => ⟨S4096, .f32⟩
  | 20 => ⟨S1x4096, .f32⟩
  | 21 => ⟨S1x4096, .f32⟩
  | 22 => ⟨S2x4096, .f32⟩
  | 23 => ⟨S_, .f32⟩
  | 24 => ⟨S_, .f32⟩
  | 25 => ⟨S_, .f32⟩
  | 26 => ⟨S_, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_call2_v0 : Ref sig .tc := ⟨.hbm, 77, rfl⟩
abbrev main_call2_v1 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_17 : Ref sig .tc := ⟨.hbm, 113, rfl⟩
abbrev main_v81 : Ref sig .tc := ⟨.hbm, 114, rfl⟩
abbrev main_v82 : Ref sig .tc := ⟨.hbm, 115, rfl⟩
abbrev main_c_18 : Ref sig .tc := ⟨.hbm, 116, rfl⟩
abbrev main_v83 : Ref sig .tc := ⟨.hbm, 117, rfl⟩
abbrev main_v84 : Ref sig .tc := ⟨.hbm, 118, rfl⟩
abbrev main_c_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_20 : Ref sig .tc := ⟨.hbm, 123, rfl⟩
abbrev main_v88 : Ref sig .tc := ⟨.hbm, 124, rfl⟩
abbrev main_v89 : Ref sig .tc := ⟨.hbm, 125, rfl⟩
abbrev main_c_21 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_22 : Ref sig .tc := ⟨.hbm, 135, rfl⟩
abbrev main_call3_v0 : Ref sig .tc := ⟨.hbm, 136, rfl⟩
abbrev main_call3_v1 : Ref sig .tc := ⟨.hbm, 137, rfl⟩
abbrev main_v98 : Ref sig .tc := ⟨.hbm, 138, rfl⟩
abbrev main_cst_23 : Ref sig .tc := ⟨.hbm, 139, rfl⟩
abbrev main_v99 : Ref sig .tc := ⟨.hbm, 140, rfl⟩
abbrev main_v100 : Ref sig .tc := ⟨.hbm, 141, rfl⟩
abbrev main_cst_24 : Ref sig .tc := ⟨.hbm, 142, rfl⟩
abbrev main_v101 : Ref sig .tc := ⟨.hbm, 143, rfl⟩
abbrev main_v102 : Ref sig .tc := ⟨.hbm, 144, rfl⟩
abbrev main_cst_25 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_26 : Ref sig .tc := ⟨.hbm, 151, rfl⟩
abbrev main_v108 : Ref sig .tc := ⟨.hbm, 152, rfl⟩
abbrev main_cst_27 : Ref sig .tc := ⟨.hbm, 153, rfl⟩
abbrev main_v109 : Ref sig .tc := ⟨.hbm, 154, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  reducesTo_S4096x2x256_S4096x2_d2 : S4096x2x256.ReducesTo [2] S4096x2
  bcast_S4096x2_S4096x2x1_0_1 : S4096x2.BroadcastsInDim S4096x2x1 (![0, 1] : Fin 2 → Fin S4096x2x1.rank)
  bcast_S_S4096x2x1 : S_.BroadcastsInDim S4096x2x1 (![] : Fin 0 → Fin S4096x2x1.rank)
  bcast_S4096x2x1_S4096x2x256_0_1_2 : S4096x2x1.BroadcastsInDim S4096x2x256 (![0, 1, 2] : Fin 3 → Fin S4096x2x256.rank)
  concatenates_S4096_S4096_S8192_d0 : Shape.Concatenates [S4096, S4096] S8192 0
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S4096x1_S4096x8192_0_1 : S4096x1.BroadcastsInDim S4096x8192 (![0, 1] : Fin 2 → Fin S4096x8192.rank)
  slices_S4096x2x256_S4096x1x256_0_0_0 : S4096x2x256.Slices ![0, 0, 0] S4096x1x256
  shapeCasts_S4096x1x256_S4096x256 : S4096x1x256.ShapeCasts S4096x256
  concatenates_S4096x256_S4096x256_S8192x256_d0 : Shape.Concatenates [S4096x256, S4096x256] S8192x256 0
  reducesTo_S8192x256_S8192_d1 : S8192x256.ReducesTo [1] S8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  bcast_S_S4096 : S_.BroadcastsInDim S4096 (![] : Fin 0 → Fin S4096.rank)
  concatenates_S4096x1_S4096x1_S4096x2_d1 : Shape.Concatenates [S4096x1, S4096x1] S4096x2 1
  slices_S8192x8192_S4096x8192_0_0 : S8192x8192.Slices ![0, 0] S4096x8192
  bcast_S_S4096x8192 : S_.BroadcastsInDim S4096x8192 (![] : Fin 0 → Fin S4096x8192.rank)
  reducesTo_S4096x8192_S4096_d1 : S4096x8192.ReducesTo [1] S4096
  slices_S4096x2x256_S4096x1x256_0_1_0 : S4096x2x256.Slices ![0, 1, 0] S4096x1x256
  bcast_S4096_S1x4096_1 : S4096.BroadcastsInDim S1x4096 (![1] : Fin 1 → Fin S1x4096.rank)
  concatenates_S1x4096_S1x4096_S2x4096_d0 : Shape.Concatenates [S1x4096, S1x4096] S2x4096 0
  reducesTo_S2x4096_S_d0_1 : S2x4096.ReducesTo [0, 1] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.RefRun.lean ====
/- The reference program's run, stated over its stages. @main is a straight line of 152 host operations; each
   writes one buffer of its own, as a function of buffers written earlier. The operations are cut into twelve
   stretches; across each stretch the buffers still to be read are carried at their stage values
   (`Read.val_‹buffer›`: the operation's function applied to earlier stage values), so the fold of all the
   operations from the launch contents leaves the result buffer at the last stage value of the three arguments. -/
import proofs.«425167_j26594437497379_3_alg».proof.Proof.Gen.ReferenceIdeal
import Idealize.ShloMosaic.Lib.StableHlo.Run
import proofs.«425167_j26594437497379_3_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold of host operations over a concatenation is the fold of the second list after the fold of the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A property of every member of two lists holds of every member of their concatenation. -/
theorem forall_mem_append {α : Type} {p : α → Prop} {l₁ l₂ : List α} (h₁ : ∀ a ∈ l₁, p a) (h₂ : ∀ a ∈ l₂, p a) :
    ∀ a ∈ l₁ ++ l₂, p a :=
  fun a h => (List.mem_append.mp h).elim (h₁ a) (h₂ a)

/-! ## The operations, in twelve stretches

@main's 152 operations in program order, cut where the data flow is narrow: before every concatenate, after each
normalisation, each distance matrix and each index computation, and at the two places where the printed @main is cut. -/

/-- Operations 1 … 10. -/
abbrev c1 : List (HloOp τ sig (Elt F)) :=
  [ TRef.binary (TRef.of (T := ⟨S4096x256, .f32⟩) main_arg0) (TRef.of (T := ⟨S4096x256, .f32⟩) main_arg0) (TRef.of (T := ⟨S4096x256, .f32⟩) main_call0_v0) mulf,
    TRef.nullary (TRef.of (T := ⟨S_, .f32⟩) main_call0_cst) (constant S_ .f32 0x00000000#32),
    TRef.binary (TRef.of (T := ⟨S4096x256, .f32⟩) main_call0_v0) (TRef.of (T := ⟨S_, .f32⟩) main_call0_cst) (TRef.of (T := ⟨S4096, .f32⟩) main_call0_v1) (fun x v => Host.reduceAdd x v reducesTo_S4096x256_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    nullary main_cst (constant S_ .f32 0x2B8CBCCC#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x256 ![0, 1] bcast_S4096x1_S4096x256_0_1 : (⟨S4096x1, .f32⟩ : BufTy).Contents (Elt F) → (⟨S4096x256, .f32⟩ : BufTy).Contents (Elt F)),
    binary main_arg0 main_v3 main_v4 (Host.divf : (⟨S4096x256, .f32⟩ : BufTy).Contents (Elt F) → (⟨S4096x256, .f32⟩ : BufTy).Contents (Elt F) → (⟨S4096x256, .f32⟩ : BufTy).Contents (Elt F)) ]

/-- Operations 11 … 20. -/
abbrev c2 : List (HloOp τ sig (Elt F)) :=
  [ TRef.binary (TRef.of (T := ⟨S4096x2x256, .f32⟩) main_arg1) (TRef.of (T := ⟨S4096x2x256, .f32⟩) main_arg1) (TRef.of (T := ⟨S4096x2x256, .f32⟩) main_call1_v0) mulf,
    TRef.nullary (TRef.of (T := ⟨S_, .f32⟩) main_call1_cst) (constant S_ .f32 0x00000000#32),
    TRef.binary (TRef.of (T := ⟨S4096x2x256, .f32⟩) main_call1_v0) (TRef.of (T := ⟨S_, .f32⟩) main_call1_cst) (TRef.of (T := ⟨S4096x2, .f32⟩) main_call1_v1) (fun x v => Host.reduceAdd x v reducesTo_S4096x2x256_S4096x2_d2 h_S_),
    TRef.unary (TRef.of (T := ⟨S4096x2, .f32⟩) main_call1_v1) (TRef.of (T := ⟨S4096x2x1, .f32⟩) main_call1_v2) (broadcastInDim S4096x2x1 ![0, 1] bcast_S4096x2_S4096x2x1_0_1),
    TRef.unary (TRef.of (T := ⟨S4096x2x1, .f32⟩) main_call1_v2) (TRef.of (T := ⟨S4096x2x1, .f32⟩) main_v5) Host.sqrt,
    nullary main_cst_0 (constant S_ .f32 0x2B8CBCCC#32),
    unary main_cst_0 main_v6 (broadcastInDim S4096x2x1 ![] bcast_S_S4096x2x1 : (⟨S_, .f32⟩ : BufTy).Contents (Elt F) → (⟨S4096x2x1, .f32⟩ : BufTy).Contents (Elt F)),
    binary main_v5 main_v6 main_v7 (maximumf : (⟨S4096x2x1, .f32⟩ : BufTy).Contents (Elt F) → (⟨S4096x2x1, .f32⟩ : BufTy).Contents (Elt F) → (⟨S4096x2x1, .f32⟩ : BufTy).Contents (Elt F)),
    unary main_v7 main_v8 (broadcastInDim S4096x2x256 ![0, 1, 2] bcast_S4096x2x1_S4096x2x256_0_1_2 : (⟨S4096x2x1, .f32⟩ : BufTy).Contents (Elt F) → (⟨S4096x2x256, .f32⟩ : BufTy).Contents (Elt F)),
    binary main_arg1 main_v8 main_v9 (Host.divf : (⟨S4096x2x256, .f32⟩ : BufTy).Contents (Elt F) → (⟨S4096x2x256, .f32⟩ : BufTy).Contents (Elt F) → (⟨S4096x2x256, .f32⟩ : BufTy).Contents (Elt F)) ]

/-- Operations 21 … 29. -/
abbrev c3 : List (HloOp τ sig (Elt F)) :=
  [ binary main_arg2 main_arg2 main_v10 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)),
    unary main_v10 main_v11 (broadcastInDim S1x8192 ![1] bcast_S8192_S1x8192_1 : (⟨S8192, .i32⟩ : BufTy).Contents (Elt F) → (⟨S1x8192, .i32⟩ : BufTy).Contents (Elt F)),
    unary main_arg2 main_v12 (broadcastInDim S4096x1 ![0] bcast_S4096_S4096x1_0 : (⟨S4096, .i32⟩ : BufTy).Contents (Elt F) → (⟨S4096x1, .i32⟩ : BufTy).Contents (Elt F)),
    unary main_v11 main_v13 (broadcastInDim S4096x8192 ![0, 1] bcast_S1x8192_S4096x8192_0_1 : (⟨S1x8192, .i32⟩ : BufTy).Contents (Elt F) → (⟨S4096x8192, .i32⟩ : BufTy).Contents (Elt F)),
    unary main_v12 main_v14 (broadcastInDim S4096x8192 ![0, 1] bcast_S4096x1_S4096x8192_0_1 : (⟨S4096x1, .i32⟩ : BufTy).Contents (Elt F) → (⟨S4096x8192, .i32⟩ : BufTy).Contents (Elt F)),
    binary main_v13 main_v14 main_v15 (cmpi .ne : (⟨S4096x8192, .i32⟩ : BufTy).Contents (Elt F) → (⟨S4096x8192, .i32⟩ : BufTy).Contents (Elt F) → (⟨S4096x8192, .i1⟩ : BufTy).Contents (Elt F)),
    nullary main_v16 (iotaInDim S4096 32 0),
    unary main_v9 main_v17 ((extractStridedSlice S4096x1x256 ![0, 0, 0] · slices_S4096x2x256_S4096x1x256_0_0_0) : (⟨S4096x2x256, .f32⟩ : BufTy).Contents (Elt F) → (⟨S4096x1x256, .f32⟩ : BufTy).Contents (Elt F)),
    reshape main_v17 main_v18 rfl shapeCasts_S4096x1x256_S4096x256 ]

/-- Operations 30 … 51. -/
abbrev c4 : List (HloOp τ sig (Elt F)) :=
  [ binary main_v4 main_v18 main_v19 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    binary main_v19 main_v19 main_v20 (mulf : (⟨S8192x256, .f32⟩ : BufTy).Contents (Elt F) → (⟨S8192x256, .f32⟩ : BufTy).Contents (Elt F) → (⟨S8192x256, .f32⟩ : BufTy).Contents (Elt F)),
    nullary main_cst_1 (constant S_ .f32 0x00000000#32),
    binary main_v20 main_cst_1 main_v21 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v21 main_v22 (broadcastInDim S8192x1 ![0] bcast_S8192_S8192x1_0 : (⟨S8192, .f32⟩ : BufTy).Contents (Elt F) → (⟨S8192x1, .f32⟩ : BufTy).Contents (Elt F)),
    binary main_v19 main_v19 main_v23 (mulf : (⟨S8192x256, .f32⟩ : BufTy).Contents (Elt F) → (⟨S8192x256, .f32⟩ : BufTy).Contents (Elt F) → (⟨S8192x256, .f32⟩ : BufTy).Contents (Elt F)),
    nullary main_cst_2 (constant S_ .f32 0x00000000#32),
    binary main_v23 main_cst_2 main_v24 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v24 main_v25 (broadcastInDim S1x8192 ![1] bcast_S8192_S1x8192_1 : (⟨S8192, .f32⟩ : BufTy).Contents (Elt F) → (⟨S1x8192, .f32⟩ : BufTy).Contents (Elt F)),
    unary main_v22 main_v26 (broadcastInDim S8192x8192 ![0, 1] bcast_S8192x1_S8192x8192_0_1 : (⟨S8192x1, .f32⟩ : BufTy).Contents (Elt F) → (⟨S8192x8192, .f32⟩ : BufTy).Contents (Elt F)),
    unary main_v25 main_v27 (broadcastInDim S8192x8192 ![0, 1] bcast_S1x8192_S8192x8192_0_1 : (⟨S1x8192, .f32⟩ : BufTy).Contents (Elt F) → (⟨S8192x8192, .f32⟩ : BufTy).Contents (Elt F)),
    binary main_v26 main_v27 main_v28 (addf : (⟨S8192x8192, .f32⟩ : BufTy).Contents (Elt F) → (⟨S8192x8192, .f32⟩ : BufTy).Contents (Elt F) → (⟨S8192x8192, .f32⟩ : BufTy).Contents (Elt F)),
    unary main_v19 main_v29 ((transpose S256x8192 [1, 0] · transposes_S8192x256_S256x8192_1_0) : (⟨S8192x256, .f32⟩ : BufTy).Contents (Elt F) → (⟨S256x8192, .f32⟩ : BufTy).Contents (Elt F)),
    binary main_v19 main_v29 main_v30 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_3 (constant S_ .f32 0x40000000#32),
    unary main_cst_3 main_v31 (broadcastInDim S8192x8192 ![] bcast_S_S8192x8192 : (⟨S_, .f32⟩ : BufTy).Contents (Elt F) → (⟨S8192x8192, .f32⟩ : BufTy).Contents (Elt F)),
    binary main_v31 main_v30 main_v32 (mulf : (⟨S8192x8192, .f32⟩ : BufTy).Contents (Elt F) → (⟨S8192x8192, .f32⟩ : BufTy).Contents (Elt F) → (⟨S8192x8192, .f32⟩ : BufTy).Contents (Elt F)),
    binary main_v28 main_v32 main_v33 (subf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x2B8CBCCC#32),
    unary main_cst_4 main_v34 (broadcastInDim S8192x8192 ![] bcast_S_S8192x8192 : (⟨S_, .f32⟩ : BufTy).Contents (Elt F) → (⟨S8192x8192, .f32⟩ : BufTy).Contents (Elt F)),
    binary main_v33 main_v34 main_v35 (maximumf : (⟨S8192x8192, .f32⟩ : BufTy).Contents (Elt F) → (⟨S8192x8192, .f32⟩ : BufTy).Contents (Elt F) → (⟨S8192x8192, .f32⟩ : BufTy).Contents (Elt F)),
    unary main_v35 main_v36 (Host.sqrt : (⟨S8192x8192, .f32⟩ : BufTy).Contents (Elt F) → (⟨S8192x8192, .f32⟩ : BufTy).Contents (Elt F)) ]

/-- Operations 52 … 68. -/
abbrev c5 : List (HloOp τ sig (Elt F)) :=
  [ nullary main_c (constantI S_ 32 4096#32),
    unary main_c main_v37 (broadcastInDim S4096 ![] bcast_S_S4096 : (⟨S_, .i32⟩ : BufTy).Contents (Elt F) → (⟨S4096, .i32⟩ : BufTy).Contents (Elt F)),
    binary main_v16 main_v37 main_v38 (addi : (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v39 (broadcastInDim S4096 ![] bcast_S_S4096 : (⟨S_, .i32⟩ : BufTy).Contents (Elt F) → (⟨S4096, .i32⟩ : BufTy).Contents (Elt F)),
    binary main_v16 main_v39 main_v40 (cmpi .slt : (⟨S4096, .i32⟩ : BufTy).Contents (Elt F) → (⟨S4096, .i32⟩ : BufTy).Contents (Elt F) → (⟨S4096, .i1⟩ : BufTy).Contents (Elt F)),
    nullary main_c_6 (constantI S_ 32 8192#32),
    unary main_c_6 main_v41 (broadcastInDim S4096 ![] bcast_S_S4096 : (⟨S_, .i32⟩ : BufTy).Contents (Elt F) → (⟨S4096, .i32⟩ : BufTy).Contents (Elt F)),
    binary main_v16 main_v41 main_v42 (addi : (⟨S4096, .i32⟩ : BufTy).Contents (Elt F) → (⟨S4096, .i32⟩ : BufTy).Contents (Elt F) → (⟨S4096, .i32⟩ : BufTy).Contents (Elt F)),
    ternary main_v40 main_v42 main_v16 main_v43 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_7 (constantI S_ 32 0#32),
    unary main_c_7 main_v44 (broadcastInDim S4096 ![] bcast_S_S4096 : (⟨S_, .i32⟩ : BufTy).Contents (Elt F) → (⟨S4096, .i32⟩ : BufTy).Contents (Elt F)),
    binary main_v38 main_v44 main_v45 (cmpi .slt : (⟨S4096, .i32⟩ : BufTy).Contents (Elt F) → (⟨S4096, .i32⟩ : BufTy).Contents (Elt F) → (⟨S4096, .i1⟩ : BufTy).Contents (Elt F)),
    nullary main_c_8 (constantI S_ 32 8192#32),
    unary main_c_8 main_v46 (broadcastInDim S4096 ![] bcast_S_S4096 : (⟨S_, .i32⟩ : BufTy).Contents (Elt F) → (⟨S4096, .i32⟩ : BufTy).Contents (Elt F)),
    binary main_v38 main_v46 main_v47 (addi : (⟨S4096, .i32⟩ : BufTy).Contents (Elt F) → (⟨S4096, .i32⟩ : BufTy).Contents (Elt F) → (⟨S4096, .i32⟩ : BufTy).Contents (Elt F)),
    ternary main_v45 main_v47 main_v38 main_v48 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]

/-- Operations 69 … 70. -/
abbrev c6 : List (HloOp τ sig (Elt F)) :=
  [ unary main_v43 main_v49 (broadcastInDim S4096x1 ![0] bcast_S4096_S4096x1_0 : (⟨S4096, .i32⟩ : BufTy).Contents (Elt F) → (⟨S4096x1, .i32⟩ : BufTy).Contents (Elt F)),
    unary main_v48 main_v50 (broadcastInDim S4096x1 ![0] bcast_S4096_S4096x1_0 : (⟨S4096, .i32⟩ : BufTy).Contents (Elt F) → (⟨S4096x1, .i32⟩ : BufTy).Contents (Elt F)) ]

/-- Operations 71 … 88. -/
abbrev c7 : List (HloOp τ sig (Elt F)) :=
  [ binary main_v49 main_v50 main_v51 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v36 main_v51 main_v52 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)),
    unary main_v36 main_v53 ((extractStridedSlice S4096x8192 ![0, 0] · slices_S8192x8192_S4096x8192_0_0) : (⟨S8192x8192, .f32⟩ : BufTy).Contents (Elt F) → (⟨S4096x8192, .f32⟩ : BufTy).Contents (Elt F)),
    nullary main_cst_9 (constant S_ .f32 0x7F800000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S4096x8192, .f32⟩) main_call2_v1) (broadcastInDim S4096x8192 ![] bcast_S_S4096x8192),
    TRef.ternary (TRef.of (T := ⟨S4096x8192, .i1⟩) main_v15) (TRef.of (T := ⟨S4096x8192, .f32⟩) main_v53) (TRef.of (T := ⟨S4096x8192, .f32⟩) main_call2_v1) (TRef.of (T := ⟨S4096x8192, .f32⟩) main_v54) select,
    nullary main_cst_10 (constant S_ .f32 0x7F800000#32),
    binary main_v54 main_cst_10 main_v55 ((fun x v => Host.reduce FloatOps.minimumf x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    binary main_v52 main_v55 main_v56 (subf : (⟨S4096, .f32⟩ : BufTy).Contents (Elt F) → (⟨S4096, .f32⟩ : BufTy).Contents (Elt F) → (⟨S4096, .f32⟩ : BufTy).Contents (Elt F)),
    nullary main_cst_11 (constant S_ .f32 0x3F800000#32),
    unary main_cst_11 main_v57 (broadcastInDim S4096 ![] bcast_S_S4096 : (⟨S_, .f32⟩ : BufTy).Contents (Elt F) → (⟨S4096, .f32⟩ : BufTy).Contents (Elt F)),
    binary main_v56 main_v57 main_v58 (addf : (⟨S4096, .f32⟩ : BufTy).Contents (Elt F) → (⟨S4096, .f32⟩ : BufTy).Contents (Elt F) → (⟨S4096, .f32⟩ : BufTy).Contents (Elt F)),
    nullary main_cst_12 (constant S_ .f32 0x00000000#32),
    unary main_cst_12 main_v59 (broadcastInDim S4096 ![] bcast_S_S4096 : (⟨S_, .f32⟩ : BufTy).Contents (Elt F) → (⟨S4096, .f32⟩ : BufTy).Contents (Elt F)),
    binary main_v58 main_v59 main_v60 (maximumf : (⟨S4096, .f32⟩ : BufTy).Contents (Elt F) → (⟨S4096, .f32⟩ : BufTy).Contents (Elt F) → (⟨S4096, .f32⟩ : BufTy).Contents (Elt F)),
    unary main_v9 main_v61 ((extractStridedSlice S4096x1x256 ![0, 1, 0] · slices_S4096x2x256_S4096x1x256_0_1_0) : (⟨S4096x2x256, .f32⟩ : BufTy).Contents (Elt F) → (⟨S4096x1x256, .f32⟩ : BufTy).Contents (Elt F)),
    reshape main_v61 main_v62 rfl shapeCasts_S4096x1x256_S4096x256 ]

/-- Operations 89 … 110. -/
abbrev c8 : List (HloOp τ sig (Elt F)) :=
  [ binary main_v4 main_v62 main_v63 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    binary main_v63 main_v63 main_v64 (mulf : (⟨S8192x256, .f32⟩ : BufTy).Contents (Elt F) → (⟨S8192x256, .f32⟩ : BufTy).Contents (Elt F) → (⟨S8192x256, .f32⟩ : BufTy).Contents (Elt F)),
    nullary main_cst_13 (constant S_ .f32 0x00000000#32),
    binary main_v64 main_cst_13 main_v65 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v65 main_v66 (broadcastInDim S8192x1 ![0] bcast_S8192_S8192x1_0 : (⟨S8192, .f32⟩ : BufTy).Contents (Elt F) → (⟨S8192x1, .f32⟩ : BufTy).Contents (Elt F)),
    binary main_v63 main_v63 main_v67 (mulf : (⟨S8192x256, .f32⟩ : BufTy).Contents (Elt F) → (⟨S8192x256, .f32⟩ : BufTy).Contents (Elt F) → (⟨S8192x256, .f32⟩ : BufTy).Contents (Elt F)),
    nullary main_cst_14 (constant S_ .f32 0x00000000#32),
    binary main_v67 main_cst_14 main_v68 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v68 main_v69 (broadcastInDim S1x8192 ![1] bcast_S8192_S1x8192_1 : (⟨S8192, .f32⟩ : BufTy).Contents (Elt F) → (⟨S1x8192, .f32⟩ : BufTy).Contents (Elt F)),
    unary main_v66 main_v70 (broadcastInDim S8192x8192 ![0, 1] bcast_S8192x1_S8192x8192_0_1 : (⟨S8192x1, .f32⟩ : BufTy).Contents (Elt F) → (⟨S8192x8192, .f32⟩ : BufTy).Contents (Elt F)),
    unary main_v69 main_v71 (broadcastInDim S8192x8192 ![0, 1] bcast_S1x8192_S8192x8192_0_1 : (⟨S1x8192, .f32⟩ : BufTy).Contents (Elt F) → (⟨S8192x8192, .f32⟩ : BufTy).Contents (Elt F)),
    binary main_v70 main_v71 main_v72 (addf : (⟨S8192x8192, .f32⟩ : BufTy).Contents (Elt F) → (⟨S8192x8192, .f32⟩ : BufTy).Contents (Elt F) → (⟨S8192x8192, .f32⟩ : BufTy).Contents (Elt F)),
    unary main_v63 main_v73 ((transpose S256x8192 [1, 0] · transposes_S8192x256_S256x8192_1_0) : (⟨S8192x256, .f32⟩ : BufTy).Contents (Elt F) → (⟨S256x8192, .f32⟩ : BufTy).Contents (Elt F)),
    binary main_v63 main_v73 main_v74 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_15 (constant S_ .f32 0x40000000#32),
    unary main_cst_15 main_v75 (broadcastInDim S8192x8192 ![] bcast_S_S8192x8192 : (⟨S_, .f32⟩ : BufTy).Contents (Elt F) → (⟨S8192x8192, .f32⟩ : BufTy).Contents (Elt F)),
    binary main_v75 main_v74 main_v76 (mulf : (⟨S8192x8192, .f32⟩ : BufTy).Contents (Elt F) → (⟨S8192x8192, .f32⟩ : BufTy).Contents (Elt F) → (⟨S8192x8192, .f32⟩ : BufTy).Contents (Elt F)),
    binary main_v72 main_v76 main_v77 (subf : (⟨S8192x8192, .f32⟩ : BufTy).Contents (Elt F) → (⟨S8192x8192, .f32⟩ : BufTy).Contents (Elt F) → (⟨S8192x8192, .f32⟩ : BufTy).Contents (Elt F)),
    nullary main_cst_16 (constant S_ .f32 0x2B8CBCCC#32),
    unary main_cst_16 main_v78 (broadcastInDim S8192x8192 ![] bcast_S_S8192x8192 : (⟨S_, .f32⟩ : BufTy).Contents (Elt F) → (⟨S8192x8192, .f32⟩ : BufTy).Contents (Elt F)),
    binary main_v77 main_v78 main_v79 (maximumf : (⟨S8192x8192, .f32⟩ : BufTy).Contents (Elt F) → (⟨S8192x8192, .f32⟩ : BufTy).Contents (Elt F) → (⟨S8192x8192, .f32⟩ : BufTy).Contents (Elt F)),
    unary main_v79 main_v80 (Host.sqrt : (⟨S8192x8192, .f32⟩ : BufTy).Contents (Elt F) → (⟨S8192x8192, .f32⟩ : BufTy).Contents (Elt F)) ]

/-- Operations 111 … 129. -/
abbrev c9 : List (HloOp τ sig (Elt F)) :=
  [ nullary main_c_17 (constantI S_ 32 4096#32),
    unary main_c_17 main_v81 (broadcastInDim S4096 ![] bcast_S_S4096 : (⟨S_, .i32⟩ : BufTy).Contents (Elt F) → (⟨S4096, .i32⟩ : BufTy).Contents (Elt F)),
    binary main_v16 main_v81 main_v82 (addi : (⟨S4096, .i32⟩ : BufTy).Contents (Elt F) → (⟨S4096, .i32⟩ : BufTy).Contents (Elt F) → (⟨S4096, .i32⟩ : BufTy).Contents (Elt F)),
    nullary main_c_18 (constantI S_ 32 0#32),
    unary main_c_18 main_v83 (broadcastInDim S4096 ![] bcast_S_S4096 : (⟨S_, .i32⟩ : BufTy).Contents (Elt F) → (⟨S4096, .i32⟩ : BufTy).Contents (Elt F)),
    binary main_v16 main_v83 main_v84 (cmpi .slt : (⟨S4096, .i32⟩ : BufTy).Contents (Elt F) → (⟨S4096, .i32⟩ : BufTy).Contents (Elt F) → (⟨S4096, .i1⟩ : BufTy).Contents (Elt F)),
    nullary main_c_19 (constantI S_ 32 8192#32),
    unary main_c_19 main_v85 (broadcastInDim S4096 ![] bcast_S_S4096 : (⟨S_, .i32⟩ : BufTy).Contents (Elt F) → (⟨S4096, .i32⟩ : BufTy).Contents (Elt F)),
    binary main_v16 main_v85 main_v86 (addi : (⟨S4096, .i32⟩ : BufTy).Contents (Elt F) → (⟨S4096, .i32⟩ : BufTy).Contents (Elt F) → (⟨S4096, .i32⟩ : BufTy).Contents (Elt F)),
    ternary main_v84 main_v86 main_v16 main_v87 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_20 (constantI S_ 32 0#32),
    unary main_c_20 main_v88 (broadcastInDim S4096 ![] bcast_S_S4096 : (⟨S_, .i32⟩ : BufTy).Contents (Elt F) → (⟨S4096, .i32⟩ : BufTy).Contents (Elt F)),
    binary main_v82 main_v88 main_v89 (cmpi .slt : (⟨S4096, .i32⟩ : BufTy).Contents (Elt F) → (⟨S4096, .i32⟩ : BufTy).Contents (Elt F) → (⟨S4096, .i1⟩ : BufTy).Contents (Elt F)),
    nullary main_c_21 (constantI S_ 32 8192#32),
    unary main_c_21 main_v90 (broadcastInDim S4096 ![] bcast_S_S4096 : (⟨S_, .i32⟩ : BufTy).Contents (Elt F) → (⟨S4096, .i32⟩ : BufTy).Contents (Elt F)),
    binary main_v82 main_v90 main_v91 (addi : (⟨S4096, .i32⟩ : BufTy).Contents (Elt F) → (⟨S4096, .i32⟩ : BufTy).Contents (Elt F) → (⟨S4096, .i32⟩ : BufTy).Contents (Elt F)),
    ternary main_v89 main_v91 main_v82 main_v92 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v87 main_v93 (broadcastInDim S4096x1 ![0] bcast_S4096_S4096x1_0 : (⟨S4096, .i32⟩ : BufTy).Contents (Elt F) → (⟨S4096x1, .i32⟩ : BufTy).Contents (Elt F)),
    unary main_v92 main_v94 (broadcastInDim S4096x1 ![0] bcast_S4096_S4096x1_0 : (⟨S4096, .i32⟩ : BufTy).Contents (Elt F) → (⟨S4096x1, .i32⟩ : BufTy).Contents (Elt F)) ]

/-- Operations 130 … 130. -/
abbrev c10 : List (HloOp τ sig (Elt F)) :=
  [ binary main_v93 main_v94 main_v95 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)) ]

/-- Operations 131 … 147. -/
abbrev c11 : List (HloOp τ sig (Elt F)) :=
  [ binary main_v80 main_v95 main_v96 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)),
    unary main_v80 main_v97 ((extractStridedSlice S4096x8192 ![0, 0] · slices_S8192x8192_S4096x8192_0_0) : (⟨S8192x8192, .f32⟩ : BufTy).Contents (Elt F) → (⟨S4096x8192, .f32⟩ : BufTy).Contents (Elt F)),
    nullary main_cst_22 (constant S_ .f32 0x7F800000#32),
    TRef.unary (TRef.of (T := ⟨S_, .f32⟩) main_cst_22) (TRef.of (T := ⟨S_, .f32⟩) main_call3_v0) id,
    TRef.unary (TRef.of (T := ⟨S_, .f32⟩) main_call3_v0) (TRef.of (T := ⟨S4096x8192, .f32⟩) main_call3_v1) (broadcastInDim S4096x8192 ![] bcast_S_S4096x8192),
    TRef.ternary (TRef.of (T := ⟨S4096x8192, .i1⟩) main_v15) (TRef.of (T := ⟨S4096x8192, .f32⟩) main_v97) (TRef.of (T := ⟨S4096x8192, .f32⟩) main_call3_v1) (TRef.of (T := ⟨S4096x8192, .f32⟩) main_v98) select,
    nullary main_cst_23 (constant S_ .f32 0x7F800000#32),
    binary main_v98 main_cst_23 main_v99 ((fun x v => Host.reduce FloatOps.minimumf x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    binary main_v96 main_v99 main_v100 (subf : (⟨S4096, .f32⟩ : BufTy).Contents (Elt F) → (⟨S4096, .f32⟩ : BufTy).Contents (Elt F) → (⟨S4096, .f32⟩ : BufTy).Contents (Elt F)),
    nullary main_cst_24 (constant S_ .f32 0x3F800000#32),
    unary main_cst_24 main_v101 (broadcastInDim S4096 ![] bcast_S_S4096 : (⟨S_, .f32⟩ : BufTy).Contents (Elt F) → (⟨S4096, .f32⟩ : BufTy).Contents (Elt F)),
    binary main_v100 main_v101 main_v102 (addf : (⟨S4096, .f32⟩ : BufTy).Contents (Elt F) → (⟨S4096, .f32⟩ : BufTy).Contents (Elt F) → (⟨S4096, .f32⟩ : BufTy).Contents (Elt F)),
    nullary main_cst_25 (constant S_ .f32 0x00000000#32),
    unary main_cst_25 main_v103 (broadcastInDim S4096 ![] bcast_S_S4096 : (⟨S_, .f32⟩ : BufTy).Contents (Elt F) → (⟨S4096, .f32⟩ : BufTy).Contents (Elt F)),
    binary main_v102 main_v103 main_v104 (maximumf : (⟨S4096, .f32⟩ : BufTy).Contents (Elt F) → (⟨S4096, .f32⟩ : BufTy).Contents (Elt F) → (⟨S4096, .f32⟩ : BufTy).Contents (Elt F)),
    unary main_v60 main_v105 (broadcastInDim S1x4096 ![1] bcast_S4096_S1x4096_1 : (⟨S4096, .f32⟩ : BufTy).Contents (Elt F) → (⟨S1x4096, .f32⟩ : BufTy).Contents (Elt F)),
    unary main_v104 main_v106 (broadcastInDim S1x4096 ![1] bcast_S4096_S1x4096_1 : (⟨S4096, .f32⟩ : BufTy).Contents (Elt F) → (⟨S1x4096, .f32⟩ : BufTy).Contents (Elt F)) ]

/-- Operations 148 … 152. -/
abbrev c12 : List (HloOp τ sig (Elt F)) :=
  [ binary main_v105 main_v106 main_v107 ((fun a b => concatenate S2x4096 0 [⟨S1x4096, a⟩, ⟨S1x4096, b⟩] concatenates_S1x4096_S1x4096_S2x4096_d0) : (⟨S1x4096, .f32⟩ : BufTy).Contents (Elt F) → (⟨S1x4096, .f32⟩ : BufTy).Contents (Elt F) → (⟨S2x4096, .f32⟩ : BufTy).Contents (Elt F)),
    nullary main_cst_26 (constant S_ .f32 0x00000000#32),
    binary main_v107 main_cst_26 main_v108 ((fun x v => Host.reduceAdd x v reducesTo_S2x4096_S_d0_1 h_S_) : (⟨S2x4096, .f32⟩ : BufTy).Contents (Elt F) → (⟨S_, .f32⟩ : BufTy).Contents (Elt F) → (⟨S_, .f32⟩ : BufTy).Contents (Elt F)),
    nullary main_cst_27 (constant S_ .f32 0x46000000#32),
    binary main_v108 main_cst_27 main_v109 (Host.divf : (⟨S_, .f32⟩ : BufTy).Contents (Elt F) → (⟨S_, .f32⟩ : BufTy).Contents (Elt F) → (⟨S_, .f32⟩ : BufTy).Contents (Elt F)) ]

/-- The operations of @main's first printed part. -/
abbrev p0 : List (HloOp τ sig (Elt F)) := c1 ++ (c2 ++ (c3 ++ (c4 ++ (c5))))
/-- The operations of @main's second printed part. -/
abbrev p1 : List (HloOp τ sig (Elt F)) := c6 ++ (c7 ++ (c8 ++ (c9 ++ (c10))))
/-- The operations of @main's third printed part. -/
abbrev p2 : List (HloOp τ sig (Elt F)) := c11 ++ (c12)
/-- @main's operations, in order. -/
abbrev ops : List (HloOp τ sig (Elt F)) := p0 ++ (p1 ++ p2)

/-! ## @main is the straight line of these operations -/

set_option maxRecDepth 8192 in
set_option maxHeartbeats 4000000 in
theorem main_part0_eq (c : Dev nD) : main_part0 (F := F) c = seq p0 := rfl
set_option maxRecDepth 8192 in
set_option maxHeartbeats 4000000 in
theorem main_part1_eq (c : Dev nD) : main_part1 (F := F) c = seq p1 := rfl
set_option maxRecDepth 8192 in
set_option maxHeartbeats 4000000 in
theorem main_part2_eq (c : Dev nD) : main_part2 (F := F) c = seq p2 := rfl
theorem main_eq (c : Dev nD) : main (F := F) c = seq ops := by
  rw [seq_append p0 (p1 ++ p2), seq_append p1 p2, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only and determines its results -/

set_option maxRecDepth 8192 in
theorem c1_sub : (c1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
set_option maxRecDepth 8192 in
theorem c1_fresh : (c1 : List (HloOp τ sig (Elt F))).Forall fun op => op.fresh = ∅ :=
  ⟨rfl, rfl, rfl, rfl, rfl, rfl, rfl, rfl, rfl, rfl⟩
set_option maxRecDepth 8192 in
theorem c2_sub : (c2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
set_option maxRecDepth 8192 in
theorem c2_fresh : (c2 : List (HloOp τ sig (Elt F))).Forall fun op => op.fresh = ∅ :=
  ⟨rfl, rfl, rfl, rfl, rfl, rfl, rfl, rfl, rfl, rfl⟩
set_option maxRecDepth 8192 in
theorem c3_sub : (c3 : List (HloOp τ sig (Elt F))).Forall fun op => op.bufs ⊆ tcRefs τ sig :=
  ⟨binary_bufs_sub .., unary_bufs_sub .., unary_bufs_sub .., unary_bufs_sub .., unary_bufs_sub .., binary_bufs_sub .., nullary_bufs_sub .., unary_bufs_sub .., reshape_bufs_sub ..⟩
set_option maxRecDepth 8192 in
theorem c3_fresh : (c3 : List (HloOp τ sig (Elt F))).Forall fun op => op.fresh = ∅ :=
  ⟨rfl, rfl, rfl, rfl, rfl, rfl, rfl, rfl, rfl⟩
set_option maxRecDepth 8192 in
theorem c4_sub : (c4 : List (HloOp τ sig (Elt F))).Forall fun op => op.bufs ⊆ tcRefs τ sig :=
  ⟨binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩
set_option maxRecDepth 8192 in
theorem c4_fresh : (c4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
set_option maxRecDepth 8192 in
theorem c5_sub : (c5 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
set_option maxRecDepth 8192 in
theorem c5_fresh : (c5 : List (HloOp τ sig (Elt F))).Forall fun op => op.fresh = ∅ :=
  ⟨rfl, rfl, rfl, rfl, rfl, rfl, rfl, rfl, rfl, rfl, rfl, rfl, rfl, rfl, rfl, rfl, rfl⟩
set_option maxRecDepth 8192 in
theorem c6_sub : (c6 : List (HloOp τ sig (Elt F))).Forall fun op => op.bufs ⊆ tcRefs τ sig :=
  ⟨unary_bufs_sub .., unary_bufs_sub ..⟩
set_option maxRecDepth 8192 in
theorem c6_fresh : (c6 : List (HloOp τ sig (Elt F))).Forall fun op => op.fresh = ∅ :=
  ⟨rfl, rfl⟩
set_option maxRecDepth 8192 in
theorem c7_sub : (c7 : List (HloOp τ sig (Elt F))).Forall fun op => op.bufs ⊆ tcRefs τ sig :=
  ⟨binary_bufs_sub .., binary_bufs_sub .., unary_bufs_sub .., nullary_bufs_sub .., unary_bufs_sub .., unary_bufs_sub .., ternary_bufs_sub .., nullary_bufs_sub .., binary_bufs_sub .., binary_bufs_sub .., nullary_bufs_sub .., unary_bufs_sub .., binary_bufs_sub .., nullary_bufs_sub .., unary_bufs_sub .., binary_bufs_sub .., unary_bufs_sub .., reshape_bufs_sub ..⟩
set_option maxRecDepth 8192 in
theorem c7_fresh : (c7 : List (HloOp τ sig (Elt F))).Forall fun op => op.fresh = ∅ :=
  ⟨rfl, rfl, rfl, rfl, rfl, rfl, rfl, rfl, rfl, rfl, rfl, rfl, rfl, rfl, rfl, rfl, rfl, rfl⟩
set_option maxRecDepth 8192 in
theorem c8_sub : (c8 : List (HloOp τ sig (Elt F))).Forall fun op => op.bufs ⊆ tcRefs τ sig :=
  ⟨binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩
set_option maxRecDepth 8192 in
theorem c8_fresh : (c8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
set_option maxRecDepth 8192 in
theorem c9_sub : (c9 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
set_option maxRecDepth 8192 in
theorem c9_fresh : (c9 : List (HloOp τ sig (Elt F))).Forall fun op => op.fresh = ∅ :=
  ⟨rfl, rfl, rfl, rfl, rfl, rfl, rfl, rfl, rfl, rfl, rfl, rfl, rfl, rfl, rfl, rfl, rfl, rfl, rfl⟩
set_option maxRecDepth 8192 in
theorem c10_sub : (c10 : List (HloOp τ sig (Elt F))).Forall fun op => op.bufs ⊆ tcRefs τ sig :=
  binary_bufs_sub ..
set_option maxRecDepth 8192 in
theorem c10_fresh : (c10 : List (HloOp τ sig (Elt F))).Forall fun op => op.fresh = ∅ :=
  rfl
set_option maxRecDepth 8192 in
theorem c11_sub : (c11 : List (HloOp τ sig (Elt F))).Forall fun op => op.bufs ⊆ tcRefs τ sig :=
  ⟨binary_bufs_sub .., unary_bufs_sub .., nullary_bufs_sub .., unary_bufs_sub .., unary_bufs_sub .., ternary_bufs_sub .., nullary_bufs_sub .., binary_bufs_sub .., binary_bufs_sub .., nullary_bufs_sub .., unary_bufs_sub .., binary_bufs_sub .., nullary_bufs_sub .., unary_bufs_sub .., binary_bufs_sub .., unary_bufs_sub .., unary_bufs_sub ..⟩
set_option maxRecDepth 8192 in
theorem c11_fresh : (c11 : List (HloOp τ sig (Elt F))).Forall fun op => op.fresh = ∅ :=
  ⟨rfl, rfl, rfl, rfl, rfl, rfl, rfl, rfl, rfl, rfl, rfl, rfl, rfl, rfl, rfl, rfl, rfl⟩
set_option maxRecDepth 8192 in
theorem c12_sub : (c12 : List (HloOp τ sig (Elt F))).Forall fun op => op.bufs ⊆ tcRefs τ sig :=
  ⟨binary_bufs_sub .., nullary_bufs_sub .., binary_bufs_sub .., nullary_bufs_sub .., binary_bufs_sub ..⟩
set_option maxRecDepth 8192 in
theorem c12_fresh : (c12 : List (HloOp τ sig (Elt F))).Forall fun op => op.fresh = ∅ :=
  ⟨rfl, rfl, rfl, rfl, rfl⟩
theorem ops_sub : (ops : List (HloOp τ sig (Elt F))).Forall fun op => op.bufs ⊆ tcRefs τ sig :=
  List.forall_iff_forall_mem.mpr (forall_mem_append (forall_mem_append (List.forall_iff_forall_mem.mp c1_sub) (forall_mem_append (List.forall_iff_forall_mem.mp c2_sub) (forall_mem_append (List.forall_iff_forall_mem.mp c3_sub) (forall_mem_append (List.forall_iff_forall_mem.mp c4_sub) (List.forall_iff_forall_mem.mp c5_sub))))) (forall_mem_append (forall_mem_append (List.forall_iff_forall_mem.mp c6_sub) (forall_mem_append (List.forall_iff_forall_mem.mp c7_sub) (forall_mem_append (List.forall_iff_forall_mem.mp c8_sub) (forall_mem_append (List.forall_iff_forall_mem.mp c9_sub) (List.forall_iff_forall_mem.mp c10_sub))))) (forall_mem_append (List.forall_iff_forall_mem.mp c11_sub) (List.forall_iff_forall_mem.mp c12_sub))))
theorem ops_fresh : ∀ op ∈ (ops : List (HloOp τ sig (Elt F))), op.fresh = ∅ :=
  (forall_mem_append (forall_mem_append (List.forall_iff_forall_mem.mp c1_fresh) (forall_mem_append (List.forall_iff_forall_mem.mp c2_fresh) (forall_mem_append (List.forall_iff_forall_mem.mp c3_fresh) (forall_mem_append (List.forall_iff_forall_mem.mp c4_fresh) (List.forall_iff_forall_mem.mp c5_fresh))))) (forall_mem_append (forall_mem_append (List.forall_iff_forall_mem.mp c6_fresh) (forall_mem_append (List.forall_iff_forall_mem.mp c7_fresh) (forall_mem_append (List.forall_iff_forall_mem.mp c8_fresh) (forall_mem_append (List.forall_iff_forall_mem.mp c9_fresh) (List.forall_iff_forall_mem.mp c10_fresh))))) (forall_mem_append (List.forall_iff_forall_mem.mp c11_fresh) (List.forall_iff_forall_mem.mp c12_fresh))))

/-! ## The stage values across the stretches

`L k x0 x1 x2 V`: in the contents `V` the three arguments hold `x0 x1 x2` and every buffer written in the first `k`
stretches and read later holds its stage value of the arguments. Each stretch carries `L (k-1)` to `L k`: a buffer it does
not write keeps its contents, and a buffer it writes holds its operation's function of what the stretch reads, which
is the stage value by unfolding the stage definitions of that stretch. -/

def L0 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F)) : Prop :=
  V (Proc.devRef .tc main_arg0) = x0 ∧
  V (Proc.devRef .tc main_arg1) = x1 ∧
  V (Proc.devRef .tc main_arg2) = x2

def L1 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F)) : Prop :=
  V (Proc.devRef .tc main_arg0) = x0 ∧
  V (Proc.devRef .tc main_arg1) = x1 ∧
  V (Proc.devRef .tc main_arg2) = x2 ∧
  V (Proc.devRef .tc main_v4) = Read.val_main_v4 (F := F) x0

def L2 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F)) : Prop :=
  V (Proc.devRef .tc main_arg0) = x0 ∧
  V (Proc.devRef .tc main_arg1) = x1 ∧
  V (Proc.devRef .tc main_arg2) = x2 ∧
  V (Proc.devRef .tc main_v4) = Read.val_main_v4 (F := F) x0 ∧
  V (Proc.devRef .tc main_v9) = Read.val_main_v9 (F := F) x1

def L3 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F)) : Prop :=
  V (Proc.devRef .tc main_arg0) = x0 ∧
  V (Proc.devRef .tc main_arg1) = x1 ∧
  V (Proc.devRef .tc main_arg2) = x2 ∧
  V (Proc.devRef .tc main_v4) = Read.val_main_v4 (F := F) x0 ∧
  V (Proc.devRef .tc main_v9) = Read.val_main_v9 (F := F) x1 ∧
  V (Proc.devRef .tc main_v15) = Read.val_main_v15 (F := F) x2 ∧
  V (Proc.devRef .tc main_v16) = Read.val_main_v16 (F := F) ∧
  V (Proc.devRef .tc main_v18) = Read.val_main_v18 (F := F) x1

def L4 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F)) : Prop :=
  V (Proc.devRef .tc main_arg0) = x0 ∧
  V (Proc.devRef .tc main_arg1) = x1 ∧
  V (Proc.devRef .tc main_arg2) = x2 ∧
  V (Proc.devRef .tc main_v4) = Read.val_main_v4 (F := F) x0 ∧
  V (Proc.devRef .tc main_v9) = Read.val_main_v9 (F := F) x1 ∧
  V (Proc.devRef .tc main_v15) = Read.val_main_v15 (F := F) x2 ∧
  V (Proc.devRef .tc main_v16) = Read.val_main_v16 (F := F) ∧
  V (Proc.devRef .tc main_v36) = Read.val_main_v36 (F := F) x0 x1

def L5 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F)) : Prop :=
  V (Proc.devRef .tc main_arg0) = x0 ∧
  V (Proc.devRef .tc main_arg1) = x1 ∧
  V (Proc.devRef .tc main_arg2) = x2 ∧
  V (Proc.devRef .tc main_v4) = Read.val_main_v4 (F := F) x0 ∧
  V (Proc.devRef .tc main_v9) = Read.val_main_v9 (F := F) x1 ∧
  V (Proc.devRef .tc main_v15) = Read.val_main_v15 (F := F) x2 ∧
  V (Proc.devRef .tc main_v16) = Read.val_main_v16 (F := F) ∧
  V (Proc.devRef .tc main_v36) = Read.val_main_v36 (F := F) x0 x1 ∧
  V (Proc.devRef .tc main_v43) = Read.val_main_v43 (F := F) ∧
  V (Proc.devRef .tc main_v48) = Read.val_main_v48 (F := F)

def L6 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F)) : Prop :=
  V (Proc.devRef .tc main_arg0) = x0 ∧
  V (Proc.devRef .tc main_arg1) = x1 ∧
  V (Proc.devRef .tc main_arg2) = x2 ∧
  V (Proc.devRef .tc main_v4) = Read.val_main_v4 (F := F) x0 ∧
  V (Proc.devRef .tc main_v9) = Read.val_main_v9 (F := F) x1 ∧
  V (Proc.devRef .tc main_v15) = Read.val_main_v15 (F := F) x2 ∧
  V (Proc.devRef .tc main_v16) = Read.val_main_v16 (F := F) ∧
  V (Proc.devRef .tc main_v36) = Read.val_main_v36 (F := F) x0 x1 ∧
  V (Proc.devRef .tc main_v49) = Read.val_main_v49 (F := F) ∧
  V (Proc.devRef .tc main_v50) = Read.val_main_v50 (F := F)

def L7 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F)) : Prop :=
  V (Proc.devRef .tc main_arg0) = x0 ∧
  V (Proc.devRef .tc main_arg1) = x1 ∧
  V (Proc.devRef .tc main_arg2) = x2 ∧
  V (Proc.devRef .tc main_v4) = Read.val_main_v4 (F := F) x0 ∧
  V (Proc.devRef .tc main_v15) = Read.val_main_v15 (F := F) x2 ∧
  V (Proc.devRef .tc main_v16) = Read.val_main_v16 (F := F) ∧
  V (Proc.devRef .tc main_v60) = Read.val_main_v60 (F := F) x0 x1 x2 ∧
  V (Proc.devRef .tc main_v62) = Read.val_main_v62 (F := F) x1

def L8 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F)) : Prop :=
  V (Proc.devRef .tc main_arg0) = x0 ∧
  V (Proc.devRef .tc main_arg1) = x1 ∧
  V (Proc.devRef .tc main_arg2) = x2 ∧
  V (Proc.devRef .tc main_v15) = Read.val_main_v15 (F := F) x2 ∧
  V (Proc.devRef .tc main_v16) = Read.val_main_v16 (F := F) ∧
  V (Proc.devRef .tc main_v60) = Read.val_main_v60 (F := F) x0 x1 x2 ∧
  V (Proc.devRef .tc main_v80) = Read.val_main_v80 (F := F) x0 x1

def L9 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F)) : Prop :=
  V (Proc.devRef .tc main_arg0) = x0 ∧
  V (Proc.devRef .tc main_arg1) = x1 ∧
  V (Proc.devRef .tc main_arg2) = x2 ∧
  V (Proc.devRef .tc main_v15) = Read.val_main_v15 (F := F) x2 ∧
  V (Proc.devRef .tc main_v60) = Read.val_main_v60 (F := F) x0 x1 x2 ∧
  V (Proc.devRef .tc main_v80) = Read.val_main_v80 (F := F) x0 x1 ∧
  V (Proc.devRef .tc main_v93) = Read.val_main_v93 (F := F) ∧
  V (Proc.devRef .tc main_v94) = Read.val_main_v94 (F := F)

def L10 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F)) : Prop :=
  V (Proc.devRef .tc main_arg0) = x0 ∧
  V (Proc.devRef .tc main_arg1) = x1 ∧
  V (Proc.devRef .tc main_arg2) = x2 ∧
  V (Proc.devRef .tc main_v15) = Read.val_main_v15 (F := F) x2 ∧
  V (Proc.devRef .tc main_v60) = Read.val_main_v60 (F := F) x0 x1 x2 ∧
  V (Proc.devRef .tc main_v80) = Read.val_main_v80 (F := F) x0 x1 ∧
  V (Proc.devRef .tc main_v95) = Read.val_main_v95 (F := F)

def L11 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F)) : Prop :=
  V (Proc.devRef .tc main_arg0) = x0 ∧
  V (Proc.devRef .tc main_arg1) = x1 ∧
  V (Proc.devRef .tc main_arg2) = x2 ∧
  V (Proc.devRef .tc main_v105) = Read.val_main_v105 (F := F) x0 x1 x2 ∧
  V (Proc.devRef .tc main_v106) = Read.val_main_v106 (F := F) x0 x1 x2

def L12 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F)) : Prop :=
  V (Proc.devRef .tc main_arg0) = x0 ∧
  V (Proc.devRef .tc main_arg1) = x1 ∧
  V (Proc.devRef .tc main_arg2) = x2 ∧
  V (Proc.devRef .tc main_v109) = Read.val_main_v109 (F := F) x0 x1 x2

/-- The buffers that stretch 1 writes. -/
abbrev c1_W : List (Ref sig .tc) := [main_call0_v0, main_call0_cst, main_call0_v1, main_call0_v2, main_v0, main_cst, main_v1, main_v2, main_v3, main_v4]
set_option maxRecDepth 8192 in
theorem c1_writes : (c1 : List (HloOp τ sig (Elt F))).Forall fun op => op.writes ⊆ (c1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that stretch 1 does not write keeps its contents through it. -/
theorem c1_keep (V : Valuation τ sig (Elt F)) (r : Ref sig .tc) (h : r ∉ c1_W) :
    after c1 V (Proc.devRef .tc r) = V (Proc.devRef .tc r) :=
  after_of_writes_sub c1 V c1_writes h

set_option maxRecDepth 8192 in
set_option maxHeartbeats 2000000 in
/-- Stretch 1 (operations 1 … 10) carries the stage values across. -/
theorem step1 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F))
    (h : L0 x0 x1 x2 V) : L1 x0 x1 x2 (after c1 V) := by
  obtain ⟨h_arg0, h_arg1, h_arg2⟩ := h
  refine ⟨?_, ?_, ?_, ?_⟩
  · exact (c1_keep V main_arg0 (by decide)).trans h_arg0
  · exact (c1_keep V main_arg1 (by decide)).trans h_arg1
  · exact (c1_keep V main_arg2 (by decide)).trans h_arg2
  · simp only [c1]
    after_results_simp
    rw [h_arg0]
    rfl

/-- The buffers that stretch 2 writes. -/
abbrev c2_W : List (Ref sig .tc) := [main_call1_v0, main_call1_cst, main_call1_v1, main_call1_v2, main_v5, main_cst_0, main_v6, main_v7, main_v8, main_v9]
set_option maxRecDepth 8192 in
theorem c2_writes : (c2 : List (HloOp τ sig (Elt F))).Forall fun op => op.writes ⊆ (c2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that stretch 2 does not write keeps its contents through it. -/
theorem c2_keep (V : Valuation τ sig (Elt F)) (r : Ref sig .tc) (h : r ∉ c2_W) :
    after c2 V (Proc.devRef .tc r) = V (Proc.devRef .tc r) :=
  after_of_writes_sub c2 V c2_writes h

set_option maxRecDepth 8192 in
set_option maxHeartbeats 2000000 in
/-- Stretch 2 (operations 11 … 20) carries the stage values across. -/
theorem step2 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F))
    (h : L1 x0 x1 x2 V) : L2 x0 x1 x2 (after c2 V) := by
  obtain ⟨h_arg0, h_arg1, h_arg2, h_v4⟩ := h
  refine ⟨?_, ?_, ?_, ?_, ?_⟩
  · exact (c2_keep V main_arg0 (by decide)).trans h_arg0
  · exact (c2_keep V main_arg1 (by decide)).trans h_arg1
  · exact (c2_keep V main_arg2 (by decide)).trans h_arg2
  · exact (c2_keep V main_v4 (by decide)).trans h_v4
  · simp only [c2]
    after_results_simp
    rw [h_arg1]
    rfl

/-- The buffers that stretch 3 writes. -/
abbrev c3_W : List (Ref sig .tc) := [main_v10, main_v11, main_v12, main_v13, main_v14, main_v15, main_v16, main_v17, main_v18]
set_option maxRecDepth 8192 in
theorem c3_writes : (c3 : List (HloOp τ sig (Elt F))).Forall fun op => op.writes ⊆ (c3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that stretch 3 does not write keeps its contents through it. -/
theorem c3_keep (V : Valuation τ sig (Elt F)) (r : Ref sig .tc) (h : r ∉ c3_W) :
    after c3 V (Proc.devRef .tc r) = V (Proc.devRef .tc r) :=
  after_of_writes_sub c3 V c3_writes h

set_option maxRecDepth 8192 in
set_option maxHeartbeats 2000000 in
/-- Stretch 3 (operations 21 … 29) carries the stage values across. -/
theorem step3 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F))
    (h : L2 x0 x1 x2 V) : L3 x0 x1 x2 (after c3 V) := by
  obtain ⟨h_arg0, h_arg1, h_arg2, h_v4, h_v9⟩ := h
  refine ⟨?_, ?_, ?_, ?_, ?_, ?_, ?_, ?_⟩
  · exact (c3_keep V main_arg0 (by decide)).trans h_arg0
  · exact (c3_keep V main_arg1 (by decide)).trans h_arg1
  · exact (c3_keep V main_arg2 (by decide)).trans h_arg2
  · exact (c3_keep V main_v4 (by decide)).trans h_v4
  · exact (c3_keep V main_v9 (by decide)).trans h_v9
  · simp only [c3]
    after_results_simp
    rw [h_arg2]
    rfl
  · simp only [c3]
    after_results_simp
    rfl
  · simp only [c3]
    after_results_simp
    rw [h_v9]
    rfl

/-- The buffers that stretch 4 writes. -/
abbrev c4_W : List (Ref sig .tc) := [main_v19, main_v20, main_cst_1, main_v21, main_v22, main_v23, main_cst_2, main_v24, main_v25, main_v26, main_v27, main_v28, main_v29, main_v30, main_cst_3, main_v31, main_v32, main_v33, main_cst_4, main_v34, main_v35, main_v36]
set_option maxRecDepth 8192 in
theorem c4_writes : (c4 : List (HloOp τ sig (Elt F))).Forall fun op => op.writes ⊆ (c4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that stretch 4 does not write keeps its contents through it. -/
theorem c4_keep (V : Valuation τ sig (Elt F)) (r : Ref sig .tc) (h : r ∉ c4_W) :
    after c4 V (Proc.devRef .tc r) = V (Proc.devRef .tc r) :=
  after_of_writes_sub c4 V c4_writes h

set_option maxRecDepth 8192 in
set_option maxHeartbeats 2000000 in
/-- Stretch 4 (operations 30 … 51) carries the stage values across. -/
theorem step4 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F))
    (h : L3 x0 x1 x2 V) : L4 x0 x1 x2 (after c4 V) := by
  obtain ⟨h_arg0, h_arg1, h_arg2, h_v4, h_v9, h_v15, h_v16, h_v18⟩ := h
  refine ⟨?_, ?_, ?_, ?_, ?_, ?_, ?_, ?_⟩
  · exact (c4_keep V main_arg0 (by decide)).trans h_arg0
  · exact (c4_keep V main_arg1 (by decide)).trans h_arg1
  · exact (c4_keep V main_arg2 (by decide)).trans h_arg2
  · exact (c4_keep V main_v4 (by decide)).trans h_v4
  · exact (c4_keep V main_v9 (by decide)).trans h_v9
  · exact (c4_keep V main_v15 (by decide)).trans h_v15
  · exact (c4_keep V main_v16 (by decide)).trans h_v16
  · simp only [c4]
    after_results_simp
    rw [h_v18, h_v4]
    rfl

/-- The buffers that stretch 5 writes. -/
abbrev c5_W : List (Ref sig .tc) := [main_c, main_v37, main_v38, main_c_5, main_v39, main_v40, main_c_6, main_v41, main_v42, main_v43, main_c_7, main_v44, main_v45, main_c_8, main_v46, main_v47, main_v48]
set_option maxRecDepth 8192 in
theorem c5_writes : (c5 : List (HloOp τ sig (Elt F))).Forall fun op => op.writes ⊆ (c5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that stretch 5 does not write keeps its contents through it. -/
theorem c5_keep (V : Valuation τ sig (Elt F)) (r : Ref sig .tc) (h : r ∉ c5_W) :
    after c5 V (Proc.devRef .tc r) = V (Proc.devRef .tc r) :=
  after_of_writes_sub c5 V c5_writes h

set_option maxRecDepth 8192 in
set_option maxHeartbeats 2000000 in
/-- Stretch 5 (operations 52 … 68) carries the stage values across. -/
theorem step5 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F))
    (h : L4 x0 x1 x2 V) : L5 x0 x1 x2 (after c5 V) := by
  obtain ⟨h_arg0, h_arg1, h_arg2, h_v4, h_v9, h_v15, h_v16, h_v36⟩ := h
  refine ⟨?_, ?_, ?_, ?_, ?_, ?_, ?_, ?_, ?_, ?_⟩
  · exact (c5_keep V main_arg0 (by decide)).trans h_arg0
  · exact (c5_keep V main_arg1 (by decide)).trans h_arg1
  · exact (c5_keep V main_arg2 (by decide)).trans h_arg2
  · exact (c5_keep V main_v4 (by decide)).trans h_v4
  · exact (c5_keep V main_v9 (by decide)).trans h_v9
  · exact (c5_keep V main_v15 (by decide)).trans h_v15
  · exact (c5_keep V main_v16 (by decide)).trans h_v16
  · exact (c5_keep V main_v36 (by decide)).trans h_v36
  · simp only [c5]
    after_results_simp
    rw [h_v16]
    rfl
  · simp only [c5]
    after_results_simp
    rw [h_v16]
    rfl

/-- The buffers that stretch 6 writes. -/
abbrev c6_W : List (Ref sig .tc) := [main_v49, main_v50]
set_option maxRecDepth 8192 in
theorem c6_writes : (c6 : List (HloOp τ sig (Elt F))).Forall fun op => op.writes ⊆ (c6_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that stretch 6 does not write keeps its contents through it. -/
theorem c6_keep (V : Valuation τ sig (Elt F)) (r : Ref sig .tc) (h : r ∉ c6_W) :
    after c6 V (Proc.devRef .tc r) = V (Proc.devRef .tc r) :=
  after_of_writes_sub c6 V c6_writes h

set_option maxRecDepth 8192 in
set_option maxHeartbeats 2000000 in
/-- Stretch 6 (operations 69 … 70) carries the stage values across. -/
theorem step6 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F))
    (h : L5 x0 x1 x2 V) : L6 x0 x1 x2 (after c6 V) := by
  obtain ⟨h_arg0, h_arg1, h_arg2, h_v4, h_v9, h_v15, h_v16, h_v36, h_v43, h_v48⟩ := h
  refine ⟨?_, ?_, ?_, ?_, ?_, ?_, ?_, ?_, ?_, ?_⟩
  · exact (c6_keep V main_arg0 (by decide)).trans h_arg0
  · exact (c6_keep V main_arg1 (by decide)).trans h_arg1
  · exact (c6_keep V main_arg2 (by decide)).trans h_arg2
  · exact (c6_keep V main_v4 (by decide)).trans h_v4
  · exact (c6_keep V main_v9 (by decide)).trans h_v9
  · exact (c6_keep V main_v15 (by decide)).trans h_v15
  · exact (c6_keep V main_v16 (by decide)).trans h_v16
  · exact (c6_keep V main_v36 (by decide)).trans h_v36
  · simp only [c6]
    after_results_simp
    rw [h_v43]
    rfl
  · simp only [c6]
    after_results_simp
    rw [h_v48]
    rfl

/-- The buffers that stretch 7 writes. -/
abbrev c7_W : List (Ref sig .tc) := [main_v51, main_v52, main_v53, main_cst_9, main_call2_v0, main_call2_v1, main_v54, main_cst_10, main_v55, main_v56, main_cst_11, main_v57, main_v58, main_cst_12, main_v59, main_v60, main_v61, main_v62]
set_option maxRecDepth 8192 in
theorem c7_writes : (c7 : List (HloOp τ sig (Elt F))).Forall fun op => op.writes ⊆ (c7_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that stretch 7 does not write keeps its contents through it. -/
theorem c7_keep (V : Valuation τ sig (Elt F)) (r : Ref sig .tc) (h : r ∉ c7_W) :
    after c7 V (Proc.devRef .tc r) = V (Proc.devRef .tc r) :=
  after_of_writes_sub c7 V c7_writes h

set_option maxRecDepth 8192 in
set_option maxHeartbeats 2000000 in
/-- Stretch 7 (operations 71 … 88) carries the stage values across. -/
theorem step7 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F))
    (h : L6 x0 x1 x2 V) : L7 x0 x1 x2 (after c7 V) := by
  obtain ⟨h_arg0, h_arg1, h_arg2, h_v4, h_v9, h_v15, h_v16, h_v36, h_v49, h_v50⟩ := h
  refine ⟨?_, ?_, ?_, ?_, ?_, ?_, ?_, ?_⟩
  · exact (c7_keep V main_arg0 (by decide)).trans h_arg0
  · exact (c7_keep V main_arg1 (by decide)).trans h_arg1
  · exact (c7_keep V main_arg2 (by decide)).trans h_arg2
  · exact (c7_keep V main_v4 (by decide)).trans h_v4
  · exact (c7_keep V main_v15 (by decide)).trans h_v15
  · exact (c7_keep V main_v16 (by decide)).trans h_v16
  · simp only [c7]
    after_results_simp
    rw [h_v36, h_v15, h_v50, h_v49]
    rfl
  · simp only [c7]
    after_results_simp
    rw [h_v9]
    rfl

/-- The buffers that stretch 8 writes. -/
abbrev c8_W : List (Ref sig .tc) := [main_v63, main_v64, main_cst_13, main_v65, main_v66, main_v67, main_cst_14, main_v68, main_v69, main_v70, main_v71, main_v72, main_v73, main_v74, main_cst_15, main_v75, main_v76, main_v77, main_cst_16, main_v78, main_v79, main_v80]
set_option maxRecDepth 8192 in
theorem c8_writes : (c8 : List (HloOp τ sig (Elt F))).Forall fun op => op.writes ⊆ (c8_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that stretch 8 does not write keeps its contents through it. -/
theorem c8_keep (V : Valuation τ sig (Elt F)) (r : Ref sig .tc) (h : r ∉ c8_W) :
    after c8 V (Proc.devRef .tc r) = V (Proc.devRef .tc r) :=
  after_of_writes_sub c8 V c8_writes h

set_option maxRecDepth 8192 in
set_option maxHeartbeats 2000000 in
/-- Stretch 8 (operations 89 … 110) carries the stage values across. -/
theorem step8 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F))
    (h : L7 x0 x1 x2 V) : L8 x0 x1 x2 (after c8 V) := by
  obtain ⟨h_arg0, h_arg1, h_arg2, h_v4, h_v15, h_v16, h_v60, h_v62⟩ := h
  refine ⟨?_, ?_, ?_, ?_, ?_, ?_, ?_⟩
  · exact (c8_keep V main_arg0 (by decide)).trans h_arg0
  · exact (c8_keep V main_arg1 (by decide)).trans h_arg1
  · exact (c8_keep V main_arg2 (by decide)).trans h_arg2
  · exact (c8_keep V main_v15 (by decide)).trans h_v15
  · exact (c8_keep V main_v16 (by decide)).trans h_v16
  · exact (c8_keep V main_v60 (by decide)).trans h_v60
  · simp only [c8]
    after_results_simp
    rw [h_v62, h_v4]
    rfl

/-- The buffers that stretch 9 writes. -/
abbrev c9_W : List (Ref sig .tc) := [main_c_17, main_v81, main_v82, main_c_18, main_v83, main_v84, main_c_19, main_v85, main_v86, main_v87, main_c_20, main_v88, main_v89, main_c_21, main_v90, main_v91, main_v92, main_v93, main_v94]
set_option maxRecDepth 8192 in
theorem c9_writes : (c9 : List (HloOp τ sig (Elt F))).Forall fun op => op.writes ⊆ (c9_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that stretch 9 does not write keeps its contents through it. -/
theorem c9_keep (V : Valuation τ sig (Elt F)) (r : Ref sig .tc) (h : r ∉ c9_W) :
    after c9 V (Proc.devRef .tc r) = V (Proc.devRef .tc r) :=
  after_of_writes_sub c9 V c9_writes h

set_option maxRecDepth 8192 in
set_option maxHeartbeats 2000000 in
/-- Stretch 9 (operations 111 … 129) carries the stage values across. -/
theorem step9 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F))
    (h : L8 x0 x1 x2 V) : L9 x0 x1 x2 (after c9 V) := by
  obtain ⟨h_arg0, h_arg1, h_arg2, h_v15, h_v16, h_v60, h_v80⟩ := h
  refine ⟨?_, ?_, ?_, ?_, ?_, ?_, ?_, ?_⟩
  · exact (c9_keep V main_arg0 (by decide)).trans h_arg0
  · exact (c9_keep V main_arg1 (by decide)).trans h_arg1
  · exact (c9_keep V main_arg2 (by decide)).trans h_arg2
  · exact (c9_keep V main_v15 (by decide)).trans h_v15
  · exact (c9_keep V main_v60 (by decide)).trans h_v60
  · exact (c9_keep V main_v80 (by decide)).trans h_v80
  · simp only [c9]
    after_results_simp
    rw [h_v16]
    rfl
  · simp only [c9]
    after_results_simp
    rw [h_v16]
    rfl

/-- The buffers that stretch 10 writes. -/
abbrev c10_W : List (Ref sig .tc) := [main_v95]
set_option maxRecDepth 8192 in
theorem c10_writes : (c10 : List (HloOp τ sig (Elt F))).Forall fun op => op.writes ⊆ (c10_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))
/-- A buffer that stretch 10 does not write keeps its contents through it. -/
theorem c10_keep (V : Valuation τ sig (Elt F)) (r : Ref sig .tc) (h : r ∉ c10_W) :
    after c10 V (Proc.devRef .tc r) = V (Proc.devRef .tc r) :=
  after_of_writes_sub c10 V c10_writes h

set_option maxRecDepth 8192 in
set_option maxHeartbeats 2000000 in
/-- Stretch 10 (operations 130 … 130) carries the stage values across. -/
theorem step10 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F))
    (h : L9 x0 x1 x2 V) : L10 x0 x1 x2 (after c10 V) := by
  obtain ⟨h_arg0, h_arg1, h_arg2, h_v15, h_v60, h_v80, h_v93, h_v94⟩ := h
  refine ⟨?_, ?_, ?_, ?_, ?_, ?_, ?_⟩
  · exact (c10_keep V main_arg0 (by decide)).trans h_arg0
  · exact (c10_keep V main_arg1 (by decide)).trans h_arg1
  · exact (c10_keep V main_arg2 (by decide)).trans h_arg2
  · exact (c10_keep V main_v15 (by decide)).trans h_v15
  · exact (c10_keep V main_v60 (by decide)).trans h_v60
  · exact (c10_keep V main_v80 (by decide)).trans h_v80
  · simp only [c10]
    after_results_simp
    rw [h_v94, h_v93]
    rfl

/-- The buffers that stretch 11 writes. -/
abbrev c11_W : List (Ref sig .tc) := [main_v96, main_v97, main_cst_22, main_call3_v0, main_call3_v1, main_v98, main_cst_23, main_v99, main_v100, main_cst_24, main_v101, main_v102, main_cst_25, main_v103, main_v104, main_v105, main_v106]
set_option maxRecDepth 8192 in
theorem c11_writes : (c11 : List (HloOp τ sig (Elt F))).Forall fun op => op.writes ⊆ (c11_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that stretch 11 does not write keeps its contents through it. -/
theorem c11_keep (V : Valuation τ sig (Elt F)) (r : Ref sig .tc) (h : r ∉ c11_W) :
    after c11 V (Proc.devRef .tc r) = V (Proc.devRef .tc r) :=
  after_of_writes_sub c11 V c11_writes h

set_option maxRecDepth 8192 in
set_option maxHeartbeats 2000000 in
/-- Stretch 11 (operations 131 … 147) carries the stage values across. -/
theorem step11 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F))
    (h : L10 x0 x1 x2 V) : L11 x0 x1 x2 (after c11 V) := by
  obtain ⟨h_arg0, h_arg1, h_arg2, h_v15, h_v60, h_v80, h_v95⟩ := h
  refine ⟨?_, ?_, ?_, ?_, ?_⟩
  · exact (c11_keep V main_arg0 (by decide)).trans h_arg0
  · exact (c11_keep V main_arg1 (by decide)).trans h_arg1
  · exact (c11_keep V main_arg2 (by decide)).trans h_arg2
  · simp only [c11]
    after_results_simp
    rw [h_v60]
    rfl
  · simp only [c11]
    after_results_simp
    rw [h_v80, h_v15, h_v95]
    rfl

/-- The buffers that stretch 12 writes. -/
abbrev c12_W : List (Ref sig .tc) := [main_v107, main_cst_26, main_v108, main_cst_27, main_v109]
set_option maxRecDepth 8192 in
theorem c12_writes : (c12 : List (HloOp τ sig (Elt F))).Forall fun op => op.writes ⊆ (c12_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that stretch 12 does not write keeps its contents through it. -/
theorem c12_keep (V : Valuation τ sig (Elt F)) (r : Ref sig .tc) (h : r ∉ c12_W) :
    after c12 V (Proc.devRef .tc r) = V (Proc.devRef .tc r) :=
  after_of_writes_sub c12 V c12_writes h

set_option maxRecDepth 8192 in
set_option maxHeartbeats 2000000 in
/-- Stretch 12 (operations 148 … 152) carries the stage values across. -/
theorem step12 (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F))
    (h : L11 x0 x1 x2 V) : L12 x0 x1 x2 (after c12 V) := by
  obtain ⟨h_arg0, h_arg1, h_arg2, h_v105, h_v106⟩ := h
  refine ⟨?_, ?_, ?_, ?_⟩
  · exact (c12_keep V main_arg0 (by decide)).trans h_arg0
  · exact (c12_keep V main_arg1 (by decide)).trans h_arg1
  · exact (c12_keep V main_arg2 (by decide)).trans h_arg2
  · simp only [c12]
    after_results_simp
    rw [h_v106, h_v105]
    rfl

/-- After all the operations the result holds the last stage value and the arguments are unchanged. -/
theorem after_ops (x0 : (⟨S4096x256, .f32⟩ : BufTy).Contents (Elt F)) (x1 : (⟨S4096x2x256, .f32⟩ : BufTy).Contents (Elt F)) (x2 : (⟨S4096, .i32⟩ : BufTy).Contents (Elt F)) (V : Valuation τ sig (Elt F))
    (h : L0 x0 x1 x2 V) : L12 x0 x1 x2 (after ops V) := by
  simp only [ops, p0, p1, p2, after_app]
  exact (step12 x0 x1 x2 _ (step11 x0 x1 x2 _ (step10 x0 x1 x2 _ (step9 x0 x1 x2 _ (step8 x0 x1 x2 _ (step7 x0 x1 x2 _ (step6 x0 x1 x2 _ (step5 x0 x1 x2 _ (step4 x0 x1 x2 _ (step3 x0 x1 x2 _ (step2 x0 x1 x2 _ (step1 x0 x1 x2 _ h))))))))))))

/-- On every device, for any float values, from any memory with zero counters: every weakly fair execution of
    @main terminates with the result at the last stage value of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v109) = Cert.ReferenceIdeal.Read.val_main_v109 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨h0, h1, h2, h109⟩ := after_ops (F := F) (m ((c.tc : Thread nD τ).loc main_arg0)) (m ((c.tc : Thread nD τ).loc main_arg1))
        (m ((c.tc : Thread nD τ).loc main_arg2)) (launchContents m c) ⟨rfl, rfl, rfl⟩
      exact ⟨(h c main_v109).trans h109, (h c main_arg0).trans h0, (h c main_arg1).trans h1, (h c main_arg2).trans h2⟩)
    (run_seq scopedRefs_eq scopedSems_eq defs main (fun _ => ops) main_eq (fun _ => ops_sub) m ρ (fun _ => ops_fresh))

end Cert.ReferenceIdeal.RefRun

end
-- ==== Proof.Spec.lean ====
/-
  The mathematics both programs are compared through, free of either program's text.

  A row is a vector of 256 extended reals.  `unit x` is `x` divided by its Euclidean length clamped below at ε;
  `dot`, `sq`, `dsq` are the inner product, the squared length and the squared distance.  For a row `a` and a
  family of labelled columns, `mmax` is the largest inner product of `a` with a column whose label differs from the
  row's label (−∞ when every label agrees).  The kernel turns that largest product `d` into a distance by
  `fd d = √(max (2 − 2·d) ε)`; the reference takes the smallest of the distances
  `√(max (|x|² + |y|² − 2·x·y) ε)` over the same columns.  On rows of length one the two agree, because `fd` is
  antitone and `|x|² + |y|² − 2·x·y = 2 − 2·x·y`.
-/
import Idealize.ShloMosaic.PureOps.Ideal
import Idealize.ShloMosaic.Lib.ValueIdx

noncomputable section

namespace Cert.Triplet

open Idealize.ShloMosaic Idealize.ShloMosaic.ValueIdx

/-- A feature row. -/
abbrev Row := Fin 256 → EReal

/-- The clamp ε = f32(1e-12), and the words 2, 1 and 8192 (the number of losses averaged), as both programs carry them. -/
def eps : EReal := Ideal.ofBits .f32 0x2B8CBCCC#32
def two : EReal := Ideal.ofBits .f32 0x40000000#32
def one : EReal := Ideal.ofBits .f32 0x3F800000#32
def cnt : EReal := Ideal.ofBits .f32 0x46000000#32

/-- Squared length, inner product, squared distance. -/
def sq (x : Row) : EReal := ∑ k, x k * x k
def dot (x y : Row) : EReal := ∑ k, x k * y k
def dsq (x y : Row) : EReal := ∑ k, (x k - y k) * (x k - y k)

/-- The length clamped below at ε, and the row divided by it. -/
def nrm (x : Row) : EReal := max (Ideal.sqrt (sq x)) eps
def unit (x : Row) : Row := fun k => Ideal.div (x k) (nrm x)

/-- The distance the kernel forms from an inner product of two rows of length one. -/
def fd (d : EReal) : EReal := Ideal.sqrt (max (two - two * d) eps)
/-- The kernel's distance between an anchor and its positive: from the squared distance. -/
def posK (x y : Row) : EReal := Ideal.sqrt (max (dsq x y) eps)
/-- The reference's distance between two rows: from |x|² + |y|² − 2·x·y. -/
def distR (x y : Row) : EReal := Ideal.sqrt (max (sq x + sq y - two * dot x y) eps)
/-- The hinge max (pos − neg + 1) 0. -/
def loss (pos neg : EReal) : EReal := max (pos - neg + one) 0

/-- The largest inner product of `a` with a column whose label differs from `l`; −∞ when there is none. -/
def mmax {n : Nat} (l : BitVec 32) (lc : Fin n → BitVec 32) (a : Row) (cols : Fin n → Row) : EReal :=
  Finset.univ.fold max ⊥ (fun j => if lc j ≠ l then dot a (cols j) else ⊥)

/-- What the kernel leaves for one anchor row: `a` is the row as the kernel reads it from the resident normalized
    anchors, `ca cp0 cp1` the resident normalized anchors and positives, `xa xp0 xp1` the raw anchor and positive rows,
    `l` the row's label and `lc` the columns' labels. -/
def rowTotal (l : BitVec 32) (lc : Fin 4096 → BitVec 32) (a : Row) (ca cp0 cp1 : Fin 4096 → Row) (xa xp0 xp1 : Row) : EReal :=
  loss (posK (unit xa) (unit xp0)) (min (fd (mmax l lc a ca)) (fd (mmax l lc a cp0)))
    + loss (posK (unit xa) (unit xp1)) (min (fd (mmax l lc a ca)) (fd (mmax l lc a cp1)))

/-- Rows of a matrix, the two positive views of the [4096, 2, 256] array, and the labels of the label vector. -/
def rows {n d : Nat} (a : (⟨2, ![n, d]⟩ : Shape).Idx → EReal) : Fin n → Fin d → EReal := fun i k => a (ix2 i k)
def views (p : (⟨3, ![4096, 2, 256]⟩ : Shape).Idx → EReal) : Fin 2 → Fin 4096 → Row := fun v i k => p (ix3 i v k)
def labs {n : Nat} (l : (⟨1, ![n]⟩ : Shape).Idx → BitVec 32) : Fin n → BitVec 32 := fun i => l (ix1 i)

section
variable (A : Fin 4096 → Row) (P : Fin 2 → Fin 4096 → Row) (L : Fin 4096 → BitVec 32)

/-- The normalized anchors and the normalized positives of view `v`. -/
def uA : Fin 4096 → Row := fun i => unit (A i)
def uP (v : Fin 2) : Fin 4096 → Row := fun i => unit (P v i)

/-- The kernel's result: the mean over the 8192 (row, view) pairs, each row's two losses added first. -/
def totalK (i : Fin 4096) : EReal :=
  rowTotal (L i) L (uA A i) (uA A) (uP P 0) (uP P 1) (A i) (P 0 i) (P 1 i)
def resultK : EReal := Ideal.div (∑ i, totalK A P L i) cnt

/-- The reference's 8192 feature rows of view `v` (anchors, then positives) and their labels (the labels twice). -/
def feats (v : Fin 2) : Fin 8192 → Row := fun j =>
  if h : j.val < 4096 then uA A ⟨j.val, h⟩ else uP P v ⟨j.val - 4096, by omega⟩
def lab2 : Fin 8192 → BitVec 32 := fun j =>
  if h : j.val < 4096 then L ⟨j.val, h⟩ else L ⟨j.val - 4096, by omega⟩

/-- The reference's hardest negative for row `i` in view `v`: the smallest distance to a row of another label (+∞ if none). -/
def negR (v : Fin 2) (i : Fin 4096) : EReal :=
  Finset.univ.fold min ⊤ (fun j : Fin 8192 => if lab2 L j ≠ L i then distR (uA A i) (feats A P v j) else ⊤)
def lossR (v : Fin 2) (i : Fin 4096) : EReal := loss (distR (uA A i) (uP P v i)) (negR A P L v i)
/-- The reference's result: the mean of the 2 × 4096 losses. -/
def resultR : EReal := Ideal.div (∑ v : Fin 2, ∑ i, lossR A P L v i) cnt

end

end Cert.Triplet

end
-- ==== Proof.Laws.lean ====
/-
  The mathematics of the comparison.  A real-valued row of length at least ε, divided by its length, is a
  real-valued row of squared length exactly one.  For two such rows the squared distance and
  |x|² + |y|² − 2·x·y are both 2 − 2·x·y, so both programs' distances are `fd` of the inner product.  `fd` is
  antitone and sends −∞ to +∞, so it carries the largest admissible inner product to the smallest admissible
  distance; the reference's minimum over 8192 columns is the minimum of the two minima over 4096 columns.
-/
import proofs.«425167_j26594437497379_3_alg».proof.Proof.Spec
import Mathlib.Data.EReal.Inv
import Mathlib.Analysis.SpecialFunctions.Pow.Real
import Mathlib.Data.Finset.Fold
import Mathlib.Order.MinMax
import Mathlib.Tactic.Ring
import Mathlib.Tactic.FieldSimp
import Mathlib.Tactic.Linarith
import Mathlib.Tactic.NormNum

noncomputable section

namespace Cert.Triplet

open Idealize.ShloMosaic

/-! ## The constants -/

/-- The word 2.0 is the real 2. -/
theorem two_eq : two = ((2 : ℝ) : EReal) := by
  unfold two
  simp [Ideal.ofBits, Ideal.ieee, -EReal.coe_mul]
  norm_num

/-- The clamp ε is a positive real. -/
theorem eps_pos : ∃ e : ℝ, 0 < e ∧ eps = (e : EReal) := by
  unfold eps
  simp [Ideal.ofBits, Ideal.ieee, -EReal.coe_mul]

/-! ## Real-valued rows -/

/-- The coercion of reals into the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A row all of whose entries are real is the coercion of a real row. -/
theorem exists_real {x : Row} (h : ∀ k, ∃ r : ℝ, x k = (r : EReal)) :
    ∃ f : Fin 256 → ℝ, x = fun k => (f k : EReal) := by
  choose f hf using h
  exact ⟨f, funext hf⟩

theorem sq_coe (f : Fin 256 → ℝ) : sq (fun k => (f k : EReal)) = ((∑ k, f k * f k : ℝ) : EReal) := by
  unfold sq
  rw [coe_sum]
  exact Finset.sum_congr rfl fun k _ => (EReal.coe_mul _ _).symm

theorem dot_coe (f g : Fin 256 → ℝ) :
    dot (fun k => (f k : EReal)) (fun k => (g k : EReal)) = ((∑ k, f k * g k : ℝ) : EReal) := by
  unfold dot
  rw [coe_sum]
  exact Finset.sum_congr rfl fun k _ => (EReal.coe_mul _ _).symm

theorem dsq_coe (f g : Fin 256 → ℝ) :
    dsq (fun k => (f k : EReal)) (fun k => (g k : EReal))
      = ((∑ k, (f k - g k) * (f k - g k) : ℝ) : EReal) := by
  unfold dsq
  rw [coe_sum]
  exact Finset.sum_congr rfl fun k _ => by rw [EReal.coe_mul, EReal.coe_sub]

/-- A real-valued row of length at least ε, divided by its clamped length, is a real-valued row whose squares
    sum to exactly one. -/
theorem unit_real {x : Row} (hx : ∀ k, ∃ r : ℝ, x k = (r : EReal)) (hn : eps ≤ Ideal.sqrt (sq x)) :
    ∃ u : Fin 256 → ℝ, unit x = (fun k => (u k : EReal)) ∧ ∑ k, u k * u k = 1 := by
  obtain ⟨f, rfl⟩ := exists_real hx
  obtain ⟨e, he, hee⟩ := eps_pos
  have hS : (0 : ℝ) ≤ ∑ k, f k * f k := Finset.sum_nonneg fun k _ => mul_self_nonneg _
  have hsqrt : Ideal.sqrt (sq fun k => (f k : EReal)) = ((Real.sqrt (∑ k, f k * f k) : ℝ) : EReal) := by
    rw [sq_coe, Ideal.sqrt_coe, if_neg (not_lt.2 hS)]
  rw [hsqrt, hee, EReal.coe_le_coe_iff] at hn
  have hnpos : 0 < Real.sqrt (∑ k, f k * f k) := lt_of_lt_of_le he hn
  have hnrm : nrm (fun k => (f k : EReal)) = ((Real.sqrt (∑ k, f k * f k) : ℝ) : EReal) := by
    unfold nrm
    rw [hsqrt, hee]
    exact max_eq_left (EReal.coe_le_coe_iff.2 hn)
  refine ⟨fun k => f k * (1 / Real.sqrt (∑ k, f k * f k)), ?_, ?_⟩
  · funext k
    unfold unit
    rw [hnrm, Ideal.div_coe hnpos.ne', ← EReal.coe_mul]
  · have hSpos : 0 < ∑ k, f k * f k := Real.sqrt_pos.1 hnpos
    have hnn : Real.sqrt (∑ k, f k * f k) * Real.sqrt (∑ k, f k * f k) = ∑ k, f k * f k :=
      Real.mul_self_sqrt hS
    generalize Real.sqrt (∑ k, f k * f k) = n at hnn
    have h1 : ∀ k, f k * (1 / n) * (f k * (1 / n)) = f k * f k * (1 / (n * n)) := fun k => by ring
    rw [Finset.sum_congr rfl fun k _ => h1 k, ← Finset.sum_mul, hnn]
    exact mul_one_div_cancel hSpos.ne'

/-! ## Two rows of length one -/

/-- For two real rows of squared length one, the reference's distance is `fd` of their inner product. -/
theorem distR_unit (u w : Fin 256 → ℝ) (hu : ∑ k, u k * u k = 1) (hw : ∑ k, w k * w k = 1) :
    distR (fun k => (u k : EReal)) (fun k => (w k : EReal))
      = fd (dot (fun k => (u k : EReal)) (fun k => (w k : EReal))) := by
  unfold distR fd
  rw [sq_coe, sq_coe, hu, hw, ← EReal.coe_add, two_eq]
  norm_num

/-- For two real rows of squared length one, the squared distance is 2 − 2·x·y, so the kernel's positive distance is
    the reference's distance. -/
theorem posK_unit (u w : Fin 256 → ℝ) (hu : ∑ k, u k * u k = 1) (hw : ∑ k, w k * w k = 1) :
    posK (fun k => (u k : EReal)) (fun k => (w k : EReal))
      = distR (fun k => (u k : EReal)) (fun k => (w k : EReal)) := by
  rw [distR_unit u w hu hw]
  unfold posK fd
  rw [dsq_coe, dot_coe, two_eq, ← EReal.coe_mul, ← EReal.coe_sub]
  congr 3
  have : ∀ k, (u k - w k) * (u k - w k) = u k * u k + w k * w k - 2 * (u k * w k) := fun k => by ring
  rw [Finset.sum_congr rfl fun k _ => this k, Finset.sum_sub_distrib, Finset.sum_add_distrib, hu, hw,
    ← Finset.mul_sum]
  norm_num

/-! ## `fd` turns the largest product into the smallest distance -/

/-- The extended square root is monotone. -/
theorem sqrt_mono : Monotone Ideal.sqrt := by
  intro a b hab
  induction a using EReal.rec with
  | bot => exact bot_le
  | top => rw [top_le_iff.1 hab]
  | coe a =>
    induction b using EReal.rec with
    | bot => exact absurd hab (by simp)
    | top => exact le_top
    | coe b =>
      have hab' : a ≤ b := EReal.coe_le_coe_iff.1 hab
      rw [Ideal.sqrt_coe, Ideal.sqrt_coe]
      by_cases ha : a < 0
      · rw [if_pos ha]; exact bot_le
      · have hb : ¬ b < 0 := not_lt.2 (le_trans (not_lt.1 ha) hab')
        rw [if_neg ha, if_neg hb]
        exact EReal.coe_le_coe_iff.2 (Real.sqrt_le_sqrt hab')

/-- `fd` is antitone on all of the extended reals. -/
theorem fd_antitone : Antitone fd := by
  intro a b hab
  unfold fd
  have h2 : (0 : EReal) ≤ two := by rw [two_eq]; exact EReal.coe_nonneg.2 (by norm_num)
  exact sqrt_mono (max_le_max (EReal.sub_le_sub le_rfl (mul_le_mul_of_nonneg_left hab h2)) le_rfl)

/-- `fd` sends −∞ to +∞. -/
theorem fd_bot : fd ⊥ = ⊤ := by
  unfold fd
  rw [two_eq, EReal.coe_mul_bot_of_pos (by norm_num), EReal.coe_sub_bot, max_eq_left le_top, Ideal.sqrt_top]

/-- An antitone map that sends −∞ to +∞ carries a running maximum from −∞ to the running minimum from +∞. -/
theorem fd_fold_max {ι : Type*} (s : Finset ι) (g : ι → EReal) :
    fd (s.fold max ⊥ g) = s.fold min ⊤ (fun j => fd (g j)) := by
  classical
  induction s using Finset.induction_on with
  | empty => simpa using fd_bot
  | insert a s ha ih => rw [Finset.fold_insert ha, Finset.fold_insert ha, fd_antitone.map_max, ih]

/-- A distance kept under a condition and +∞ otherwise is `fd` of the product kept under it and −∞ otherwise. -/
theorem ite_fd (c : Prop) [Decidable c] (d : EReal) : (if c then fd d else ⊤) = fd (if c then d else ⊥) := by
  split_ifs
  · rfl
  · exact fd_bot.symm

/-! ## The reference's 8192 columns are the 4096 anchors and the 4096 positives -/

/-- A minimum over 8192 indices is the minimum of the minima over the first and the second 4096. -/
theorem fold_min_split (h : Fin 8192 → EReal) :
    Finset.univ.fold min ⊤ h
      = min (Finset.univ.fold min ⊤ fun j : Fin 4096 => h ⟨j.val, by omega⟩)
          (Finset.univ.fold min ⊤ fun j : Fin 4096 => h ⟨j.val + 4096, by omega⟩) := by
  refine eq_of_forall_le_iff fun c => ?_
  simp only [le_min_iff, Finset.le_fold_min, Finset.mem_univ, forall_true_left, le_top, true_and]
  constructor
  · intro H
    exact ⟨fun j => H _, fun j => H _⟩
  · rintro ⟨H1, H2⟩ j
    by_cases hj : j.val < 4096
    · exact H1 ⟨j.val, hj⟩
    · have hj' : j.val - 4096 < 4096 := by omega
      have := H2 ⟨j.val - 4096, hj'⟩
      have he : (⟨j.val - 4096 + 4096, by omega⟩ : Fin 8192) = j := Fin.ext (by simp; omega)
      rwa [he] at this

section
variable (A : Fin 4096 → Row) (P : Fin 2 → Fin 4096 → Row) (L : Fin 4096 → BitVec 32)
variable (hA : ∀ i k, ∃ r : ℝ, A i k = (r : EReal)) (hP : ∀ v i k, ∃ r : ℝ, P v i k = (r : EReal))
variable (hnA : ∀ i, eps ≤ Ideal.sqrt (sq (A i))) (hnP : ∀ v i, eps ≤ Ideal.sqrt (sq (P v i)))

include hA hnA in
/-- Against a normalized anchor, the reference's distance from a normalized anchor is `fd` of the inner product. -/
theorem distR_uA_uA (i j : Fin 4096) : distR (uA A i) (uA A j) = fd (dot (uA A i) (uA A j)) := by
  obtain ⟨u, hu, hu1⟩ := unit_real (hA i) (hnA i)
  obtain ⟨w, hw, hw1⟩ := unit_real (hA j) (hnA j)
  unfold uA
  rw [hu, hw]
  exact distR_unit u w hu1 hw1

include hA hnA hP hnP in
/-- Against a normalized positive likewise. -/
theorem distR_uA_uP (v : Fin 2) (i j : Fin 4096) : distR (uA A i) (uP P v j) = fd (dot (uA A i) (uP P v j)) := by
  obtain ⟨u, hu, hu1⟩ := unit_real (hA i) (hnA i)
  obtain ⟨w, hw, hw1⟩ := unit_real (hP v j) (hnP v j)
  unfold uA uP
  rw [hu, hw]
  exact distR_unit u w hu1 hw1

include hA hnA hP hnP in
/-- The kernel's positive distance is the reference's. -/
theorem posK_eq (v : Fin 2) (i : Fin 4096) : posK (unit (A i)) (unit (P v i)) = distR (uA A i) (uP P v i) := by
  obtain ⟨u, hu, hu1⟩ := unit_real (hA i) (hnA i)
  obtain ⟨w, hw, hw1⟩ := unit_real (hP v i) (hnP v i)
  unfold uA uP
  rw [hu, hw]
  exact posK_unit u w hu1 hw1

include hA hnA hP hnP in
/-- The reference's hardest negative is the smaller of the two distances the kernel mines. -/
theorem negR_eq (v : Fin 2) (i : Fin 4096) :
    negR A P L v i = min (fd (mmax (L i) L (uA A i) (uA A))) (fd (mmax (L i) L (uA A i) (uP P v))) := by
  unfold negR
  rw [fold_min_split]
  unfold mmax
  rw [fd_fold_max, fd_fold_max]
  congr 1
  · refine congrArg (Finset.fold min ⊤ · Finset.univ) (funext fun j => ?_)
    have hl : lab2 L ⟨j.val, by omega⟩ = L j := by
      unfold lab2; rw [dif_pos j.isLt]
    have hf : feats A P v ⟨j.val, by omega⟩ = uA A j := by
      unfold feats; rw [dif_pos j.isLt]
    rw [hl, hf, distR_uA_uA A hA hnA i j, ite_fd]
  · refine congrArg (Finset.fold min ⊤ · Finset.univ) (funext fun j => ?_)
    have hlt : ¬ (j.val + 4096 < 4096) := by omega
    have hl : lab2 L ⟨j.val + 4096, by omega⟩ = L j := by
      unfold lab2; rw [dif_neg hlt]; exact congrArg L (Fin.ext (by simp))
    have hf : feats A P v ⟨j.val + 4096, by omega⟩ = uP P v j := by
      unfold feats; rw [dif_neg hlt]; exact congrArg (uP P v) (Fin.ext (by simp))
    rw [hl, hf, distR_uA_uP A P hA hP hnA hnP v i j, ite_fd]

include hA hnA hP hnP in
/-- Each anchor row's total is the sum of the reference's two losses for that row. -/
theorem totalK_eq (i : Fin 4096) : totalK A P L i = lossR A P L 0 i + lossR A P L 1 i := by
  unfold totalK rowTotal lossR
  rw [negR_eq A P L hA hP hnA hnP 0 i, negR_eq A P L hA hP hnA hnP 1 i,
    posK_eq A P hA hP hnA hnP 0 i, posK_eq A P hA hP hnA hnP 1 i]

end

/-- The kernel's mean of the row totals is the reference's mean of the 2 × 4096 losses. -/
theorem result_eq (A : Fin 4096 → Row) (P : Fin 2 → Fin 4096 → Row) (L : Fin 4096 → BitVec 32)
    (hA : ∀ i k, ∃ r : ℝ, A i k = (r : EReal)) (hP : ∀ v i k, ∃ r : ℝ, P v i k = (r : EReal))
    (hnA : ∀ i, eps ≤ Ideal.sqrt (sq (A i))) (hnP : ∀ v i, eps ≤ Ideal.sqrt (sq (P v i))) :
    resultK A P L = resultR A P L := by
  unfold resultK resultR
  rw [Finset.sum_congr rfl fun i _ => totalK_eq A P L hA hP hnA hnP i, Finset.sum_add_distrib, Fin.sum_univ_two]

end Cert.Triplet

end
-- ==== Proof.LibReal.lean ====
/-
  Extended reals that are real numbers, and arrays all of whose entries are.

  Over the extended reals a sum or a product can meet an infinity; over the reals it cannot. The lemmas here say that the
  real numbers inside the extended reals are closed under what a dense layer does: sums (finite ones too), products,
  differences, maxima and minima, and a quotient by a real that is not zero. Then the same for whole arrays, operation by
  operation: a constant zero or one, a broadcast, a transpose and a gather (each entry of the result is an entry of the
  operand), an accumulating scatter (an entry plus a finite sum of updates), a contraction (a finite sum of products),
  a column sum, and the pointwise operations. Last: an array whose test "every |entry| is below +infinity" came out true
  has real entries only.
-/
import Idealize.ShloMosaic.PureOps.Ideal.Laws
import Idealize.ShloMosaic.Lib.IdealHost
import Idealize.ShloMosaic.Lib.ReduceAll

noncomputable section

namespace Cert.RealLib

open Idealize.ShloMosaic
open scoped BigOperators

/-! ## One extended real -/

/-- The extended real is a real number. -/
abbrev IsReal (x : EReal) : Prop := ∃ r : ℝ, x = (r : EReal)

theorem isReal_coe (r : ℝ) : IsReal (r : EReal) := ⟨r, rfl⟩
theorem isReal_zero : IsReal (0 : EReal) := ⟨0, EReal.coe_zero.symm⟩
theorem isReal_one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (Max.max x y) := by
  rcases max_choice x y with h | h <;> rw [h] <;> assumption
theorem IsReal.min {x y : EReal} (hx : IsReal x) (hy : IsReal y) : IsReal (Min.min x y) := by
  rcases min_choice x y with h | h <;> rw [h] <;> assumption

/-- A finite sum of reals is a real. -/
theorem IsReal.sum {ι : Type*} (s : Finset ι) {f : ι → EReal} (h : ∀ i ∈ s, IsReal (f i)) : IsReal (∑ i ∈ s, f i) :=
  Finset.sum_induction f IsReal (fun _ _ => IsReal.add) isReal_zero h

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

/-- What is neither infinity is a real. -/
theorem isReal_of_ne {x : EReal} (h1 : x ≠ ⊤) (h2 : x ≠ ⊥) : IsReal x := by
  induction x using EReal.rec with
  | bot => exact absurd rfl h2
  | coe r => exact ⟨r, rfl⟩
  | top => exact absurd rfl h1

/-- The extended real is a real number other than zero. -/
abbrev IsNZReal (x : EReal) : Prop := ∃ r : ℝ, r ≠ 0 ∧ x = (r : EReal)

theorem IsNZReal.isReal {x : EReal} (hx : IsNZReal x) : IsReal x := by obtain ⟨r, -, h⟩ := hx; exact ⟨r, h⟩

/-- The quotient of a real by a real that is not zero is a real. -/
theorem IsReal.div {x y : EReal} (hx : IsReal x) (hy : IsNZReal y) : IsReal (Ideal.div x y) := by
  obtain ⟨r, h0, rfl⟩ := hy
  rw [Ideal.div_coe h0]
  exact hx.mul (isReal_coe _)

/-- The larger of a real and one is a real that is at least one, so not zero. -/
theorem IsReal.max_one {x : EReal} (hx : IsReal x) : IsNZReal (Max.max x 1) := by
  obtain ⟨a, rfl⟩ := hx
  refine ⟨Max.max a 1, ?_, ?_⟩
  · have : (1 : ℝ) ≤ Max.max a 1 := le_max_right a 1
    intro h0; rw [h0] at this; exact absurd this (by norm_num)
  · rw [← EReal.coe_one]; exact (EReal.coe_strictMono.monotone.map_max (a := a) (b := 1))

/-! ## Arrays -/

/-- Every entry of the array is a real. -/
abbrev AllReal {s : Shape} (v : s.Idx → EReal) : Prop := ∀ i, IsReal (v i)
/-- Every entry of the array is a real other than zero. -/
abbrev AllNZReal {s : Shape} (v : s.Idx → EReal) : Prop := ∀ i, IsNZReal (v i)

theorem AllNZReal.allReal {s : Shape} {v : s.Idx → EReal} (h : AllNZReal v) : AllReal v := fun i => (h i).isReal

theorem allReal_constant_zero (s : Shape) : AllReal (constant (F := Ideal) s .f32 0x00000000#32) :=
  fun _ => ⟨0, by show Ideal.ofBits .f32 0x00000000#32 = _; rw [Ideal.ofBits_zero_f32]; exact EReal.coe_zero.symm⟩
theorem allReal_constant_one (s : Shape) : AllReal (constant (F := Ideal) s .f32 0x3F800000#32) :=
  fun _ => ⟨1, by show Ideal.ofBits .f32 0x3F800000#32 = _; rw [Ideal.ofBits_one_f32]; exact EReal.coe_one.symm⟩

section Ops
variable {s t : Shape} {φ : FTy}

/-- Each entry of a broadcast is an entry of the operand. -/
theorem AllReal.broadcastInDim {x : s.Idx → EReal} (h : AllReal x) (dims : Fin s.rank → Fin t.rank)
    (hb : s.BroadcastsInDim t dims) : AllReal (broadcastInDim t dims hb x) := fun _ => h _
theorem AllNZReal.broadcastInDim {x : s.Idx → EReal} (h : AllNZReal x) (dims : Fin s.rank → Fin t.rank)
    (hb : s.BroadcastsInDim t dims) : AllNZReal (broadcastInDim t dims hb x) := fun _ => h _

/-- Each entry of a transpose is an entry of the operand. -/
theorem AllReal.transpose {x : s.Idx → EReal} (h : AllReal x) (perm : List (Fin s.rank)) (ht : s.Transposes perm t) :
    AllReal (transpose t perm x ht) := fun _ => h _

/-- Each entry of a gather is an entry of the operand. -/
theorem AllReal.gather {si : Shape} {w : ℕ} {x : s.Idx → EReal} (h : AllReal x) (d : GatherDims s si t) (idx : IVec si w) :
    AllReal (Host.gather d x idx) := fun _ => h _

/-- Each entry of an accumulating scatter is the operand's entry plus a finite sum of updates. -/
theorem AllReal.scatterAdd {si u : Shape} {w : ℕ} {x : FVec Ideal s φ} {upd : FVec Ideal u φ} (hx : AllReal x)
    (hu : AllReal upd) (d : ScatterDims s si u) (idx : IVec si w) : AllReal (Host.scatterAdd d x idx upd) :=
  fun i => (hx i).add (IsReal.sum _ fun j _ => hu j)

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllReal.minimumf {x y : FVec Ideal s φ} (hx : AllReal x) (hy : AllReal y) : AllReal (minimumf x y) :=
  fun i => (hx i).min (hy i)

/-- The host's quotient by an array of reals none of which is zero. -/
theorem AllReal.hostDivf {x y : FVec Ideal s φ} (hx : AllReal x) (hy : AllNZReal y) : AllReal (Host.divf x y) :=
  fun i => (hx i).div (hy i)

/-- The pointwise larger of an array of reals and the constant one: reals, none zero. -/
theorem AllReal.maximumf_one {x : FVec Ideal s .f32} (hx : AllReal x) {y : FVec Ideal s .f32} (hy : ∀ i, y i = 1) :
    AllNZReal (Idealize.ShloMosaic.maximumf x y) := fun i => by
  show IsNZReal (Max.max (x i) (y i))
  rw [hy i]; exact (hx i).max_one

/-- A contraction is, at each index, a finite sum of products. -/
theorem AllReal.dotGeneral {sl sr so : Shape} {φ₁ φ₂ : FTy} {l : FVec Ideal sl φ₁} {r : FVec Ideal sr φ₂} (hl : AllReal l)
    (hr : AllReal r) (d : DotDims sl sr so) (prec : Option ContractPrecision) : AllReal (Host.dotGeneral d prec l r) :=
  fun j => isReal_zero.add (IsReal.sum _ fun k _ => (hl _).mul (hr _))

/-- A sum over some axes is, at each index, the initial value plus a finite sum of entries. -/
theorem AllReal.reduceAdd {axes : List (Fin s.rank)} {u : Shape} {x : FVec Ideal s φ} {init : u.Idx → Ideal φ}
    (hx : AllReal x) (hi : ∀ k, IsReal (init k)) (h : s.ReducesTo axes t) (hu : 0 < u.numel) :
    AllReal (Host.reduceAdd x init h hu) :=
  fun _ => (hi _).add (IsReal.sum _ fun i _ => hx i)

end Ops

/-! ## The test "every |entry| is below +infinity" -/

instance : Subsingleton (Shape.Idx ⟨0, ![]⟩) := ⟨fun a b => funext fun d => d.elim0⟩

theorem inf_bits : Ideal.ofBits .f32 0x7F800000#32 = (⊤ : EReal) := by
  simp [Ideal.ofBits, Ideal.ieee]

/-- An extended real whose absolute value is below +infinity is a real. -/
theorem isReal_of_abs_lt_inf (x : EReal)
    (h : Ideal.cmp .olt (Max.max x (-x)) (Ideal.ofBits .f32 0x7F800000#32) = 1#1) : IsReal x := by
  rw [inf_bits] at h
  induction x using EReal.rec with
  | bot => simp [Ideal.cmp] at h
  | coe r => exact ⟨r, rfl⟩
  | top => simp [Ideal.cmp] at h

/-- An array of which `all (|v| < +inf)` came out true has real entries only. -/
theorem allReal_of_all_abs_lt_inf {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (h : Host.reduce IntOp.andi
          (cmpf .olt (Host.absf v) (broadcastInDim s ![] hb (constant (F := Ideal) ⟨0, ![]⟩ .f32 0x7F800000#32)))
          (constantI ⟨0, ![]⟩ 1 1#1) hr hu j = 1#1) : AllReal v := fun i =>
  isReal_of_abs_lt_inf (v i) (Host.reduce_andi_all _ _ hr hu j h i)

end Cert.RealLib

end
-- ==== Proof.PreRead.lean ====
/-
  The precondition read back.

  The precondition is a conjunction of four tests, each an "and" over a whole array: every entry of the anchors and of the
  positives has absolute value below +infinity, every anchor row has Euclidean length at least ε, and every
  (row, view) of the positives has Euclidean length at least ε. From the conjunction being true each test is true at every
  index. An extended real whose absolute value is below +infinity is a real number. A row's length test reads, at the
  row's index, ε ≤ √(0 + Σ_k x_k · x_k), the sum running over the row's 256 coordinates.
-/
import proofs.«425167_j26594437497379_3_alg».proof.Pre_finite_inputs
import proofs.«425167_j26594437497379_3_alg».proof.Proof.Gen.Pre_finite_inputs
import proofs.«425167_j26594437497379_3_alg».proof.Proof.Spec
import proofs.«425167_j26594437497379_3_alg».proof.Proof.LibReal
import Idealize.ShloMosaic.Lib.ReduceAll
import Idealize.ShloMosaic.Lib.IdealHost
import Idealize.ShloMosaic.PureOps.Ideal.Laws

noncomputable section

namespace Cert.Triplet

open Idealize.ShloMosaic Idealize.ShloMosaic.ValueIdx
open Cert.Pre_finite_inputs

namespace PreRead

/-- A comparison "x ≥ y" that came out true says y ≤ x. -/
theorem le_of_cmp_oge {x y : EReal} (h : Ideal.cmp .oge x y = 1#1) : y ≤ x := by
  by_contra hn
  simp [Ideal.cmp, hn] at h

/-- The sum over a row's coordinates of the squared anchors, from zero, is the row's squared length. -/
theorem rowSum (a : FVec Ideal S4096x256 .f32) (i : Fin 4096) :
    Host.reduceAdd (mulf a a) (constant (F := Ideal) S_ .f32 0x00000000#32) Facts.reducesTo_S4096x256_S4096_d1
        Facts.h_S_ (ix1 i) = sq (rows a i) := by
  have hR : S4096x256.Reduces [1] S4096 := by decide
  rw [hostReduceAdd_apply, Ideal.hostReduceAdd_single _ hR]
  show Ideal.ofBits .f32 0x00000000#32 + _ = _
  rw [Ideal.ofBits_zero_f32, zero_add]
  unfold sq rows
  refine Finset.sum_congr rfl fun k _ => ?_
  have e : hR.lift (ix1 i) k = ix2 i k := by
    funext c
    match c with
    | ⟨0, _⟩ => exact Fin.ext rfl
    | ⟨1, _⟩ => exact Fin.ext rfl
  rw [mulf_apply, e]
  rfl

/-- The sum over a (row, view)'s coordinates of the squared positives, from zero, is that row's squared length. -/
theorem viewSum (p : FVec Ideal S4096x2x256 .f32) (v : Fin 2) (i : Fin 4096) :
    Host.reduceAdd (mulf p p) (constant (F := Ideal) S_ .f32 0x00000000#32) Facts.reducesTo_S4096x2x256_S4096x2_d2
        Facts.h_S_ (ix2 i v) = sq (views p v i) := by
  have hR : S4096x2x256.Reduces [2] S4096x2 := by decide
  rw [hostReduceAdd_apply, Ideal.hostReduceAdd_single _ hR]
  show Ideal.ofBits .f32 0x00000000#32 + _ = _
  rw [Ideal.ofBits_zero_f32, zero_add]
  unfold sq views
  refine Finset.sum_congr rfl fun k _ => ?_
  have e : hR.lift (ix2 i v) k = ix3 i v k := by
    funext c
    match c with
    | ⟨0, _⟩ => exact Fin.ext rfl
    | ⟨1, _⟩ => exact Fin.ext rfl
    | ⟨2, _⟩ => exact Fin.ext rfl
  rw [mulf_apply, e]
  rfl

end PreRead

open PreRead in
theorem pre_reads (a : FVec Ideal Cert.Pre_finite_inputs.S4096x256 .f32) (p : FVec Ideal Cert.Pre_finite_inputs.S4096x2x256 .f32)
    (l : IVec Cert.Pre_finite_inputs.S4096 32)
    (h : Cert.Pre_finite_inputs.fn (F := Ideal) a p l = fun _ => 1#1) :
    (∀ i k, ∃ r : ℝ, rows a i k = (r : EReal)) ∧ (∀ v i k, ∃ r : ℝ, views p v i k = (r : EReal))
    ∧ (∀ i, eps ≤ Ideal.sqrt (sq (rows a i))) ∧ (∀ v i, eps ≤ Ideal.sqrt (sq (views p v i))) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i k => ?_, fun v i k => ?_, fun i => ?_, fun v i => ?_⟩
  · exact Cert.RealLib.allReal_of_all_abs_lt_inf a _ _ _ ix0 h1 (ix2 i k)
  · exact Cert.RealLib.allReal_of_all_abs_lt_inf p _ _ _ ix0 h2 (ix3 i v k)
  · have e := Host.reduce_andi_all _ _ _ _ ix0 h3 (ix1 i)
    rw [← rowSum a i]
    exact le_of_cmp_oge e
  · have e := Host.reduce_andi_all _ _ _ _ ix0 h4 (ix2 i v)
    rw [← viewSum p v i]
    exact le_of_cmp_oge e

end Cert.Triplet

end
-- ==== Proof.KHost.lean ====
/-
  What the kernel's launch finds in the arrays its windows stage: the two positive views cut out of the [4096, 2, 256]
  array, the labels as a column and as a row, and the three arrays of normalized rows (each row divided by its length
  clamped below at ε; the change of float format is the identity on extended reals).
-/
import proofs.«425167_j26594437497379_3_alg».proof.Proof.Gen.KernelIdeal.Frame
import proofs.«425167_j26594437497379_3_alg».proof.Proof.Spec
import Idealize.ShloMosaic.Lib.IdealHost
import Idealize.ShloMosaic.Lib.ValueLayout
import Idealize.ShloMosaic.Lib.Pipeline.Value
import Idealize.ShloMosaic.PureOps.Ideal.Laws

noncomputable section

namespace Cert.KernelIdeal.Gen

open Idealize.ShloMosaic Idealize.ShloMosaic.TcCoe Idealize.ShloMosaic.ValueIdx Idealize.SL.Sem Cert.Triplet

variable (m : (ℓ : Loc nD τ sig) → Buf (Elt Ideal) ℓ)

/-- The three argument arrays on core `c`, as functions of their indices. -/
abbrev argA (c : Dev nD) : S4096x256.Idx → EReal := m ((c : Thread nD τ).loc main_arg0)
abbrev argP (c : Dev nD) : S4096x2x256.Idx → EReal := m ((c : Thread nD τ).loc main_arg1)
abbrev argL (c : Dev nD) : S4096.Idx → BitVec 32 := m ((c : Thread nD τ).loc main_arg2)

/-! ## The operation sequences over variable arrays -/

/-- A view of the [4096, 2, 256] array as the program cuts it: the band of width one at offset `o` on the middle axis,
    with the middle axis then dropped. -/
def viewOps (o : Nat) (p : FVec Ideal S4096x2x256 .f32) (h : S4096x2x256.Slices ![0, o, 0] S4096x1x256) :
    FVec Ideal S4096x256 .f32 :=
  shapeCast S4096x256 (extractStridedSlice S4096x1x256 ![0, o, 0] p h) shapeCasts_S4096x1x256_S4096x256

/-- Read at (i, k) it is the array at (i, v, k), `v` being the offset. -/
theorem viewOps_apply (o : Nat) (p : FVec Ideal S4096x2x256 .f32) (h : S4096x2x256.Slices ![0, o, 0] S4096x1x256)
    (v : Fin 2) (hv : v.val = o) (y : S4096x256.Idx) : viewOps o p h y = p (ix3 (y 0) v (y 1)) := by
  unfold viewOps
  have h0 : (y 0).val < 4096 := (y 0).isLt
  have h1 : (y 1).val < 256 := (y 1).isLt
  rw [shapeCast_apply _ shapeCasts_S4096x1x256_S4096x256 y (ix3 (y 0) (0 : Fin 1) (y 1)) (by
    rw [Shape.rowMajor_val_three, Shape.rowMajor_val_two]
    show ((y 0).val * 1 + 0) * 256 + (y 1).val = (y 0).val * 256 + (y 1).val
    omega)]
  exact slice3_axis1_apply o p h (y 0) 0 (y 1) v (by show v.val = o + 0; omega)

/-- So its rows are the rows of view `v`. -/
theorem rows_viewOps (o : Nat) (p : FVec Ideal S4096x2x256 .f32) (h : S4096x2x256.Slices ![0, o, 0] S4096x1x256)
    (v : Fin 2) (hv : v.val = o) : rows (viewOps o p h) = views p v :=
  funext fun i => funext fun k => viewOps_apply o p h v hv (ix2 i k)

/-- The row normalization as the program composes it: the squares, their sum along a row from the word 0, the
    square root, the larger of that and the word ε, the quotient by it, and the change of format. -/
def normOps (x : FVec Ideal S4096x256 .f32) : FVec Ideal S4096x256 .bf16 :=
  truncf .bf16
    (Host.divf x
      (broadcastInDim S4096x256 ![0, 1] bcast_S4096x1_S4096x256_0_1
        (maximumf
          (Host.sqrt
            (broadcastInDim S4096x1 ![0] bcast_S4096_S4096x1_0
              (Host.reduceAdd (mulf x x) (constant (F := Ideal) S_ .f32 0x00000000#32) reducesTo_S4096x256_S4096_d1 h_S_)))
          (broadcastInDim S4096x1 ![] bcast_S_S4096x1 (constant (F := Ideal) S_ .f32 0x2B8CBCCC#32)))))
    bitsLt_bf16_f32

/-- Read at (i, k) it is the entry divided by the row's length clamped below at ε. -/
theorem normOps_apply (x : FVec Ideal S4096x256 .f32) (y : S4096x256.Idx) :
    normOps x y = unit (rows x (y 0)) (y 1) := by
  unfold normOps
  rw [truncf_apply, hostDivf_apply]
  rw [broadcastInDim_apply _ bcast_S4096x1_S4096x256_0_1 _ y (ix2 (y 0) (0 : Fin 1)) (fun a => match a with
    | ⟨0, _⟩ => by show (y 0).val = if (4096 : Nat) = 1 then 0 else (y 0).val; rw [if_neg (by decide)]
    | ⟨1, _⟩ => by show 0 = if (1 : Nat) = 1 then 0 else (y 1).val; rw [if_pos rfl])]
  rw [maximumf_apply, broadcastInDim_scalar_apply, constant_apply]
  rw [show ∀ (z : FVec Ideal S4096x1 .f32) (j : S4096x1.Idx), Host.sqrt z j = Ideal.sqrt (z j) from fun _ _ => rfl]
  rw [broadcastInDim_apply _ bcast_S4096_S4096x1_0 _ (ix2 (y 0) (0 : Fin 1)) (ix1 (y 0)) (fun a => match a with
    | ⟨0, _⟩ => by show (y 0).val = if (4096 : Nat) = 1 then 0 else (y 0).val; rw [if_neg (by decide)])]
  rw [hostReduceAdd_apply, Ideal.hostReduceAdd_single reducesTo_S4096x256_S4096_d1 (by decide), constant_apply,
    Ideal.ofBits_zero_f32, zero_add, congrArg x (eq_ix2 y)]
  show Ideal.div (x (ix2 (y 0) (y 1))) (max (Ideal.sqrt (∑ k : Fin 256, _)) eps)
    = Ideal.div (x (ix2 (y 0) (y 1))) (max (Ideal.sqrt (∑ k : Fin 256, x (ix2 (y 0) k) * x (ix2 (y 0) k))) eps)
  refine congrArg (fun s => Ideal.div (x (ix2 (y 0) (y 1))) (max (Ideal.sqrt s) eps)) (Finset.sum_congr rfl fun k _ => ?_)
  exact congrArg (fun i => x i * x i) (funext fun a => Fin.ext (by match a with | ⟨0, _⟩ => rfl | ⟨1, _⟩ => rfl))

/-! ## The arrays the launch finds -/

theorem V_pos0 (c : Dev nD) : (V m c main_v1 : S4096x256.Idx → EReal) = fun y => views (argP m c) 0 (y 0) (y 1) := by
  have e : (V m c main_v1 : S4096x256.Idx → EReal) = viewOps 0 (argP m c) slices_S4096x2x256_S4096x1x256_0_0_0 := by
    show StableHlo.after hostOps0 (fun b => m (c, b)) (Proc.devRef .tc main_v1) = _
    after_results; rfl
  rw [e]; funext y
  exact viewOps_apply 0 _ _ 0 rfl y
theorem V_pos1 (c : Dev nD) : (V m c main_v3 : S4096x256.Idx → EReal) = fun y => views (argP m c) 1 (y 0) (y 1) := by
  have e : (V m c main_v3 : S4096x256.Idx → EReal) = viewOps 1 (argP m c) slices_S4096x2x256_S4096x1x256_0_1_0 := by
    show StableHlo.after hostOps0 (fun b => m (c, b)) (Proc.devRef .tc main_v3) = _
    after_results; rfl
  rw [e]; funext y
  exact viewOps_apply 1 _ _ 1 rfl y
theorem V_lblcol (c : Dev nD) : (V m c main_v4 : S4096x1.Idx → BitVec 32) = fun y => labs (argL m c) (y 0) := by
  have e : (V m c main_v4 : S4096x1.Idx → BitVec 32) = shapeCast S4096x1 (argL m c) shapeCasts_S4096_S4096x1 := by
    show StableHlo.after hostOps0 (fun b => m (c, b)) (Proc.devRef .tc main_v4) = _
    after_results; rfl
  rw [e]; funext y
  have h1 : (y 1).val < 1 := (y 1).isLt
  exact shapeCast_apply _ shapeCasts_S4096_S4096x1 y (ix1 (y 0)) (by
    rw [Shape.rowMajor_val_one, Shape.rowMajor_val_two]
    show (y 0).val = (y 0).val * 1 + (y 1).val
    omega)
theorem V_lblrow (c : Dev nD) : (V m c main_v5 : S1x4096.Idx → BitVec 32) = fun y => labs (argL m c) (y 1) := by
  have e : (V m c main_v5 : S1x4096.Idx → BitVec 32) = shapeCast S1x4096 (argL m c) shapeCasts_S4096_S1x4096 := by
    show StableHlo.after hostOps0 (fun b => m (c, b)) (Proc.devRef .tc main_v5) = _
    after_results; rfl
  rw [e]; funext y
  have h0 : (y 0).val < 1 := (y 0).isLt
  exact shapeCast_apply _ shapeCasts_S4096_S1x4096 y (ix1 (y 1)) (by
    rw [Shape.rowMajor_val_one, Shape.rowMajor_val_two]
    show (y 1).val = (y 0).val * 4096 + (y 1).val
    omega)
theorem V_unitA (c : Dev nD) : (V m c main_v14 : S4096x256.Idx → EReal) = fun y => uA (rows (argA m c)) (y 0) (y 1) := by
  have e : (V m c main_v14 : S4096x256.Idx → EReal) = normOps (argA m c) := by
    show StableHlo.after hostOps0 (fun b => m (c, b)) (Proc.devRef .tc main_v14) = _
    after_results; rfl
  rw [e]; funext y
  exact normOps_apply _ y
theorem V_unitP0 (c : Dev nD) : (V m c main_v23 : S4096x256.Idx → EReal) = fun y => uP (views (argP m c)) 0 (y 0) (y 1) := by
  have e : (V m c main_v23 : S4096x256.Idx → EReal) = normOps (viewOps 0 (argP m c) slices_S4096x2x256_S4096x1x256_0_0_0) := by
    show StableHlo.after hostOps0 (fun b => m (c, b)) (Proc.devRef .tc main_v23) = _
    after_results; rfl
  rw [e]; funext y
  rw [normOps_apply, rows_viewOps 0 _ _ 0 rfl]
  rfl
theorem V_unitP1 (c : Dev nD) : (V m c main_v32 : S4096x256.Idx → EReal) = fun y => uP (views (argP m c)) 1 (y 0) (y 1) := by
  have e : (V m c main_v32 : S4096x256.Idx → EReal) = normOps (viewOps 1 (argP m c) slices_S4096x2x256_S4096x1x256_0_1_0) := by
    show StableHlo.after hostOps0 (fun b => m (c, b)) (Proc.devRef .tc main_v32) = _
    after_results; rfl
  rw [e]; funext y
  rw [normOps_apply, rows_viewOps 1 _ _ 1 rfl]
  rfl

end Cert.KernelIdeal.Gen

end
-- ==== Proof.KBodyDefs.lean ====
/-
  The body's value as one term: the loads of the eight input blocks named one by one, and over them the chain of the
  body's pure steps, each value a definition over the ones before it.  The three running maxima of inner products
  (anchors against anchors, against the first positives, against the second positives) end at `mAA`, `mP0`, `mP1`;
  the last step `bodyVal` forms the two hinge losses per row and lays their sum out as a [1, 1024] row.
-/
import proofs.«425167_j26594437497379_3_alg».proof.Proof.Gen.KernelIdeal.Frame

noncomputable section

namespace Cert.KernelIdeal.Gen

open Idealize.ShloMosaic Idealize.ShloMosaic.TcCoe Idealize.SL.Sem

/-- Row r of the tile at grid coordinate i is row 1024·i + r of the resident arrays. -/
def tileRow (i : grid0.Coords) (r : Fin 1024) : Fin 4096 :=
  ⟨1024 * (i 0).val + r.val, by have h := (i 0).isLt; have h' : grid0.bound 0 = 4 := rfl; have := r.isLt; omega⟩

theorem tileRow_val (i : grid0.Coords) (r : Fin 1024) : (tileRow i r).val = 1024 * (i 0).val + r.val := rfl

variable {F : FTy → Type} [FloatOps F]
variable (i : grid0.Coords) (x0 x1 x2 : Vec F S1024x256 .f32) (x3 x4 x5 : Vec F S4096x256 .bf16) (x6 : Vec F S1024x1 .i32) (x7 : Vec F S1x4096 .i32)

/-! ## The loads -/

/-- The tile's 1024 rows of the resident normalized anchors. -/
def l3 : Vec F S1024x256 .bf16 := View.ld x3 (Rect.unit (s := S4096x256) (k0_off1 i) S1024x256.size (k0_off1_inb i))
/-- The tile's labels. -/
def l5 : Vec F S1024x1 .i32 := View.ld x6 (Rect.unit (s := S1024x1) ![0, 0] S1024x1.size inb_S1024x1_S1024x1_0_0)
/-- The eight chunks of 512 column labels. -/
def l10 : Vec F S1x512 .i32 := View.ld x7 (Rect.unit (s := S1x4096) ![0, 0] S1x512.size inb_S1x4096_S1x512_0_0)
def l39 : Vec F S1x512 .i32 := View.ld x7 (Rect.unit (s := S1x4096) ![0, 512] S1x512.size inb_S1x4096_S1x512_0_512)
def l68 : Vec F S1x512 .i32 := View.ld x7 (Rect.unit (s := S1x4096) ![0, 1024] S1x512.size inb_S1x4096_S1x512_0_1024)
def l97 : Vec F S1x512 .i32 := View.ld x7 (Rect.unit (s := S1x4096) ![0, 1536] S1x512.size inb_S1x4096_S1x512_0_1536)
def l126 : Vec F S1x512 .i32 := View.ld x7 (Rect.unit (s := S1x4096) ![0, 2048] S1x512.size inb_S1x4096_S1x512_0_2048)
def l155 : Vec F S1x512 .i32 := View.ld x7 (Rect.unit (s := S1x4096) ![0, 2560] S1x512.size inb_S1x4096_S1x512_0_2560)
def l184 : Vec F S1x512 .i32 := View.ld x7 (Rect.unit (s := S1x4096) ![0, 3072] S1x512.size inb_S1x4096_S1x512_0_3072)
def l213 : Vec F S1x512 .i32 := View.ld x7 (Rect.unit (s := S1x4096) ![0, 3584] S1x512.size inb_S1x4096_S1x512_0_3584)
/-- The eight chunks of 512 rows of the anchors (x3), the first positives (x4) and the second positives (x5). -/
def l15 : Vec F S512x256 .bf16 := View.ld x3 (Rect.unit (s := S4096x256) ![0, 0] S512x256.size inb_S4096x256_S512x256_0_0)
def l23 : Vec F S512x256 .bf16 := View.ld x4 (Rect.unit (s := S4096x256) ![0, 0] S512x256.size inb_S4096x256_S512x256_0_0)
def l31 : Vec F S512x256 .bf16 := View.ld x5 (Rect.unit (s := S4096x256) ![0, 0] S512x256.size inb_S4096x256_S512x256_0_0)
def l44 : Vec F S512x256 .bf16 := View.ld x3 (Rect.unit (s := S4096x256) ![512, 0] S512x256.size inb_S4096x256_S512x256_512_0)
def l52 : Vec F S512x256 .bf16 := View.ld x4 (Rect.unit (s := S4096x256) ![512, 0] S512x256.size inb_S4096x256_S512x256_512_0)
def l60 : Vec F S512x256 .bf16 := View.ld x5 (Rect.unit (s := S4096x256) ![512, 0] S512x256.size inb_S4096x256_S512x256_512_0)
def l73 : Vec F S512x256 .bf16 := View.ld x3 (Rect.unit (s := S4096x256) ![1024, 0] S512x256.size inb_S4096x256_S512x256_1024_0)
def l81 : Vec F S512x256 .bf16 := View.ld x4 (Rect.unit (s := S4096x256) ![1024, 0] S512x256.size inb_S4096x256_S512x256_1024_0)
def l89 : Vec F S512x256 .bf16 := View.ld x5 (Rect.unit (s := S4096x256) ![1024, 0] S512x256.size inb_S4096x256_S512x256_1024_0)
def l102 : Vec F S512x256 .bf16 := View.ld x3 (Rect.unit (s := S4096x256) ![1536, 0] S512x256.size inb_S4096x256_S512x256_1536_0)
def l110 : Vec F S512x256 .bf16 := View.ld x4 (Rect.unit (s := S4096x256) ![1536, 0] S512x256.size inb_S4096x256_S512x256_1536_0)
def l118 : Vec F S512x256 .bf16 := View.ld x5 (Rect.unit (s := S4096x256) ![1536, 0] S512x256.size inb_S4096x256_S512x256_1536_0)
def l131 : Vec F S512x256 .bf16 := View.ld x3 (Rect.unit (s := S4096x256) ![2048, 0] S512x256.size inb_S4096x256_S512x256_2048_0)
def l139 : Vec F S512x256 .bf16 := View.ld x4 (Rect.unit (s := S4096x256) ![2048, 0] S512x256.size inb_S4096x256_S512x256_2048_0)
def l147 : Vec F S512x256 .bf16 := View.ld x5 (Rect.unit (s := S4096x256) ![2048, 0] S512x256.size inb_S4096x256_S512x256_2048_0)
def l160 : Vec F S512x256 .bf16 := View.ld x3 (Rect.unit (s := S4096x256) ![2560, 0] S512x256.size inb_S4096x256_S512x256_2560_0)
def l168 : Vec F S512x256 .bf16 := View.ld x4 (Rect.unit (s := S4096x256) ![2560, 0] S512x256.size inb_S4096x256_S512x256_2560_0)
def l176 : Vec F S512x256 .bf16 := View.ld x5 (Rect.unit (s := S4096x256) ![2560, 0] S512x256.size inb_S4096x256_S512x256_2560_0)
def l189 : Vec F S512x256 .bf16 := View.ld x3 (Rect.unit (s := S4096x256) ![3072, 0] S512x256.size inb_S4096x256_S512x256_3072_0)
def l197 : Vec F S512x256 .bf16 := View.ld x4 (Rect.unit (s := S4096x256) ![3072, 0] S512x256.size inb_S4096x256_S512x256_3072_0)
def l205 : Vec F S512x256 .bf16 := View.ld x5 (Rect.unit (s := S4096x256) ![3072, 0] S512x256.size inb_S4096x256_S512x256_3072_0)
def l218 : Vec F S512x256 .bf16 := View.ld x3 (Rect.unit (s := S4096x256) ![3584, 0] S512x256.size inb_S4096x256_S512x256_3584_0)
def l226 : Vec F S512x256 .bf16 := View.ld x4 (Rect.unit (s := S4096x256) ![3584, 0] S512x256.size inb_S4096x256_S512x256_3584_0)
def l234 : Vec F S512x256 .bf16 := View.ld x5 (Rect.unit (s := S4096x256) ![3584, 0] S512x256.size inb_S4096x256_S512x256_3584_0)
/-- The tile's raw anchor rows and raw positive rows. -/
def l242 : Vec F S1024x256 .f32 := View.ld x0 (Rect.unit (s := S1024x256) ![0, 0] S1024x256.size inb_S1024x256_S1024x256_0_0)
def l251 : Vec F S1024x256 .f32 := View.ld x1 (Rect.unit (s := S1024x256) ![0, 0] S1024x256.size inb_S1024x256_S1024x256_0_0)
def l261 : Vec F S1024x256 .f32 := View.ld x2 (Rect.unit (s := S1024x256) ![0, 0] S1024x256.size inb_S1024x256_S1024x256_0_0)

/-! ## The chain of pure steps -/

def w4 : FVec F S1024x256 .bf16 := k0_pay2 (l3 i x3)
def w6 : IVec S1024x1 32 := k0_pay3 (l5 x6)
def w9 : FVec F S1024x1 .f32 := k0_pay4 (F := F)
def w22 : FVec F S1024x1 .f32 := k0_pay6 (l3 i x3) (l5 x6) (l10 x7) (l15 x3)
def w30 : FVec F S1024x1 .f32 := k0_pay7 (l3 i x3) (l5 x6) (l10 x7) (l23 x4)
def w35 : FVec F S1024x512 .f32 := k0_pay8 (l3 i x3) (l5 x6) (l10 x7) (l31 x5)
def w51 : FVec F S1024x1 .f32 := k0_pay10 (w4 i x3) (w6 x6) (w22 i x3 x6 x7) (l39 x7) (l44 x3)
def w59 : FVec F S1024x1 .f32 := k0_pay11 (w4 i x3) (w6 x6) (w30 i x3 x4 x6 x7) (l39 x7) (l52 x4)
def w67 : FVec F S1024x1 .f32 := k0_pay12 (w4 i x3) (w6 x6) (w9 (F := F)) (w35 i x3 x5 x6 x7) (l39 x7) (l60 x5)
def w72 : IVec S1024x512 1 := k0_pay13 (w6 x6) (l68 x7)
def w88 : FVec F S1024x1 .f32 := k0_pay14 (w4 i x3) (w59 i x3 x4 x6 x7) (w72 x6 x7) (l81 x4)
def w96 : FVec F S1024x1 .f32 := k0_pay15 (w4 i x3) (w67 i x3 x5 x6 x7) (w72 x6 x7) (l89 x5)
def w101 : IVec S1024x512 1 := k0_pay16 (w6 x6) (l97 x7)
def w109 : FVec F S1024x1 .f32 := k0_pay17 (w4 i x3) (w6 x6) (w51 i x3 x6 x7) (w72 x6 x7) (l73 x3) (l97 x7) (l102 x3)
def w111 : FVec F S512x256 .bf16 := k0_pay18 (l110 x4)
def w125 : FVec F S1024x1 .f32 := k0_pay19 (w4 i x3) (w96 i x3 x5 x6 x7) (w101 x6 x7) (l118 x5)
def w130 : IVec S1024x512 1 := k0_pay20 (w6 x6) (l126 x7)
def w138 : FVec F S1024x1 .f32 := k0_pay21 (w4 i x3) (w6 x6) (w109 i x3 x6 x7) (l126 x7) (l131 x3)
def w146 : FVec F S1024x1 .f32 := k0_pay22 (w4 i x3) (w6 x6) (w88 i x3 x4 x6 x7) (w101 x6 x7) (w111 x4) (l126 x7) (l139 x4)
def w148 : FVec F S512x256 .bf16 := k0_pay23 (l147 x5)
def w82 : FVec F S1024x512 .f32 := constant S1024x512 .f32 0x00000000#32
def w167 : FVec F S1024x1 .f32 := k0_pay25 (w4 i x3) (w6 x6) (w138 i x3 x6 x7) (l155 x7) (l160 x3)
def w175 : FVec F S1024x1 .f32 := k0_pay26 (w4 i x3) (w6 x6) (w146 i x3 x4 x6 x7) (l155 x7) (l168 x4)
def w183 : FVec F S1024x1 .f32 := k0_pay27 (w4 i x3) (w6 x6) (w125 i x3 x5 x6 x7) (w130 x6 x7) (w148 x5) (w82 (F := F)) (l155 x7) (l176 x5)
def w186 : IVec S1024x512 32 := k0_pay28 (l184 x7)
def w187 : IVec S1024x512 32 := k0_pay29 (w6 x6)
def w204 : FVec F S1024x1 .f32 := k0_pay31 (w4 i x3) (w175 i x3 x4 x6 x7) (w186 x7) (w187 x6) (l197 x4)
def w212 : FVec F S1024x1 .f32 := k0_pay32 (w4 i x3) (w183 i x3 x5 x6 x7) (w186 x7) (w187 x6) (l205 x5)
def w217 : IVec S1024x512 1 := k0_pay33 (w6 x6) (l213 x7)
/-- The running maximum over all eight chunks of the anchors' inner products with anchors of another label, -/
def mAA : FVec F S1024x1 .f32 := k0_pay34 (w4 i x3) (w6 x6) (w167 i x3 x6 x7) (w186 x7) (w187 x6) (l189 x3) (l213 x7) (l218 x3)
/-- with first positives of another label, -/
def mP0 : FVec F S1024x1 .f32 := k0_pay35 (w4 i x3) (w204 i x3 x4 x6 x7) (w217 x6 x7) (l226 x4)
/-- and with second positives of another label. -/
def mP1 : FVec F S1024x1 .f32 := k0_pay36 (w4 i x3) (w212 i x3 x5 x6 x7) (w217 x6 x7) (l234 x5)
def w250 : FVec F S1024x256 .f32 := k0_pay37 (l242 x0)
def w260 : FVec F S1024x256 .f32 := k0_pay38 (l251 x1)
def w262 : FVec F S1024x256 .f32 := k0_pay39 (l261 x2)
def w264 : FVec F S1024 .f32 := k0_pay40 (l261 x2)
def w284 : FVec F S1024x1 .f32 := k0_pay41 (w250 x0) (w262 x2) (w264 x2)
def w307 : FVec F S1024x1 .f32 := k0_pay43 (mAA i x3 x6 x7) (mP1 i x3 x5 x6 x7)
def w308 : FVec F S1024x1 .f32 := k0_pay44 (mAA i x3 x6 x7) (mP0 i x3 x4 x6 x7) (w250 x0) (w260 x1)
def w309 : FVec F S1024x1 .f32 := k0_pay45 (F := F)
/-- The block the body stores. -/
def bodyVal : FVec F S1x1024 .f32 := k0_pay1 (w284 x0 x2) (w307 i x3 x5 x6 x7) (w308 i x0 x1 x3 x4 x6 x7) (w309 (F := F))

end Cert.KernelIdeal.Gen

end
-- ==== Proof.KPiece.lean ====
/-
  The block one grid point's body leaves is the body's value: the one store covers the whole [1, 1024] block, and
  each load reads the rectangle of its input block that the chain of steps names.
-/
import proofs.«425167_j26594437497379_3_alg».proof.Proof.KBodyDefs
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem zero_off_S1x1024 : (![0, 0] : Fin S1x1024.rank → Nat) = fun _ => 0 := by
  funext a; match a with | ⟨0, _⟩ => rfl | ⟨1, _⟩ => rfl

set_option maxHeartbeats 4000000 in
theorem out_eq_bodyVal (c : Dev nD) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1024x1 .i32) (harg7 : arg7.IsWhole) (arg8 : Memref sig .tc .vmem S1x4096 .i32) (harg8 : arg8.IsWhole) (arg9 : Memref sig .tc .vmem S1x1024 .f32) (harg9 : arg9.IsWhole) (x0 : Vec F S1024x256 .f32) (x1 : Vec F S1024x256 .f32) (x2 : Vec F S1024x256 .f32) (x3 : Vec F S4096x256 .bf16) (x4 : Vec F S4096x256 .bf16) (x5 : Vec F S4096x256 .bf16) (x6 : Vec F S1024x1 .i32) (x7 : Vec F S1x4096 .i32) :
    out0_A_8 (F := F) c i arg1 harg1 arg2 harg2 arg3 harg3 arg4 harg4 arg5 harg5 arg6 harg6 arg7 harg7 arg8 harg8 arg9 harg9 x0 x1 x2 x3 x4 x5 x6 x7 = bodyVal i x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  unfold kernelRun0_A
  dsimp only
  sl_unfold_words
  rw [View.canon_unit_zero zero_off_S1x1024]
  simp only [View.readAt_eq_ld, harg1.read_unread, harg2.read_unread, harg3.read_unread, harg4.read_unread,
    harg5.read_unread, harg6.read_unread, harg7.read_unread, harg8.read_unread]
  rfl

end Cert.KernelIdeal.Gen

end
-- ==== Proof.Chunks.lean ====
/-
  The largest masked inner product over 4096 columns is the running maximum, from −∞, of the largest over each of the
  eight chunks of 512 columns.
-/
import proofs.«425167_j26594437497379_3_alg».proof.Proof.Spec
import Mathlib.Data.Finset.Fold
import Mathlib.Tactic.FinCases

noncomputable section

namespace Cert.Triplet

/-- Chunk `c` (512 consecutive columns) of a family over 4096 columns. -/
def chunk {α : Type} (f : Fin 4096 → α) (c : Fin 8) : Fin 512 → α := fun j => f ⟨512 * c.val + j.val, by omega⟩

theorem chunk_apply {α : Type} (f : Fin 4096 → α) (c : Fin 8) (j : Fin 512) : chunk f c j = f ⟨512 * c.val + j.val, by omega⟩ := rfl

/-- A masked maximum is below a bound exactly when every admitted column's inner product is. -/
private theorem mmax_le_iff {n : Nat} (l : BitVec 32) (lc : Fin n → BitVec 32) (a : Row) (cols : Fin n → Row) (c : EReal) :
    mmax l lc a cols ≤ c ↔ ∀ j, (if lc j ≠ l then dot a (cols j) else ⊥) ≤ c := by
  unfold mmax
  rw [Finset.fold_max_le]
  simp

/-- Both sides have the same upper bounds: every column j of the 4096 is column j % 512 of chunk j / 512. -/
theorem mmax_chunks (l : BitVec 32) (lc : Fin 4096 → BitVec 32) (a : Row) (cols : Fin 4096 → Row) :
    max (max (max (max (max (max (max (max (⊥) (mmax l (chunk lc 0) a (chunk cols 0))) (mmax l (chunk lc 1) a (chunk cols 1))) (mmax l (chunk lc 2) a (chunk cols 2))) (mmax l (chunk lc 3) a (chunk cols 3))) (mmax l (chunk lc 4) a (chunk cols 4))) (mmax l (chunk lc 5) a (chunk cols 5))) (mmax l (chunk lc 6) a (chunk cols 6))) (mmax l (chunk lc 7) a (chunk cols 7))
      = mmax l lc a cols := by
  refine eq_of_forall_ge_iff fun c => ?_
  simp only [max_le_iff, mmax_le_iff, bot_le, true_and]
  constructor
  · rintro ⟨⟨⟨⟨⟨⟨⟨h0, h1⟩, h2⟩, h3⟩, h4⟩, h5⟩, h6⟩, h7⟩ j
    have H : ∀ (c' : Fin 8) (j' : Fin 512),
        (if chunk lc c' j' ≠ l then dot a (chunk cols c' j') else ⊥) ≤ c := by
      intro c'
      fin_cases c'
      exacts [h0, h1, h2, h3, h4, h5, h6, h7]
    have hj := H ⟨j.val / 512, by omega⟩ ⟨j.val % 512, Nat.mod_lt _ (by norm_num)⟩
    have e : (⟨512 * (j.val / 512) + j.val % 512, by omega⟩ : Fin 4096) = j := Fin.ext (Nat.div_add_mod _ _)
    simpa only [chunk_apply, e] using hj
  · intro h
    refine ⟨⟨⟨⟨⟨⟨⟨?_, ?_⟩, ?_⟩, ?_⟩, ?_⟩, ?_⟩, ?_⟩, ?_⟩ <;> intro j <;> exact h _

end Cert.Triplet

end
-- ==== Proof.KMineAASteps.lean ====
/-
  One step of the running maximum, read at a row.

  For a tile of 1024 rows `a`, a chunk of 512 columns `col` and a mask `m`, the step forms the 1024 × 512 inner
  products (each a sum over the 256 features), replaces the masked-out ones by −∞, takes each row's largest, and joins
  it to the running value by `max`.  Entry r of the result is therefore
  max (acc r) (the largest, over the admitted columns j, of ∑ k, a r k · col j k), the largest over no column being −∞.
  The mask admits column j for row r exactly when the column's label differs from the row's.
-/
import proofs.«425167_j26594437497379_3_alg».proof.Proof.KBodyDefs
import proofs.«425167_j26594437497379_3_alg».proof.Proof.Spec
import Idealize.ShloMosaic.PureOps.Ideal.Laws
import Idealize.ShloMosaic.Lib.ValueIdx
import Idealize.ShloMosaic.Lib.Pipeline.Value
import Idealize.ShloMosaic.Lib.Affine
import Mathlib.Data.Finset.Fold

noncomputable section

namespace Cert.KernelIdeal.Gen

open Idealize.ShloMosaic Idealize.ShloMosaic.TcCoe Idealize.ShloMosaic.ValueIdx Idealize.SL.Sem Cert.Triplet

/-- The word 0xFF800000 is −∞. -/
theorem ofBits_neg_inf : Ideal.ofBits .f32 0xFF800000#32 = ⊥ := by simp [Ideal.ofBits, Ideal.ieee]

/-! ## The product of the tile's rows with a chunk's rows, at an entry -/

theorem lhs_mm_0 (i : S1024x512.Idx) (q : dot_S1024x256_S512x256_S1024x512_1_1_0_0_n_n.contr.Idx) :
    (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem lhs_mm_1 (i : S1024x512.Idx) (q : dot_S1024x256_S512x256_S1024x512_1_1_0_0_n_n.contr.Idx) :
    (dot_S1024x256_S512x256_S1024x512_1_1_0_0_n_n.lhsIdx i q 1).val = (q ⟨0, by decide⟩).val :=
  dot_S1024x256_S512x256_S1024x512_1_1_0_0_n_n.lhsIdx_val_of_single rfl i q
theorem rhs_mm_0 (i : S1024x512.Idx) (q : dot_S1024x256_S512x256_S1024x512_1_1_0_0_n_n.contr.Idx) :
    (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem rhs_mm_1 (i : S1024x512.Idx) (q : dot_S1024x256_S512x256_S1024x512_1_1_0_0_n_n.contr.Idx) :
    (dot_S1024x256_S512x256_S1024x512_1_1_0_0_n_n.rhsIdx i q 1).val = (q ⟨0, by decide⟩).val :=
  dot_S1024x256_S512x256_S1024x512_1_1_0_0_n_n.rhsIdx_val_of_single rfl i q

/-- Entry (r, j) of the product into the zero accumulator: the inner product of row r of the tile with row j of the chunk. -/
theorem mm_apply (a : FVec Ideal S1024x256 .bf16) (c : FVec Ideal S512x256 .bf16) (r : Fin 1024) (j : Fin 512) :
    matmul dot_S1024x256_S512x256_S1024x512_1_1_0_0_n_n none a c (constant (F := Ideal) S1024x512 .f32 0x00000000#32) (ix2 r j)
      = ∑ k : Fin 256, a (ix2 r k) * c (ix2 j k) := by
  refine (Ideal.matmul_constant_zero_apply dot_S1024x256_S512x256_S1024x512_1_1_0_0_n_n none a c (ix2 r j)).trans ?_
  rw [← Equiv.sum_comp (contrEquiv1 dot_S1024x256_S512x256_S1024x512_1_1_0_0_n_n 256 rfl rfl).symm]
  refine Finset.sum_congr rfl fun k _ => ?_
  have hk := contrEquiv1_symm_val dot_S1024x256_S512x256_S1024x512_1_1_0_0_n_n 256 rfl rfl k
  have el : dot_S1024x256_S512x256_S1024x512_1_1_0_0_n_n.lhsIdx (ix2 r j) ((contrEquiv1 dot_S1024x256_S512x256_S1024x512_1_1_0_0_n_n 256 rfl rfl).symm k) = ix2 r k := funext fun x => Fin.ext (by
    match x with
    | ⟨0, _⟩ => exact lhs_mm_0 _ _
    | ⟨1, _⟩ => exact (lhs_mm_1 _ _).trans hk)
  have er : dot_S1024x256_S512x256_S1024x512_1_1_0_0_n_n.rhsIdx (ix2 r j) ((contrEquiv1 dot_S1024x256_S512x256_S1024x512_1_1_0_0_n_n 256 rfl rfl).symm k) = ix2 j k := funext fun x => Fin.ext (by
    match x with
    | ⟨0, _⟩ => exact rhs_mm_0 _ _
    | ⟨1, _⟩ => exact (rhs_mm_1 _ _).trans hk)
  rw [el, er]

/-! ## The mask -/

variable {F : FTy → Type} [FloatOps F]

/-- Column j is admitted for row r when the column's label differs from the row's. -/
def mmask (l : IVec S1024x1 32) (lc : Vec F S1x512 .i32) : IVec S1024x512 1 :=
  cmpi .ne (broadcastTo S1024x512 (shapeCast S1x512 lc shapeCasts_S1x512_S1x512) broadcasts_S1x512_S1024x512)
    (broadcastTo S1024x512 l broadcasts_S1024x1_S1024x512)

theorem mmask_apply (l : IVec S1024x1 32) (lc : Vec Ideal S1x512 .i32) (r : Fin 1024) (j : Fin 512) :
    mmask (F := Ideal) l lc (ix2 r j) = 1#1 ↔ lc (ix2 0 j) ≠ l (ix2 r 0) := by
  unfold mmask
  show IntOp.cmpi .ne (broadcastTo S1024x512 (shapeCast S1x512 lc shapeCasts_S1x512_S1x512) broadcasts_S1x512_S1024x512 (ix2 r j))
      (broadcastTo S1024x512 l broadcasts_S1024x1_S1024x512 (ix2 r j)) = 1#1 ↔ _
  rw [IntOp.cmpi_ne, shapeCast_self,
    broadcastTo_apply lc broadcasts_S1x512_S1024x512 (ix2 r j) (ix2 0 j) (fun a => by match a with | ⟨0, _⟩ => rfl | ⟨1, _⟩ => rfl),
    broadcastTo_apply l broadcasts_S1024x1_S1024x512 (ix2 r j) (ix2 r 0) (fun a => by match a with | ⟨0, _⟩ => rfl | ⟨1, _⟩ => rfl)]

/-! ## One step -/

/-- One step of the running maximum: the operations of the kernel's loop body, in its order. -/
def mstep (acc : FVec F S1024x1 .f32) (m : IVec S1024x512 1) (a : FVec F S1024x256 .bf16) (col : Vec F S512x256 .bf16) : FVec F S1024x1 .f32 :=
  maximumf acc (shapeCast S1024x1
    (multiReduction .maximumf [1] S1024
      (select m (matmul dot_S1024x256_S512x256_S1024x512_1_1_0_0_n_n none a (shapeCast S512x256 col shapeCasts_S512x256_S512x256) (constant S1024x512 .f32 0x00000000#32))
        (broadcast S1024x512 (Scalar.ofBits .f32 0xFF800000#32)))
      0xFF800000#32 reduces_S1024x512_S1024 (.inl rfl) rfl)
    shapeCasts_S1024_S1024x1)

/-- The column view [1024] → [1024, 1] read at row r. -/
theorem colcast_apply (v : FVec Ideal S1024 .f32) (r : Fin 1024) :
    shapeCast S1024x1 v shapeCasts_S1024_S1024x1 (ix2 r 0) = v (ix1 r) := by
  refine shapeCast_apply v shapeCasts_S1024_S1024x1 (ix2 r 0) (ix1 r) ?_
  rw [Shape.rowMajor_val_one, Shape.rowMajor_val_two]
  show r.val = r.val * 1 + 0
  omega

/-- A row's largest entry, the largest of none being −∞. -/
theorem rowmax_apply (v : FVec Ideal S1024x512 .f32) (hφ : FKind.Formats .f32)
    (hacc : (0xFF800000#32 : BitVec 32) = FKind.maximumf.neutral .f32 hφ) (r : Fin 1024) :
    multiReduction .maximumf [1] S1024 v 0xFF800000#32 reduces_S1024x512_S1024 hφ hacc (ix1 r)
      = Finset.univ.fold max ⊥ fun j : Fin 512 => v (ix2 r j) := by
  refine (Ideal.multiReduction_maximumf_single v 0xFF800000#32 reduces_S1024x512_S1024 hφ hacc (ix1 r)).trans ?_
  show (Finset.univ : Finset (Fin 512)).fold max (Ideal.ofBits .f32 0xFF800000#32) _ = _
  rw [ofBits_neg_inf]
  refine Finset.fold_congr fun j _ => ?_
  exact congrArg v (funext fun c => Fin.ext (by match c with | ⟨0, _⟩ => rfl | ⟨1, _⟩ => rfl))

/-- Entry r of a step. -/
theorem mstep_apply (acc : FVec Ideal S1024x1 .f32) (m : IVec S1024x512 1) (a : FVec Ideal S1024x256 .bf16) (col : FVec Ideal S512x256 .bf16) (r : Fin 1024) :
    mstep (F := Ideal) acc m a col (ix2 r 0)
      = max (acc (ix2 r 0)) (Finset.univ.fold max ⊥ fun j : Fin 512 => if m (ix2 r j) = 1#1 then ∑ k : Fin 256, a (ix2 r k) * col (ix2 j k) else ⊥) := by
  unfold mstep
  refine (maximumf_apply _ _ _).trans (congrArg (max (acc (ix2 r 0))) ?_)
  refine (colcast_apply _ r).trans ?_
  refine (rowmax_apply _ _ _ r).trans ?_
  refine Finset.fold_congr fun j _ => ?_
  show (if m (ix2 r j) = 1 then
      matmul dot_S1024x256_S512x256_S1024x512_1_1_0_0_n_n none a (shapeCast S512x256 col shapeCasts_S512x256_S512x256) (constant (F := Ideal) S1024x512 .f32 0x00000000#32) (ix2 r j)
    else Ideal.ofBits .f32 0xFF800000#32) = _
  rw [shapeCast_self, mm_apply, ofBits_neg_inf]
  rfl

end Cert.KernelIdeal.Gen

end
-- ==== Proof.KMineAA.lean ====
/-
  Entry r of the running maximum against the anchors: the largest inner product of the tile's row r with an anchor of another label, over all 4096 anchors.

  The running value starts at −∞ and passes through eight steps, one per chunk of 512 anchors; each step joins, by max,
  the largest admitted inner product of its chunk.  The eight chunks together are the 4096 anchors.
-/
import proofs.«425167_j26594437497379_3_alg».proof.Proof.KBodyDefs
import proofs.«425167_j26594437497379_3_alg».proof.Proof.Chunks
import proofs.«425167_j26594437497379_3_alg».proof.Proof.KMineAASteps

noncomputable section

namespace Cert.KernelIdeal.Gen

open Idealize.ShloMosaic Idealize.ShloMosaic.TcCoe Idealize.ShloMosaic.ValueIdx Idealize.SL.Sem Cert.Triplet

/-! ## The chain of values as steps -/

section Chain
variable {F : FTy → Type} [FloatOps F]
variable (i : grid0.Coords) (x3 : Vec F S4096x256 .bf16) (x6 : Vec F S1024x1 .i32) (x7 : Vec F S1x4096 .i32)

theorem w22_eq : w22 (F := F) i x3 x6 x7
    = mstep (w9 (F := F)) (mmask (F := F) (w6 (F := F) x6) (l10 (F := F) x7)) (w4 (F := F) i x3) (l15 (F := F) x3) := rfl
theorem w51_eq : w51 (F := F) i x3 x6 x7
    = mstep (w22 (F := F) i x3 x6 x7) (mmask (F := F) (w6 (F := F) x6) (l39 (F := F) x7)) (w4 (F := F) i x3) (l44 (F := F) x3) := rfl
theorem w109_eq : w109 (F := F) i x3 x6 x7
    = mstep (mstep (w51 (F := F) i x3 x6 x7) (mmask (F := F) (w6 (F := F) x6) (l68 (F := F) x7)) (w4 (F := F) i x3) (l73 (F := F) x3))
        (mmask (F := F) (w6 (F := F) x6) (l97 (F := F) x7)) (w4 (F := F) i x3) (l102 (F := F) x3) := rfl
theorem w138_eq : w138 (F := F) i x3 x6 x7
    = mstep (w109 (F := F) i x3 x6 x7) (mmask (F := F) (w6 (F := F) x6) (l126 (F := F) x7)) (w4 (F := F) i x3) (l131 (F := F) x3) := rfl
theorem w167_eq : w167 (F := F) i x3 x6 x7
    = mstep (w138 (F := F) i x3 x6 x7) (mmask (F := F) (w6 (F := F) x6) (l155 (F := F) x7)) (w4 (F := F) i x3) (l160 (F := F) x3) := rfl
theorem mAA_eq : mAA (F := F) i x3 x6 x7
    = mstep (mstep (w167 (F := F) i x3 x6 x7) (mmask (F := F) (w6 (F := F) x6) (l184 (F := F) x7)) (w4 (F := F) i x3) (l189 (F := F) x3))
        (mmask (F := F) (w6 (F := F) x6) (l213 (F := F) x7)) (w4 (F := F) i x3) (l218 (F := F) x3) := rfl

end Chain

/-! ## What the loads read -/

/-- The tile's row r is row 1024·i + r of the resident anchors. -/
theorem w4_rows (i : grid0.Coords) (x3 : Vec Ideal S4096x256 .bf16) (r : Fin 1024) :
    rows (w4 (F := Ideal) i x3) r = rows x3 (tileRow i r) := by
  funext k
  show shapeCast S1024x256 (l3 (F := Ideal) i x3) shapeCasts_S1024x256_S1024x256 (ix2 r k) = x3 (ix2 (tileRow i r) k)
  rw [shapeCast_self]
  show x3 ((Rect.unit (s := S4096x256) (k0_off1 i) S1024x256.size (k0_off1_inb i)).idx (ix2 r k)) = x3 (ix2 (tileRow i r) k)
  refine congrArg x3 (funext fun a => Fin.ext ?_)
  match a with
  | ⟨0, _⟩ =>
    show k0_off1 i 0 + 1 * r.val = 1024 * (i 0).val + r.val
    rw [k0_off1_eq]; simp
  | ⟨1, _⟩ =>
    show k0_off1 i 1 + 1 * k.val = k.val
    rw [k0_off1_eq]; simp

/-- The tile's label of row r. -/
theorem w6_apply (x6 : Vec Ideal S1024x1 .i32) (r : Fin 1024) : w6 (F := Ideal) x6 (ix2 r 0) = x6 (ix2 r 0) := by
  show shapeCast S1024x1 (l5 (F := Ideal) x6) shapeCasts_S1024x1_S1024x1 (ix2 r 0) = x6 (ix2 r 0)
  rw [shapeCast_self]
  show x6 ((Rect.unit (s := S1024x1) ![0, 0] S1024x1.size inb_S1024x1_S1024x1_0_0).idx (ix2 r 0)) = x6 (ix2 r 0)
  refine congrArg x6 (funext fun a => Fin.ext ?_)
  match a with
  | ⟨0, _⟩ => show 0 + 1 * r.val = r.val; omega
  | ⟨1, _⟩ => rfl

/-- The 512 labels loaded at column offset 512·c are chunk c of the labels. -/
theorem ldLabs_chunk (x7 : Vec Ideal S1x4096 .i32) (c : Fin 8) (off : Nat) (hoff : off = 512 * c.val)
    (inb : ∀ a, (![0, off] : Fin 2 → Nat) a + S1x512.size a ≤ S1x4096.size a) :
    (fun j : Fin 512 => View.ld x7 (Rect.unit (s := S1x4096) ![0, off] S1x512.size inb) (ix2 0 j))
      = chunk (fun j => x7 (ix2 0 j)) c := by
  subst hoff
  funext j
  show x7 ((Rect.unit (s := S1x4096) ![0, 512 * c.val] S1x512.size inb).idx (ix2 0 j)) = x7 (ix2 0 ⟨512 * c.val + j.val, by omega⟩)
  refine congrArg x7 (funext fun a => Fin.ext ?_)
  match a with
  | ⟨0, _⟩ => rfl
  | ⟨1, _⟩ => show 512 * c.val + 1 * j.val = 512 * c.val + j.val; omega

/-- The 512 rows loaded at row offset 512·c are chunk c of the rows. -/
theorem ldCols_chunk (x : Vec Ideal S4096x256 .bf16) (c : Fin 8) (off : Nat) (hoff : off = 512 * c.val)
    (inb : ∀ a, (![off, 0] : Fin 2 → Nat) a + S512x256.size a ≤ S4096x256.size a) :
    rows (n := 512) (d := 256) (View.ld x (Rect.unit (s := S4096x256) ![off, 0] S512x256.size inb)) = chunk (rows x) c := by
  subst hoff
  funext j k
  show x ((Rect.unit (s := S4096x256) ![512 * c.val, 0] S512x256.size inb).idx (ix2 j k)) = x (ix2 ⟨512 * c.val + j.val, by omega⟩ k)
  refine congrArg x (funext fun a => Fin.ext ?_)
  match a with
  | ⟨0, _⟩ => show 512 * c.val + 1 * j.val = 512 * c.val + j.val; omega
  | ⟨1, _⟩ => show 0 + 1 * k.val = k.val; omega

/-! ## One step in the specification's words -/

/-- A step whose mask compares the columns' labels with the rows': entry r joins the largest inner product of row r
    with a column of another label. -/
theorem mstep_mmask_apply (acc : FVec Ideal S1024x1 .f32) (l : IVec S1024x1 32) (lc : Vec Ideal S1x512 .i32)
    (a : FVec Ideal S1024x256 .bf16) (col : FVec Ideal S512x256 .bf16) (r : Fin 1024) :
    mstep (F := Ideal) acc (mmask (F := Ideal) l lc) a col (ix2 r 0)
      = max (acc (ix2 r 0)) (mmax (l (ix2 r 0)) (fun j : Fin 512 => lc (ix2 0 j)) (rows a r) (rows col)) := by
  refine (mstep_apply acc _ a col r).trans (congrArg (max (acc (ix2 r 0))) ?_)
  unfold mmax
  refine Finset.fold_congr fun j _ => ?_
  exact if_congr (mmask_apply l lc r j) rfl rfl

/-- The step of chunk c. -/
theorem step_chunk (i : grid0.Coords) (x3 : Vec Ideal S4096x256 .bf16) (x6 : Vec Ideal S1024x1 .i32) (x7 : Vec Ideal S1x4096 .i32)
    (acc : FVec Ideal S1024x1 .f32) (c : Fin 8) (lc : Vec Ideal S1x512 .i32) (col : Vec Ideal S512x256 .bf16)
    (hlc : (fun j : Fin 512 => lc (ix2 0 j)) = chunk (fun j => x7 (ix2 0 j)) c) (hcol : rows col = chunk (rows x3) c) (r : Fin 1024) :
    mstep (F := Ideal) acc (mmask (F := Ideal) (w6 (F := Ideal) x6) lc) (w4 (F := Ideal) i x3) col (ix2 r 0)
      = max (acc (ix2 r 0))
          (mmax (x6 (ix2 r 0)) (chunk (fun j => x7 (ix2 0 j)) c) (rows x3 (tileRow i r)) (chunk (rows x3) c)) := by
  refine (mstep_mmask_apply acc _ lc _ col r).trans ?_
  rw [hlc, hcol, w6_apply, w4_rows]

/-! ## The eight steps -/

theorem mAA_apply (i : grid0.Coords) (x3 : Vec Ideal S4096x256 .bf16) (x6 : Vec Ideal S1024x1 .i32) (x7 : Vec Ideal S1x4096 .i32) (r : Fin 1024) :
    mAA (F := Ideal) i x3 x6 x7 (ix2 r 0)
      = mmax (x6 (ix2 r 0)) (fun j => x7 (ix2 0 j)) (rows x3 (tileRow i r)) (rows x3) := by
  refine Eq.trans ?_ (mmax_chunks (x6 (ix2 r 0)) (fun j => x7 (ix2 0 j)) (rows x3 (tileRow i r)) (rows x3))
  rw [mAA_eq]
  refine (step_chunk i x3 x6 x7 _ 7 _ _ (ldLabs_chunk x7 7 3584 rfl _) (ldCols_chunk x3 7 3584 rfl _) r).trans (congrArg₂ max ?_ rfl)
  refine (step_chunk i x3 x6 x7 _ 6 _ _ (ldLabs_chunk x7 6 3072 rfl _) (ldCols_chunk x3 6 3072 rfl _) r).trans (congrArg₂ max ?_ rfl)
  rw [w167_eq]
  refine (step_chunk i x3 x6 x7 _ 5 _ _ (ldLabs_chunk x7 5 2560 rfl _) (ldCols_chunk x3 5 2560 rfl _) r).trans (congrArg₂ max ?_ rfl)
  rw [w138_eq]
  refine (step_chunk i x3 x6 x7 _ 4 _ _ (ldLabs_chunk x7 4 2048 rfl _) (ldCols_chunk x3 4 2048 rfl _) r).trans (congrArg₂ max ?_ rfl)
  rw [w109_eq]
  refine (step_chunk i x3 x6 x7 _ 3 _ _ (ldLabs_chunk x7 3 1536 rfl _) (ldCols_chunk x3 3 1536 rfl _) r).trans (congrArg₂ max ?_ rfl)
  refine (step_chunk i x3 x6 x7 _ 2 _ _ (ldLabs_chunk x7 2 1024 rfl _) (ldCols_chunk x3 2 1024 rfl _) r).trans (congrArg₂ max ?_ rfl)
  rw [w51_eq]
  refine (step_chunk i x3 x6 x7 _ 1 _ _ (ldLabs_chunk x7 1 512 rfl _) (ldCols_chunk x3 1 512 rfl _) r).trans (congrArg₂ max ?_ rfl)
  rw [w22_eq]
  refine (step_chunk i x3 x6 x7 _ 0 _ _ (ldLabs_chunk x7 0 0 rfl _) (ldCols_chunk x3 0 0 rfl _) r).trans (congrArg₂ max ?_ rfl)
  exact ofBits_neg_inf

end Cert.KernelIdeal.Gen

end
-- ==== Proof.KMineP0.lean ====
/-
  Entry r of the running maximum against the first positives: the largest inner product of the tile's row r with a first positive of another label, over all 4096.

  Each of the eight steps of the loop joins the running maximum with the largest admitted inner product of the row
  with the 512 columns of its chunk; the eight chunks together are all 4096 columns.
-/
import proofs.«425167_j26594437497379_3_alg».proof.Proof.KBodyDefs
import proofs.«425167_j26594437497379_3_alg».proof.Proof.Chunks
import Idealize.ShloMosaic.PureOps.Ideal.Laws
import Idealize.ShloMosaic.Lib.ValueLayout

noncomputable section

namespace Cert.KernelIdeal.Gen.P0

open Idealize.ShloMosaic Idealize.ShloMosaic.TcCoe Idealize.ShloMosaic.ValueIdx Idealize.SL.Sem Cert.Triplet

/-! ## Words and layout operations at an index -/

/-- The word 0xFF800000 is −∞. -/
theorem ofBits_neg_inf : Ideal.ofBits .f32 0xFF800000#32 = ⊥ := by simp [Ideal.ofBits, Ideal.ieee]

/-- An [a] vector cast to a column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of the tile's rows with a chunk's columns -/

theorem lhs_0 (i : S1024x512.Idx) (q : dot_S1024x256_S512x256_S1024x512_1_1_0_0_n_n.contr.Idx) :
    (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem lhs_1 (i : S1024x512.Idx) (q : dot_S1024x256_S512x256_S1024x512_1_1_0_0_n_n.contr.Idx) :
    (dot_S1024x256_S512x256_S1024x512_1_1_0_0_n_n.lhsIdx i q 1).val = (q ⟨0, by decide⟩).val :=
  dot_S1024x256_S512x256_S1024x512_1_1_0_0_n_n.lhsIdx_val_of_single rfl i q
theorem rhs_0 (i : S1024x512.Idx) (q : dot_S1024x256_S512x256_S1024x512_1_1_0_0_n_n.contr.Idx) :
    (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem rhs_1 (i : S1024x512.Idx) (q : dot_S1024x256_S512x256_S1024x512_1_1_0_0_n_n.contr.Idx) :
    (dot_S1024x256_S512x256_S1024x512_1_1_0_0_n_n.rhsIdx i q 1).val = (q ⟨0, by decide⟩).val :=
  dot_S1024x256_S512x256_S1024x512_1_1_0_0_n_n.rhsIdx_val_of_single rfl i q

/-- Entry (r, j) of the product into the zero accumulator: the inner product of row r with column j. -/
theorem matmul_at (a : FVec Ideal S1024x256 .bf16) (col : FVec Ideal S512x256 .bf16) (r : Fin 1024) (j : Fin 512) :
    matmul dot_S1024x256_S512x256_S1024x512_1_1_0_0_n_n none a col (constant (F := Ideal) S1024x512 .f32 0x00000000#32) (ix2 r j)
      = ∑ k : Fin 256, a (ix2 r k) * col (ix2 j k) := by
  simp only [matmul]
  rw [Ideal.matmul_constant_zero_apply, ← Equiv.sum_comp (ValueIdx.contrEquiv1 dot_S1024x256_S512x256_S1024x512_1_1_0_0_n_n 256 rfl rfl).symm]
  refine Finset.sum_congr rfl fun k _ => ?_
  have hk := ValueIdx.contrEquiv1_symm_val dot_S1024x256_S512x256_S1024x512_1_1_0_0_n_n 256 rfl rfl k
  have el : dot_S1024x256_S512x256_S1024x512_1_1_0_0_n_n.lhsIdx (ix2 r j) ((ValueIdx.contrEquiv1 dot_S1024x256_S512x256_S1024x512_1_1_0_0_n_n 256 rfl rfl).symm k) = ix2 r k := funext fun a => Fin.ext (by
    match a with
    | ⟨0, _⟩ => exact lhs_0 _ _
    | ⟨1, _⟩ => exact (lhs_1 _ _).trans hk)
  have er : dot_S1024x256_S512x256_S1024x512_1_1_0_0_n_n.rhsIdx (ix2 r j) ((ValueIdx.contrEquiv1 dot_S1024x256_S512x256_S1024x512_1_1_0_0_n_n 256 rfl rfl).symm k) = ix2 j k := funext fun a => Fin.ext (by
    match a with
    | ⟨0, _⟩ => exact rhs_0 _ _
    | ⟨1, _⟩ => exact (rhs_1 _ _).trans hk)
  rw [el, er]

/-! ## The lane maximum -/

/-- Entry r of the maximum over the lane axis from −∞: the fold of max over the row's 512 entries. -/
theorem rowmax_at (src : FVec Ideal S1024x512 .f32) (r : Fin 1024) :
    multiReduction (F := Ideal) .maximumf [1] S1024 src 0xFF800000#32 reduces_S1024x512_S1024 (.inl rfl) rfl (ix1 r)
      = Finset.univ.fold max ⊥ (fun j : Fin 512 => src (ix2 r j)) := by
  refine (Ideal.multiReduction_maximumf_single src 0xFF800000#32 reduces_S1024x512_S1024 (.inl rfl) rfl (ix1 r)).trans ?_
  have hb : FloatOps.ofBits (F := Ideal) .f32 0xFF800000#32 = (⊥ : EReal) := ofBits_neg_inf
  have hf : (src ∘ reduces_S1024x512_S1024.lift (ix1 r)) = (fun j : Fin 512 => src (ix2 r j)) :=
    funext fun j => congrArg src (funext fun a => Fin.ext (by
      match a with
      | ⟨0, _⟩ => rfl
      | ⟨1, _⟩ => rfl))
  exact congrArg₂ (fun (b : EReal) (f : Fin 512 → EReal) => Finset.fold max b f (Finset.univ : Finset (Fin 512))) hb hf

/-! ## The mask and the step -/

/-- The mask of one chunk: where the column's label differs from the row's. -/
def mask (lr : IVec S1024x1 32) (lc : IVec S1x512 32) : IVec S1024x512 1 :=
  cmpi .ne (broadcastTo S1024x512 lc broadcasts_S1x512_S1024x512) (broadcastTo S1024x512 lr broadcasts_S1024x1_S1024x512)

theorem mask_apply (lr : IVec S1024x1 32) (lc : IVec S1x512 32) (r : Fin 1024) (j : Fin 512) :
    mask lr lc (ix2 r j) = 1#1 ↔ lc (ix2 0 j) ≠ lr (ix2 r 0) := by
  unfold mask
  show IntOp.cmpi .ne (broadcastTo S1024x512 lc broadcasts_S1x512_S1024x512 (ix2 r j)) (broadcastTo S1024x512 lr broadcasts_S1024x1_S1024x512 (ix2 r j)) = 1#1 ↔ _
  rw [broadcastTo_1b_ab_apply, broadcastTo_a1_ab_apply]
  exact IntOp.cmpi_ne

/-- One step of the loop: the product into a zero accumulator, the masked entries sent to −∞, the lane maximum, and the
    running maximum joined with it. -/
def step (a : FVec Ideal S1024x256 .bf16) (acc : FVec Ideal S1024x1 .f32) (m : IVec S1024x512 1) (col : FVec Ideal S512x256 .bf16) :
    FVec Ideal S1024x1 .f32 :=
  maximumf acc (shapeCast S1024x1 (multiReduction .maximumf [1] S1024
    (select m (matmul dot_S1024x256_S512x256_S1024x512_1_1_0_0_n_n none a col (constant S1024x512 .f32 0x00000000#32))
      (broadcast S1024x512 (Scalar.ofBits .f32 0xFF800000#32)))
    0xFF800000#32 reduces_S1024x512_S1024 (.inl rfl) rfl) shapeCasts_S1024_S1024x1)

theorem step_apply (a : FVec Ideal S1024x256 .bf16) (acc : FVec Ideal S1024x1 .f32) (m : IVec S1024x512 1) (col : FVec Ideal S512x256 .bf16) (r : Fin 1024) :
    step a acc m col (ix2 r 0)
      = max (acc (ix2 r 0)) (Finset.univ.fold max ⊥ fun j : Fin 512 =>
          if m (ix2 r j) = 1#1 then ∑ k : Fin 256, a (ix2 r k) * col (ix2 j k) else ⊥) := by
  unfold step
  rw [maximumf_apply, shapeCast_a_a1_apply, rowmax_at]
  refine congrArg (max _) ?_
  refine congrArg (fun f : Fin 512 → EReal => Finset.fold max ⊥ f (Finset.univ : Finset (Fin 512))) (funext fun j => ?_)
  rw [select_apply, matmul_at, broadcast_apply]
  show Scalar.select (m (ix2 r j)) _ (Ideal.ofBits .f32 0xFF800000#32) = _
  rw [ofBits_neg_inf]
  rfl

/-- The step under a chunk's mask, at row r: the running maximum joined with the chunk's largest admitted inner product. -/
theorem step_mask_apply (a : FVec Ideal S1024x256 .bf16) (acc : FVec Ideal S1024x1 .f32) (lr : IVec S1024x1 32) (lc : IVec S1x512 32)
    (col : FVec Ideal S512x256 .bf16) (r : Fin 1024) :
    step a acc (mask lr lc) col (ix2 r 0)
      = max (acc (ix2 r 0)) (mmax (lr (ix2 r 0)) (fun j => lc (ix2 0 j)) (rows a r) (rows col)) := by
  rw [step_apply]
  refine congrArg (max _) ?_
  unfold mmax
  refine congrArg (fun f : Fin 512 → EReal => Finset.fold max ⊥ f (Finset.univ : Finset (Fin 512))) (funext fun j => ?_)
  by_cases h : lc (ix2 0 j) ≠ lr (ix2 r 0)
  · rw [if_pos ((mask_apply lr lc r j).2 h), if_pos h]; rfl
  · rw [if_neg (fun h' => h ((mask_apply lr lc r j).1 h')), if_neg h]

/-! ## The tile's rows, the row labels, and the chunks of column labels and columns -/

/-- Row r of the tile's anchors is row 1024·i + r of the resident anchors. -/
theorem w4_row (i : grid0.Coords) (x3 : Vec Ideal S4096x256 .bf16) (r : Fin 1024) :
    rows (w4 (F := Ideal) i x3) r = rows x3 (tileRow i r) := by
  funext k
  show shapeCast S1024x256 (l3 (F := Ideal) i x3) shapeCasts_S1024x256_S1024x256 (ix2 r k) = x3 (ix2 (tileRow i r) k)
  rw [shapeCast_self]
  show x3 ((Rect.unit (s := S4096x256) (k0_off1 i) S1024x256.size (k0_off1_inb i)).idx (ix2 r k)) = _
  refine congrArg x3 (funext fun a => Fin.ext ?_)
  match a with
  | ⟨0, _⟩ =>
    show k0_off1 i 0 + 1 * r.val = 1024 * (i 0).val + r.val
    rw [k0_off1_eq]
    show 1024 * (i 0).val + 1 * r.val = 1024 * (i 0).val + r.val
    omega
  | ⟨1, _⟩ =>
    show k0_off1 i 1 + 1 * k.val = k.val
    rw [k0_off1_eq]
    show 0 + 1 * k.val = k.val
    omega

/-- The tile's label of row r. -/
theorem w6_at (x6 : Vec Ideal S1024x1 .i32) (r : Fin 1024) : w6 (F := Ideal) x6 (ix2 r 0) = x6 (ix2 r 0) := by
  show shapeCast S1024x1 (l5 (F := Ideal) x6) shapeCasts_S1024x1_S1024x1 (ix2 r 0) = _
  rw [shapeCast_self]
  show x6 ((Rect.unit (s := S1024x1) ![0, 0] S1024x1.size inb_S1024x1_S1024x1_0_0).idx (ix2 r 0)) = _
  refine congrArg x6 (funext fun a => Fin.ext ?_)
  match a with
  | ⟨0, _⟩ => show 0 + 1 * r.val = r.val; omega
  | ⟨1, _⟩ => rfl

/-- The 512 labels loaded from column offset 512·c are chunk c of the 4096 labels. -/
theorem lab_at (x7 : Vec Ideal S1x4096 .i32) (o : Nat) (inb : ∀ a, (![0, o] : Fin 2 → Nat) a + S1x512.size a ≤ S1x4096.size a)
    (c : Fin 8) (ho : o = 512 * c.val) (j : Fin 512) :
    View.ld x7 (Rect.unit (s := S1x4096) ![0, o] S1x512.size inb) (ix2 0 j) = chunk (fun j => x7 (ix2 0 j)) c j := by
  show x7 ((Rect.unit (s := S1x4096) ![0, o] S1x512.size inb).idx (ix2 0 j)) = x7 (ix2 0 ⟨512 * c.val + j.val, _⟩)
  refine congrArg x7 (funext fun a => Fin.ext ?_)
  match a with
  | ⟨0, _⟩ => rfl
  | ⟨1, _⟩ => show o + 1 * j.val = 512 * c.val + j.val; omega

/-- The 512 rows loaded from row offset 512·c are chunk c of the 4096 columns. -/
theorem col_at (x4 : Vec Ideal S4096x256 .bf16) (o : Nat) (inb : ∀ a, (![o, 0] : Fin 2 → Nat) a + S512x256.size a ≤ S4096x256.size a)
    (c : Fin 8) (ho : o = 512 * c.val) (j : Fin 512) (k : Fin 256) :
    View.ld x4 (Rect.unit (s := S4096x256) ![o, 0] S512x256.size inb) (ix2 j k) = chunk (rows x4) c j k := by
  show x4 ((Rect.unit (s := S4096x256) ![o, 0] S512x256.size inb).idx (ix2 j k)) = x4 (ix2 ⟨512 * c.val + j.val, _⟩ k)
  refine congrArg x4 (funext fun a => Fin.ext ?_)
  match a with
  | ⟨0, _⟩ => show o + 1 * j.val = 512 * c.val + j.val; omega
  | ⟨1, _⟩ => show 0 + 1 * k.val = k.val; omega

/-! ## One chunk's step on the tile -/

/-- The step of one chunk, from the loaded labels and columns of the chunk. -/
def S (i : grid0.Coords) (x3 : Vec Ideal S4096x256 .bf16) (x6 : Vec Ideal S1024x1 .i32) (lab : Vec Ideal S1x512 .i32)
    (colv : Vec Ideal S512x256 .bf16) (acc : FVec Ideal S1024x1 .f32) : FVec Ideal S1024x1 .f32 :=
  step (w4 (F := Ideal) i x3) acc (mask (w6 (F := Ideal) x6) (shapeCast S1x512 lab shapeCasts_S1x512_S1x512))
    (shapeCast S512x256 colv shapeCasts_S512x256_S512x256)

section
variable (i : grid0.Coords) (x3 x4 : Vec Ideal S4096x256 .bf16) (x6 : Vec Ideal S1024x1 .i32) (x7 : Vec Ideal S1x4096 .i32) (r : Fin 1024)

/-- The largest inner product of the tile's row r with a column of chunk c whose label differs from the row's. -/
def M (c : Fin 8) : EReal :=
  mmax (x6 (ix2 r 0)) (chunk (fun j => x7 (ix2 0 j)) c) (rows x3 (tileRow i r)) (chunk (rows x4) c)

theorem S_apply (c : Fin 8) (lab : Vec Ideal S1x512 .i32) (colv : Vec Ideal S512x256 .bf16)
    (hlab : ∀ j : Fin 512, lab (ix2 0 j) = chunk (fun j => x7 (ix2 0 j)) c j)
    (hcol : ∀ (j : Fin 512) (k : Fin 256), colv (ix2 j k) = chunk (rows x4) c j k)
    (acc : FVec Ideal S1024x1 .f32) :
    S i x3 x6 lab colv acc (ix2 r 0) = max (acc (ix2 r 0)) (M i x3 x4 x6 x7 r c) := by
  unfold S M
  rw [shapeCast_self, shapeCast_self, step_mask_apply, w6_at, w4_row]
  have e1 : (fun j : Fin 512 => lab (ix2 0 j)) = chunk (fun j => x7 (ix2 0 j)) c := funext fun j => hlab j
  have e2 : rows colv = chunk (rows x4) c := funext fun j => funext fun k => hcol j k
  rw [e1, e2]

/-! ## The eight steps -/

theorem w30_at : w30 (F := Ideal) i x3 x4 x6 x7 (ix2 r 0) = max ⊥ (M i x3 x4 x6 x7 r 0) := by
  have e : w30 (F := Ideal) i x3 x4 x6 x7
      = S i x3 x6 (l10 x7) (l23 x4) (broadcast S1024x1 (Scalar.ofBits (F := Ideal) .f32 0xFF800000#32)) := rfl
  rw [e, S_apply i x3 x4 x6 x7 r 0 (l10 x7) (l23 x4) (lab_at x7 0 _ 0 rfl) (col_at x4 0 _ 0 rfl), broadcast_apply]
  show max (Ideal.ofBits .f32 0xFF800000#32) _ = _
  rw [ofBits_neg_inf]

theorem w59_at : w59 (F := Ideal) i x3 x4 x6 x7 (ix2 r 0) = max (w30 (F := Ideal) i x3 x4 x6 x7 (ix2 r 0)) (M i x3 x4 x6 x7 r 1) := by
  have e : w59 (F := Ideal) i x3 x4 x6 x7 = S i x3 x6 (l39 x7) (l52 x4) (w30 (F := Ideal) i x3 x4 x6 x7) := rfl
  rw [e, S_apply i x3 x4 x6 x7 r 1 (l39 x7) (l52 x4) (lab_at x7 512 _ 1 rfl) (col_at x4 512 _ 1 rfl)]

theorem w88_at : w88 (F := Ideal) i x3 x4 x6 x7 (ix2 r 0) = max (w59 (F := Ideal) i x3 x4 x6 x7 (ix2 r 0)) (M i x3 x4 x6 x7 r 2) := by
  have e : w88 (F := Ideal) i x3 x4 x6 x7 = S i x3 x6 (l68 x7) (l81 x4) (w59 (F := Ideal) i x3 x4 x6 x7) := rfl
  rw [e, S_apply i x3 x4 x6 x7 r 2 (l68 x7) (l81 x4) (lab_at x7 1024 _ 2 rfl) (col_at x4 1024 _ 2 rfl)]

theorem w146_at : w146 (F := Ideal) i x3 x4 x6 x7 (ix2 r 0)
    = max (max (w88 (F := Ideal) i x3 x4 x6 x7 (ix2 r 0)) (M i x3 x4 x6 x7 r 3)) (M i x3 x4 x6 x7 r 4) := by
  have e : w146 (F := Ideal) i x3 x4 x6 x7
      = S i x3 x6 (l126 x7) (l139 x4) (S i x3 x6 (l97 x7) (l110 x4) (w88 (F := Ideal) i x3 x4 x6 x7)) := rfl
  rw [e, S_apply i x3 x4 x6 x7 r 4 (l126 x7) (l139 x4) (lab_at x7 2048 _ 4 rfl) (col_at x4 2048 _ 4 rfl),
    S_apply i x3 x4 x6 x7 r 3 (l97 x7) (l110 x4) (lab_at x7 1536 _ 3 rfl) (col_at x4 1536 _ 3 rfl)]

theorem w175_at : w175 (F := Ideal) i x3 x4 x6 x7 (ix2 r 0) = max (w146 (F := Ideal) i x3 x4 x6 x7 (ix2 r 0)) (M i x3 x4 x6 x7 r 5) := by
  have e : w175 (F := Ideal) i x3 x4 x6 x7 = S i x3 x6 (l155 x7) (l168 x4) (w146 (F := Ideal) i x3 x4 x6 x7) := rfl
  rw [e, S_apply i x3 x4 x6 x7 r 5 (l155 x7) (l168 x4) (lab_at x7 2560 _ 5 rfl) (col_at x4 2560 _ 5 rfl)]

theorem w204_at : w204 (F := Ideal) i x3 x4 x6 x7 (ix2 r 0) = max (w175 (F := Ideal) i x3 x4 x6 x7 (ix2 r 0)) (M i x3 x4 x6 x7 r 6) := by
  have e : w204 (F := Ideal) i x3 x4 x6 x7 = S i x3 x6 (l184 x7) (l197 x4) (w175 (F := Ideal) i x3 x4 x6 x7) := rfl
  rw [e, S_apply i x3 x4 x6 x7 r 6 (l184 x7) (l197 x4) (lab_at x7 3072 _ 6 rfl) (col_at x4 3072 _ 6 rfl)]

theorem mP0_at : mP0 (F := Ideal) i x3 x4 x6 x7 (ix2 r 0) = max (w204 (F := Ideal) i x3 x4 x6 x7 (ix2 r 0)) (M i x3 x4 x6 x7 r 7) := by
  have e : mP0 (F := Ideal) i x3 x4 x6 x7 = S i x3 x6 (l213 x7) (l226 x4) (w204 (F := Ideal) i x3 x4 x6 x7) := rfl
  rw [e, S_apply i x3 x4 x6 x7 r 7 (l213 x7) (l226 x4) (lab_at x7 3584 _ 7 rfl) (col_at x4 3584 _ 7 rfl)]

end

end Cert.KernelIdeal.Gen.P0

namespace Cert.KernelIdeal.Gen

open Idealize.ShloMosaic Idealize.ShloMosaic.TcCoe Idealize.ShloMosaic.ValueIdx Idealize.SL.Sem Cert.Triplet

theorem mP0_apply (i : grid0.Coords) (x3 x4 : Vec Ideal S4096x256 .bf16) (x6 : Vec Ideal S1024x1 .i32) (x7 : Vec Ideal S1x4096 .i32) (r : Fin 1024) :
    mP0 (F := Ideal) i x3 x4 x6 x7 (ix2 r 0)
      = mmax (x6 (ix2 r 0)) (fun j => x7 (ix2 0 j)) (rows x3 (tileRow i r)) (rows x4) := by
  rw [P0.mP0_at, P0.w204_at, P0.w175_at, P0.w146_at, P0.w88_at, P0.w59_at, P0.w30_at]
  exact mmax_chunks (x6 (ix2 r 0)) (fun j => x7 (ix2 0 j)) (rows x3 (tileRow i r)) (rows x4)

end Cert.KernelIdeal.Gen

end
-- ==== Proof.KMineP1.lean ====
/-
  Entry r of the running maximum against the second positives: the largest inner product of the tile's row r with a second positive of another label, over all 4096.

  The maximum is carried through eight steps, one per chunk of 512 columns.  A step forms the products of the tile's
  1024 rows with the chunk's 512 columns, replaces by −∞ those whose column has the row's label, takes the largest of
  each row and joins it to the maximum so far.  At row r a step therefore adds, to the maximum so far, the largest
  product of row r with a column of the chunk of another label; the eight chunks together are all 4096 columns.
-/
import proofs.«425167_j26594437497379_3_alg».proof.Proof.KBodyDefs
import proofs.«425167_j26594437497379_3_alg».proof.Proof.Chunks
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen.MineP1

open Idealize.ShloMosaic Idealize.ShloMosaic.TcCoe Idealize.ShloMosaic.ValueIdx Idealize.SL.Sem Cert.Triplet

/-- The word of −∞ reads as ⊥. -/
theorem ofBits_negInf : Ideal.ofBits .f32 0xFF800000#32 = ⊥ := by simp [Ideal.ofBits, Ideal.ieee]

/-- A select on the bit of "x ≠ y" is the conditional on x ≠ y. -/
theorem select_cmpi_ne {α : Type} (x y : BitVec 32) (A B : α) :
    Scalar.select (IntOp.cmpi .ne x y) A B = if x ≠ y then A else B := by
  show (if BitVec.ofBool (x != y) = 1#1 then A else B) = if x ≠ y then A else B
  by_cases h : x = y
  · subst h
    rw [if_neg (by simp), if_neg (by simp)]
  · have hb : (x != y) = true := bne_iff_ne.mpr h
    rw [hb, if_pos h]
    exact if_pos (by decide)

/-! The product's operand indices, axis by axis: the left operand is read at (row, k), the right at (column, k). -/
theorem lhs_mm_0 (i : S1024x512.Idx) (q : dot_S1024x256_S512x256_S1024x512_1_1_0_0_n_n.contr.Idx) :
    (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem lhs_mm_1 (i : S1024x512.Idx) (q : dot_S1024x256_S512x256_S1024x512_1_1_0_0_n_n.contr.Idx) :
    (dot_S1024x256_S512x256_S1024x512_1_1_0_0_n_n.lhsIdx i q 1).val = (q ⟨0, by decide⟩).val :=
  dot_S1024x256_S512x256_S1024x512_1_1_0_0_n_n.lhsIdx_val_of_single rfl i q
theorem rhs_mm_0 (i : S1024x512.Idx) (q : dot_S1024x256_S512x256_S1024x512_1_1_0_0_n_n.contr.Idx) :
    (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem rhs_mm_1 (i : S1024x512.Idx) (q : dot_S1024x256_S512x256_S1024x512_1_1_0_0_n_n.contr.Idx) :
    (dot_S1024x256_S512x256_S1024x512_1_1_0_0_n_n.rhsIdx i q 1).val = (q ⟨0, by decide⟩).val :=
  dot_S1024x256_S512x256_S1024x512_1_1_0_0_n_n.rhsIdx_val_of_single rfl i q

/-- Entry (r, j) of the product into the zero accumulator: the inner product of row r of the left operand with row j of the right. -/
theorem mm_apply (a : FVec Ideal S1024x256 .bf16) (col : FVec Ideal S512x256 .bf16) (r : Fin 1024) (j : Fin 512) :
    matmul dot_S1024x256_S512x256_S1024x512_1_1_0_0_n_n none a col (constant (F := Ideal) S1024x512 .f32 0x00000000#32) (ix2 r j)
      = ∑ k : Fin 256, a (ix2 r k) * col (ix2 j k) := by
  simp only [matmul]
  rw [Ideal.matmul_constant_zero_apply, ← Equiv.sum_comp (ValueIdx.contrEquiv1 dot_S1024x256_S512x256_S1024x512_1_1_0_0_n_n 256 rfl rfl).symm]
  refine Finset.sum_congr rfl fun k _ => ?_
  have hk := ValueIdx.contrEquiv1_symm_val dot_S1024x256_S512x256_S1024x512_1_1_0_0_n_n 256 rfl rfl k
  have el : dot_S1024x256_S512x256_S1024x512_1_1_0_0_n_n.lhsIdx (ix2 r j) ((ValueIdx.contrEquiv1 dot_S1024x256_S512x256_S1024x512_1_1_0_0_n_n 256 rfl rfl).symm k) = ix2 r k := funext fun ax => Fin.ext (by
    match ax with
    | ⟨0, _⟩ => exact lhs_mm_0 _ _
    | ⟨1, _⟩ => exact (lhs_mm_1 _ _).trans hk)
  have er : dot_S1024x256_S512x256_S1024x512_1_1_0_0_n_n.rhsIdx (ix2 r j) ((ValueIdx.contrEquiv1 dot_S1024x256_S512x256_S1024x512_1_1_0_0_n_n 256 rfl rfl).symm k) = ix2 j k := funext fun ax => Fin.ext (by
    match ax with
    | ⟨0, _⟩ => exact rhs_mm_0 _ _
    | ⟨1, _⟩ => exact (rhs_mm_1 _ _).trans hk)
  rw [el, er]

/-- Entry (r, 0) of the lane maximum laid out as a column: the largest entry of row r, from −∞. -/
theorem rowmax_apply (v : FVec Ideal S1024x512 .f32) (r : Fin 1024) :
    shapeCast S1024x1 (multiReduction (F := Ideal) .maximumf [1] S1024 v 0xFF800000#32 reduces_S1024x512_S1024 (.inl rfl) rfl) shapeCasts_S1024_S1024x1 (ix2 r 0)
      = Finset.univ.fold max ⊥ (fun j : Fin 512 => v (ix2 r j)) := by
  refine (shapeCast_apply _ _ (ix2 r (0 : Fin 1)) (ix1 r) ?_).trans ?_
  · rw [Shape.rowMajor_val_one, Shape.rowMajor_val_two]
    show r.val = r.val * 1 + 0
    omega
  · refine (Ideal.multiReduction_maximumf_single v 0xFF800000#32 reduces_S1024x512_S1024 (.inl rfl) rfl (ix1 r)).trans ?_
    show Finset.univ.fold max (Ideal.ofBits .f32 0xFF800000#32) (fun j : Fin 512 => v (reduces_S1024x512_S1024.lift (ix1 r) j)) = _
    rw [ofBits_negInf]
    refine congrArg (Finset.univ.fold max ⊥) (funext fun j => congrArg v (funext fun ax => Fin.ext ?_))
    match ax with
    | ⟨0, _⟩ => rfl
    | ⟨1, _⟩ => rfl

variable {F : FTy → Type} [FloatOps F]

/-- The mask of one chunk of 512 columns: entry (r, j) is the bit of "label of column j ≠ label of row r". -/
def lmask (lr : IVec S1024x1 32) (lc : IVec S1x512 32) : IVec S1024x512 1 :=
  cmpi .ne (broadcastTo S1024x512 lc broadcasts_S1x512_S1024x512) (broadcastTo S1024x512 lr broadcasts_S1024x1_S1024x512)

/-- One step of the running maximum: the rows' products with a chunk of 512 columns, those of equal label replaced by −∞,
    the largest of each row, joined to the maximum so far. -/
def mstep (acc : FVec F S1024x1 .f32) (mask : IVec S1024x512 1) (a : FVec F S1024x256 .bf16) (col : FVec F S512x256 .bf16)
    (z : FVec F S1024x512 .f32) : FVec F S1024x1 .f32 :=
  maximumf acc (shapeCast S1024x1 (multiReduction .maximumf [1] S1024 (select mask (matmul dot_S1024x256_S512x256_S1024x512_1_1_0_0_n_n none a col z) (broadcast S1024x512 (Scalar.ofBits .f32 0xFF800000#32))) 0xFF800000#32 reduces_S1024x512_S1024 (.inl rfl) rfl) shapeCasts_S1024_S1024x1)

/-- A column of labels broadcast along the lanes reads the row's label. -/
theorem bcast_col_apply (lr : IVec S1024x1 32) (r : Fin 1024) (j : Fin 512) :
    broadcastTo S1024x512 lr broadcasts_S1024x1_S1024x512 (ix2 r j) = lr (ix2 r 0) :=
  broadcastTo_apply lr broadcasts_S1024x1_S1024x512 (ix2 r j) (ix2 r (0 : Fin 1)) fun ax => by
    match ax with
    | ⟨0, _⟩ => rfl
    | ⟨1, _⟩ => rfl

theorem lmask_apply (lr : IVec S1024x1 32) (lc : IVec S1x512 32) (r : Fin 1024) (j : Fin 512) :
    lmask lr lc (ix2 r j) = IntOp.cmpi .ne (lc (ix2 0 j)) (lr (ix2 r 0)) := by
  show IntOp.cmpi .ne (broadcastTo S1024x512 lc broadcasts_S1x512_S1024x512 (ix2 r j)) (broadcastTo S1024x512 lr broadcasts_S1024x1_S1024x512 (ix2 r j)) = _
  rw [bcast_col_apply, broadcastTo_1b_ab_apply]

/-- The value of one step at row r: the maximum so far joined with the largest product of row r with a column of another label. -/
theorem mstep_apply (acc : FVec Ideal S1024x1 .f32) (lr : IVec S1024x1 32) (lc : IVec S1x512 32)
    (a : FVec Ideal S1024x256 .bf16) (col : FVec Ideal S512x256 .bf16) (r : Fin 1024) :
    mstep (F := Ideal) acc (lmask lr lc) a col (constant (F := Ideal) S1024x512 .f32 0x00000000#32) (ix2 r 0)
      = max (acc (ix2 r 0)) (Finset.univ.fold max ⊥ (fun j : Fin 512 =>
          if lc (ix2 0 j) ≠ lr (ix2 r 0) then ∑ k : Fin 256, a (ix2 r k) * col (ix2 j k) else ⊥)) := by
  unfold mstep
  rw [maximumf_apply]
  refine congrArg (max (acc (ix2 r 0))) ?_
  refine (rowmax_apply _ r).trans ?_
  refine congrArg (Finset.univ.fold max ⊥) (funext fun j => ?_)
  rw [select_apply, lmask_apply, select_cmpi_ne, mm_apply, broadcast_apply]
  exact congrArg (fun e => if lc (ix2 0 j) ≠ lr (ix2 r 0) then (∑ k : Fin 256, a (ix2 r k) * col (ix2 j k)) else e) ofBits_negInf

section Chain
variable {F : FTy → Type} [FloatOps F]
variable (i : grid0.Coords) (x3 x5 : Vec F S4096x256 .bf16) (x6 : Vec F S1024x1 .i32) (x7 : Vec F S1x4096 .i32)

/-! The body's steps against the second positives, each as the step function over the loads. -/

theorem w67_eq : w67 i x3 x5 x6 x7
    = mstep (mstep (w9 (F := F)) (lmask (l5 x6) (l10 x7)) (l3 i x3) (l31 x5) (constant S1024x512 .f32 0x00000000#32)) (lmask (l5 x6) (l39 x7)) (l3 i x3) (l60 x5) (constant S1024x512 .f32 0x00000000#32) := by
  unfold w67 w35 w4 w6 k0_pay12 k0_pay9 k0_pay8 k0_pay5 k0_pay3 k0_pay2 mstep lmask
  simp only [shapeCast_self]

theorem w96_eq : w96 i x3 x5 x6 x7
    = mstep (w67 i x3 x5 x6 x7) (lmask (l5 x6) (l68 x7)) (l3 i x3) (l89 x5) (constant S1024x512 .f32 0x00000000#32) := by
  unfold w96 w72 w4 w6 k0_pay15 k0_pay13 k0_pay3 k0_pay2 mstep lmask
  simp only [shapeCast_self]

theorem w125_eq : w125 i x3 x5 x6 x7
    = mstep (w96 i x3 x5 x6 x7) (lmask (l5 x6) (l97 x7)) (l3 i x3) (l118 x5) (constant S1024x512 .f32 0x00000000#32) := by
  unfold w125 w101 w4 w6 k0_pay19 k0_pay16 k0_pay3 k0_pay2 mstep lmask
  simp only [shapeCast_self]

theorem w183_eq : w183 i x3 x5 x6 x7
    = mstep (mstep (w125 i x3 x5 x6 x7) (lmask (l5 x6) (l126 x7)) (l3 i x3) (l147 x5) (constant S1024x512 .f32 0x00000000#32)) (lmask (l5 x6) (l155 x7)) (l3 i x3) (l176 x5) (constant S1024x512 .f32 0x00000000#32) := by
  unfold w183 w130 w148 w82 w4 w6 k0_pay27 k0_pay24 k0_pay23 k0_pay20 k0_pay3 k0_pay2 mstep lmask
  simp only [shapeCast_self]

theorem w212_eq : w212 i x3 x5 x6 x7
    = mstep (w183 i x3 x5 x6 x7) (lmask (l5 x6) (l184 x7)) (l3 i x3) (l205 x5) (constant S1024x512 .f32 0x00000000#32) := by
  unfold w212 w186 w187 w4 w6 k0_pay32 k0_pay30 k0_pay29 k0_pay28 k0_pay3 k0_pay2 mstep lmask
  simp only [shapeCast_self]

theorem mP1_eq : mP1 i x3 x5 x6 x7
    = mstep (w212 i x3 x5 x6 x7) (lmask (l5 x6) (l213 x7)) (l3 i x3) (l234 x5) (constant S1024x512 .f32 0x00000000#32) := by
  unfold mP1 w217 w4 w6 k0_pay36 k0_pay33 k0_pay3 k0_pay2 mstep lmask
  simp only [shapeCast_self]

/-! The loads at an index. -/

/-- The tile's row r of the resident anchors is row 1024·i + r. -/
theorem l3_apply (r : Fin 1024) (k : Fin 256) : l3 i x3 (ix2 r k) = x3 (ix2 (tileRow i r) k) := by
  have h0 : k0_off1 i 0 = 1024 * (i 0).val := by rw [k0_off1_eq]; rfl
  have h1 : k0_off1 i 1 = 0 := by rw [k0_off1_eq]; rfl
  exact congrArg x3 (funext fun ax => Fin.ext (by
    match ax with
    | ⟨0, _⟩ => show k0_off1 i 0 + 1 * r.val = 1024 * (i 0).val + r.val; rw [h0]; omega
    | ⟨1, _⟩ => show k0_off1 i 1 + 1 * k.val = k.val; rw [h1]; omega))

theorem l5_apply (r : Fin 1024) : l5 x6 (ix2 r 0) = x6 (ix2 r 0) :=
  congrArg x6 (funext fun ax => Fin.ext (by
    match ax with
    | ⟨0, _⟩ => show 0 + 1 * r.val = r.val; omega
    | ⟨1, _⟩ => rfl))

/-- The labels of chunk c: 512 consecutive entries of the label row from 512·c. -/
theorem ld_lab (c : Fin 8) (o : Nat) (ho : o = 512 * c.val) (inb : ∀ a, (![0, o] : Fin 2 → Nat) a + S1x512.size a ≤ S1x4096.size a) (j : Fin 512) :
    (View.ld x7 (Rect.unit (s := S1x4096) ![0, o] S1x512.size inb) : Vec F S1x512 .i32) (ix2 0 j)
      = chunk (fun j => x7 (ix2 0 j)) c j := by
  subst ho
  exact congrArg x7 (funext fun ax => Fin.ext (by
    match ax with
    | ⟨0, _⟩ => rfl
    | ⟨1, _⟩ => show 512 * c.val + 1 * j.val = 512 * c.val + j.val; omega))

/-- The columns of chunk c: 512 consecutive rows of a resident array from 512·c. -/
theorem ld_col (x : Vec F S4096x256 .bf16) (c : Fin 8) (o : Nat) (ho : o = 512 * c.val) (inb : ∀ a, (![o, 0] : Fin 2 → Nat) a + S512x256.size a ≤ S4096x256.size a)
    (j : Fin 512) (k : Fin 256) :
    (View.ld x (Rect.unit (s := S4096x256) ![o, 0] S512x256.size inb) : Vec F S512x256 .bf16) (ix2 j k)
      = x (ix2 ⟨512 * c.val + j.val, by have := c.isLt; have := j.isLt; omega⟩ k) := by
  subst ho
  exact congrArg x (funext fun ax => Fin.ext (by
    match ax with
    | ⟨0, _⟩ => show 512 * c.val + 1 * j.val = 512 * c.val + j.val; omega
    | ⟨1, _⟩ => show 0 + 1 * k.val = k.val; omega))

end Chain

section Value
variable (i : grid0.Coords) (x3 x5 : Vec Ideal S4096x256 .bf16) (x6 : Vec Ideal S1024x1 .i32) (x7 : Vec Ideal S1x4096 .i32)

/-- The largest product of the tile's row r with a second positive of another label within chunk c. -/
def M (r : Fin 1024) (c : Fin 8) : EReal :=
  mmax (x6 (ix2 r 0)) (chunk (fun j => x7 (ix2 0 j)) c) (rows x3 (tileRow i r)) (chunk (rows x5) c)

/-- One step over chunk c, whatever loads hold that chunk's labels and columns. -/
theorem chunk_step (acc : FVec Ideal S1024x1 .f32) (c : Fin 8) (lcv : Vec Ideal S1x512 .i32) (colv : Vec Ideal S512x256 .bf16)
    (hl : ∀ j : Fin 512, lcv (ix2 0 j) = chunk (fun j => x7 (ix2 0 j)) c j)
    (hc : ∀ (j : Fin 512) (k : Fin 256), colv (ix2 j k) = x5 (ix2 ⟨512 * c.val + j.val, by have := c.isLt; have := j.isLt; omega⟩ k))
    (r : Fin 1024) :
    mstep (F := Ideal) acc (lmask (l5 x6) lcv) (l3 i x3) colv (constant (F := Ideal) S1024x512 .f32 0x00000000#32) (ix2 r 0)
      = max (acc (ix2 r 0)) (M i x3 x5 x6 x7 r c) := by
  refine (mstep_apply acc (l5 x6) lcv (l3 i x3) colv r).trans ?_
  refine congrArg (max (acc (ix2 r 0))) ?_
  unfold M mmax dot
  refine congrArg (Finset.univ.fold max ⊥) (funext fun j => ?_)
  rw [hl j, l5_apply]
  refine congrArg (fun e => if chunk (fun j => x7 (ix2 0 j)) c j ≠ x6 (ix2 r 0) then e else ⊥) ?_
  refine Finset.sum_congr rfl fun k _ => ?_
  rw [hc j k, l3_apply]
  rfl

theorem w9_val (r : Fin 1024) : w9 (F := Ideal) (ix2 r 0) = ⊥ := ofBits_negInf

theorem w67_val (r : Fin 1024) : w67 (F := Ideal) i x3 x5 x6 x7 (ix2 r 0)
    = max (max ⊥ (M i x3 x5 x6 x7 r 0)) (M i x3 x5 x6 x7 r 1) := by
  rw [w67_eq]
  refine (chunk_step i x3 x5 x6 x7 _ 1 (l39 x7) (l60 x5) (fun j => ld_lab x7 1 512 rfl inb_S1x4096_S1x512_0_512 j) (fun j k => ld_col x5 1 512 rfl inb_S4096x256_S512x256_512_0 j k) r).trans ?_
  refine congrArg (fun e => max e (M i x3 x5 x6 x7 r 1)) ?_
  refine (chunk_step i x3 x5 x6 x7 _ 0 (l10 x7) (l31 x5) (fun j => ld_lab x7 0 0 rfl inb_S1x4096_S1x512_0_0 j) (fun j k => ld_col x5 0 0 rfl inb_S4096x256_S512x256_0_0 j k) r).trans ?_
  rw [w9_val]

theorem w96_val (r : Fin 1024) : w96 (F := Ideal) i x3 x5 x6 x7 (ix2 r 0)
    = max (max (max ⊥ (M i x3 x5 x6 x7 r 0)) (M i x3 x5 x6 x7 r 1)) (M i x3 x5 x6 x7 r 2) := by
  rw [w96_eq]
  refine (chunk_step i x3 x5 x6 x7 _ 2 (l68 x7) (l89 x5) (fun j => ld_lab x7 2 1024 rfl inb_S1x4096_S1x512_0_1024 j) (fun j k => ld_col x5 2 1024 rfl inb_S4096x256_S512x256_1024_0 j k) r).trans ?_
  rw [w67_val]

theorem w125_val (r : Fin 1024) : w125 (F := Ideal) i x3 x5 x6 x7 (ix2 r 0)
    = max (max (max (max ⊥ (M i x3 x5 x6 x7 r 0)) (M i x3 x5 x6 x7 r 1)) (M i x3 x5 x6 x7 r 2)) (M i x3 x5 x6 x7 r 3) := by
  rw [w125_eq]
  refine (chunk_step i x3 x5 x6 x7 _ 3 (l97 x7) (l118 x5) (fun j => ld_lab x7 3 1536 rfl inb_S1x4096_S1x512_0_1536 j) (fun j k => ld_col x5 3 1536 rfl inb_S4096x256_S512x256_1536_0 j k) r).trans ?_
  rw [w96_val]

theorem w183_val (r : Fin 1024) : w183 (F := Ideal) i x3 x5 x6 x7 (ix2 r 0)
    = max (max (max (max (max (max ⊥ (M i x3 x5 x6 x7 r 0)) (M i x3 x5 x6 x7 r 1)) (M i x3 x5 x6 x7 r 2)) (M i x3 x5 x6 x7 r 3)) (M i x3 x5 x6 x7 r 4)) (M i x3 x5 x6 x7 r 5) := by
  rw [w183_eq]
  refine (chunk_step i x3 x5 x6 x7 _ 5 (l155 x7) (l176 x5) (fun j => ld_lab x7 5 2560 rfl inb_S1x4096_S1x512_0_2560 j) (fun j k => ld_col x5 5 2560 rfl inb_S4096x256_S512x256_2560_0 j k) r).trans ?_
  refine congrArg (fun e => max e (M i x3 x5 x6 x7 r 5)) ?_
  refine (chunk_step i x3 x5 x6 x7 _ 4 (l126 x7) (l147 x5) (fun j => ld_lab x7 4 2048 rfl inb_S1x4096_S1x512_0_2048 j) (fun j k => ld_col x5 4 2048 rfl inb_S4096x256_S512x256_2048_0 j k) r).trans ?_
  rw [w125_val]

theorem w212_val (r : Fin 1024) : w212 (F := Ideal) i x3 x5 x6 x7 (ix2 r 0)
    = max (max (max (max (max (max (max ⊥ (M i x3 x5 x6 x7 r 0)) (M i x3 x5 x6 x7 r 1)) (M i x3 x5 x6 x7 r 2)) (M i x3 x5 x6 x7 r 3)) (M i x3 x5 x6 x7 r 4)) (M i x3 x5 x6 x7 r 5)) (M i x3 x5 x6 x7 r 6) := by
  rw [w212_eq]
  refine (chunk_step i x3 x5 x6 x7 _ 6 (l184 x7) (l205 x5) (fun j => ld_lab x7 6 3072 rfl inb_S1x4096_S1x512_0_3072 j) (fun j k => ld_col x5 6 3072 rfl inb_S4096x256_S512x256_3072_0 j k) r).trans ?_
  rw [w183_val]

theorem mP1_val (r : Fin 1024) : mP1 (F := Ideal) i x3 x5 x6 x7 (ix2 r 0)
    = max (max (max (max (max (max (max (max ⊥ (M i x3 x5 x6 x7 r 0)) (M i x3 x5 x6 x7 r 1)) (M i x3 x5 x6 x7 r 2)) (M i x3 x5 x6 x7 r 3)) (M i x3 x5 x6 x7 r 4)) (M i x3 x5 x6 x7 r 5)) (M i x3 x5 x6 x7 r 6)) (M i x3 x5 x6 x7 r 7) := by
  rw [mP1_eq]
  refine (chunk_step i x3 x5 x6 x7 _ 7 (l213 x7) (l234 x5) (fun j => ld_lab x7 7 3584 rfl inb_S1x4096_S1x512_0_3584 j) (fun j k => ld_col x5 7 3584 rfl inb_S4096x256_S512x256_3584_0 j k) r).trans ?_
  rw [w212_val]

end Value

end Cert.KernelIdeal.Gen.MineP1

namespace Cert.KernelIdeal.Gen

open Idealize.ShloMosaic Idealize.ShloMosaic.TcCoe Idealize.ShloMosaic.ValueIdx Idealize.SL.Sem Cert.Triplet

theorem mP1_apply (i : grid0.Coords) (x3 x5 : Vec Ideal S4096x256 .bf16) (x6 : Vec Ideal S1024x1 .i32) (x7 : Vec Ideal S1x4096 .i32) (r : Fin 1024) :
    mP1 (F := Ideal) i x3 x5 x6 x7 (ix2 r 0)
      = mmax (x6 (ix2 r 0)) (fun j => x7 (ix2 0 j)) (rows x3 (tileRow i r)) (rows x5) :=
  (MineP1.mP1_val i x3 x5 x6 x7 r).trans (mmax_chunks (x6 (ix2 r 0)) (fun j => x7 (ix2 0 j)) (rows x3 (tileRow i r)) (rows x5))

end Cert.KernelIdeal.Gen

end
-- ==== Proof.KBodyRows.lean ====
/-
  The per-row arithmetic of the body read at an index: a row's sum of squares, its length clamped below at ε, the row
  divided by it, the distance of two normalized rows, the distance formed from an inner product, and the two hinges.
-/
import proofs.«425167_j26594437497379_3_alg».proof.Proof.Gen.KernelIdeal.Frame
import proofs.«425167_j26594437497379_3_alg».proof.Proof.Spec
import Idealize.ShloMosaic.Lib.Pipeline.Value
import Idealize.ShloMosaic.Lib.ValueLayout
import Idealize.ShloMosaic.PureOps.Ideal.Laws

noncomputable section

namespace Cert.KernelIdeal.Gen

open Idealize.ShloMosaic Idealize.ShloMosaic.TcCoe Idealize.ShloMosaic.ValueIdx Idealize.SL.Sem Cert.Triplet

/-! ## Three layout steps at explicit coordinates -/

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of a [1024, 256] array, at row r. -/
theorem rowSum_apply (v : FVec Ideal S1024x256 .f32) (h : S1024x256.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ k : Fin 256, v (ix2 r k) := by
  refine (Ideal.multiReduction_add_single v _ h hφ hacc (ix1 r)).trans ?_
  refine Finset.sum_congr rfl fun k _ => congrArg v ?_
  funext a
  match a with
  | ⟨0, _⟩ => exact Fin.ext rfl
  | ⟨1, _⟩ => exact Fin.ext rfl

/-- The same sum kept as a column [1024, 1]. -/
def rowSumCol (v : FVec Ideal S1024x256 .f32) : FVec Ideal S1024x1 .f32 :=
  shapeCast S1024x1 (multiReduction .add [1] S1024 v 0x00000000#32 reduces_S1024x256_S1024 (.inl rfl) rfl) shapeCasts_S1024_S1024x1

theorem rowSumCol_apply (v : FVec Ideal S1024x256 .f32) (r : Fin 1024) :
    rowSumCol v (ix2 r 0) = ∑ k : Fin 256, v (ix2 r k) :=
  (shapeCast_a_a1_apply _ shapeCasts_S1024_S1024x1 r 0).trans (rowSum_apply v _ _ _ r)

/-! ## A row divided by its clamped length -/

/-- The normalization as the body writes it: x / max (√(Σ x²)) ε, the divisor spread over the row. -/
def normRows (v : FVec Ideal S1024x256 .f32) : FVec Ideal S1024x256 .f32 :=
  divf v (broadcastTo S1024x256 (maximumf (sqrt (rowSumCol (mulf v v))) (broadcast S1024x1 (Scalar.ofBits .f32 0x2B8CBCCC#32))) broadcasts_S1024x1_S1024x256)

theorem normRows_apply (v : FVec Ideal S1024x256 .f32) (r : Fin 1024) (k : Fin 256) :
    normRows v (ix2 r k) = unit (rows v r) k := by
  unfold normRows
  rw [divf_apply, broadcastTo_a1_ab_apply, maximumf_apply]
  show Ideal.div (v (ix2 r k)) (max (Ideal.sqrt (rowSumCol (mulf v v) (ix2 r 0))) eps) = _
  rw [rowSumCol_apply]
  rfl

/-- The rows of the normalized array are the normalized rows. -/
theorem rows_normRows (v : FVec Ideal S1024x256 .f32) (r : Fin 1024) : rows (normRows v) r = unit (rows v r) :=
  funext fun k => normRows_apply v r k

/-- The anchors' normalization is that step. -/
theorem pay37_eq (v : Vec Ideal S1024x256 .f32) : k0_pay37 (F := Ideal) v = normRows v := rfl

/-- A cast of the [1024, 256] array to its own shape changes nothing. -/
theorem pay39_eq (v : Vec Ideal S1024x256 .f32) : k0_pay39 (F := Ideal) v = v :=
  shapeCast_self v shapeCasts_S1024x256_S1024x256

/-- The first positives' normalization is the same step after such a cast. -/
theorem pay38_eq (v : Vec Ideal S1024x256 .f32) : k0_pay38 (F := Ideal) v = normRows v := by
  show normRows (k0_pay39 (F := Ideal) v) = normRows v
  rw [pay39_eq]

/-! ## The distance of two rows -/

/-- √(max (Σ (a − p)²) ε) per row, as a column. -/
def distCol (a p : FVec Ideal S1024x256 .f32) : FVec Ideal S1024x1 .f32 :=
  sqrt (maximumf (rowSumCol (mulf (subf a p) (subf a p))) (broadcast S1024x1 (Scalar.ofBits .f32 0x2B8CBCCC#32)))

theorem distCol_apply (a p : FVec Ideal S1024x256 .f32) (r : Fin 1024) :
    distCol a p (ix2 r 0) = posK (rows a r) (rows p r) := by
  show Ideal.sqrt (max (rowSumCol (mulf (subf a p) (subf a p)) (ix2 r 0)) eps) = _
  rw [rowSumCol_apply]
  rfl

/-- The second positives: the cast, the row sums of squares, and then, in one step, the normalization and the distance
    to the normalized anchors. -/
theorem pay41_eq (a : FVec Ideal S1024x256 .f32) (v : Vec Ideal S1024x256 .f32) :
    k0_pay41 (F := Ideal) a (k0_pay39 (F := Ideal) v) (k0_pay40 (F := Ideal) v) = distCol a (normRows v) := by
  show distCol a (normRows (k0_pay39 (F := Ideal) v)) = distCol a (normRows v)
  rw [pay39_eq]

/-! ## The distance formed from an inner product of two rows of length one -/

/-- √(max (2 − 2·m) ε), entry by entry. -/
def fdCol (m : FVec Ideal S1024x1 .f32) : FVec Ideal S1024x1 .f32 :=
  sqrt (maximumf (subf (broadcast S1024x1 (Scalar.ofBits .f32 0x40000000#32))
      (mulf (broadcast S1024x1 (Scalar.ofBits .f32 0x40000000#32)) m)) (broadcast S1024x1 (Scalar.ofBits .f32 0x2B8CBCCC#32)))

theorem fdCol_apply (m : FVec Ideal S1024x1 .f32) (j : S1024x1.Idx) : fdCol m j = fd (m j) := rfl

theorem pay42_eq (m : FVec Ideal S1024x1 .f32) : k0_pay42 (F := Ideal) m = fdCol m := rfl

/-- The hardest negative's distance for the second view: the smaller of the two distances formed from the two maxima. -/
theorem pay43_apply (mA mP : FVec Ideal S1024x1 .f32) (j : S1024x1.Idx) :
    k0_pay43 (F := Ideal) mA mP j = min (fd (mA j)) (fd (mP j)) := rfl

/-- The first view: the positive's distance minus the hardest negative's. -/
theorem pay44_eq (mA mP : FVec Ideal S1024x1 .f32) (a p : FVec Ideal S1024x256 .f32) :
    k0_pay44 (F := Ideal) mA mP a p = subf (distCol a p) (minimumf (fdCol mA) (fdCol mP)) := rfl

theorem pay44_apply (mA mP : FVec Ideal S1024x1 .f32) (a p : FVec Ideal S1024x256 .f32) (r : Fin 1024) :
    k0_pay44 (F := Ideal) mA mP a p (ix2 r 0)
      = posK (rows a r) (rows p r) - min (fd (mA (ix2 r 0))) (fd (mP (ix2 r 0))) := by
  rw [pay44_eq]
  show distCol a p (ix2 r 0) - min (fd (mA (ix2 r 0))) (fd (mP (ix2 r 0))) = _
  rw [distCol_apply]

/-- The splat of the word 1. -/
theorem pay45_apply (j : S1024x1.Idx) : (k0_pay45 (F := Ideal)) j = one := rfl

/-! ## The two hinges, added and laid out as a row -/

/-- The word +0 is the real 0. -/
theorem ofBits_zero : Ideal.ofBits .f32 0x00000000#32 = 0 := by
  simp [Ideal.ofBits, Ideal.ieee]

theorem pay1_apply (p1 n1 d0 u : FVec Ideal S1024x1 .f32) (r : Fin 1024) :
    k0_pay1 (F := Ideal) p1 n1 d0 u (ix2 0 r)
      = max (d0 (ix2 r 0) + u (ix2 r 0)) 0 + max (p1 (ix2 r 0) - n1 (ix2 r 0) + one) 0 := by
  unfold k0_pay1
  refine (transpose_ix2_apply _ transposes_S1024x1_p1_0_S1x1024 (0 : Fin 1) r).trans ?_
  show max (d0 (ix2 r 0) + u (ix2 r 0)) (Ideal.ofBits .f32 0x00000000#32)
      + max (p1 (ix2 r 0) - n1 (ix2 r 0) + one) (Ideal.ofBits .f32 0x00000000#32) = _
  rw [ofBits_zero]

end Cert.KernelIdeal.Gen

end
-- ==== Proof.KBody.lean ====
/-
  What one grid point's body leaves in its output block: entry r of the [1, 1024] block is the sum of the two
  hinge losses of row r of the tile.
-/
import proofs.«425167_j26594437497379_3_alg».proof.Proof.KBodyDefs
import proofs.«425167_j26594437497379_3_alg».proof.Proof.Spec
import proofs.«425167_j26594437497379_3_alg».proof.Proof.KPiece
import proofs.«425167_j26594437497379_3_alg».proof.Proof.KMineAA
import proofs.«425167_j26594437497379_3_alg».proof.Proof.KMineP0
import proofs.«425167_j26594437497379_3_alg».proof.Proof.KMineP1
import proofs.«425167_j26594437497379_3_alg».proof.Proof.KBodyRows

noncomputable section

namespace Cert.KernelIdeal.Gen

open Idealize.ShloMosaic Idealize.ShloMosaic.TcCoe Idealize.ShloMosaic.ValueIdx Idealize.SL.Sem Cert.Triplet

/-! ## The whole-block loads read their block as it is -/

theorem zero_off_S1024x256 : (![0, 0] : Fin S1024x256.rank → Nat) = fun _ => 0 := by
  funext a; match a with | ⟨0, _⟩ => rfl | ⟨1, _⟩ => rfl

theorem l242_eq (x0 : Vec Ideal S1024x256 .f32) : l242 x0 = x0 := View.ld_unit_zero zero_off_S1024x256 _ x0
theorem l251_eq (x1 : Vec Ideal S1024x256 .f32) : l251 x1 = x1 := View.ld_unit_zero zero_off_S1024x256 _ x1
theorem l261_eq (x2 : Vec Ideal S1024x256 .f32) : l261 x2 = x2 := View.ld_unit_zero zero_off_S1024x256 _ x2

/-! ## The three per-row quantities the hinges are formed from -/

/-- The second view's positive distance: between the normalized raw anchor row and the normalized raw second positive. -/
theorem w284_apply (x0 x2 : Vec Ideal S1024x256 .f32) (r : Fin 1024) :
    w284 (F := Ideal) x0 x2 (ix2 r 0) = posK (unit (rows x0 r)) (unit (rows x2 r)) := by
  unfold w284 w250 w262 w264
  rw [l242_eq, l261_eq, pay37_eq, pay41_eq, distCol_apply, rows_normRows, rows_normRows]

/-- The second view's hardest negative: the smaller of the distances formed from the two maxima. -/
theorem w307_apply (i : grid0.Coords) (x3 x5 : Vec Ideal S4096x256 .bf16) (x6 : Vec Ideal S1024x1 .i32) (x7 : Vec Ideal S1x4096 .i32)
    (r : Fin 1024) :
    w307 (F := Ideal) i x3 x5 x6 x7 (ix2 r 0)
      = min (fd (mmax (x6 (ix2 r 0)) (fun j => x7 (ix2 0 j)) (rows x3 (tileRow i r)) (rows x3)))
          (fd (mmax (x6 (ix2 r 0)) (fun j => x7 (ix2 0 j)) (rows x3 (tileRow i r)) (rows x5))) := by
  unfold w307
  rw [pay43_apply, mAA_apply, mP1_apply]

/-- The first view: its positive distance minus its hardest negative. -/
theorem w308_apply (i : grid0.Coords) (x0 x1 : Vec Ideal S1024x256 .f32) (x3 x4 : Vec Ideal S4096x256 .bf16)
    (x6 : Vec Ideal S1024x1 .i32) (x7 : Vec Ideal S1x4096 .i32) (r : Fin 1024) :
    w308 (F := Ideal) i x0 x1 x3 x4 x6 x7 (ix2 r 0)
      = posK (unit (rows x0 r)) (unit (rows x1 r))
        - min (fd (mmax (x6 (ix2 r 0)) (fun j => x7 (ix2 0 j)) (rows x3 (tileRow i r)) (rows x3)))
            (fd (mmax (x6 (ix2 r 0)) (fun j => x7 (ix2 0 j)) (rows x3 (tileRow i r)) (rows x4))) := by
  unfold w308 w250 w260
  rw [l242_eq, l251_eq, pay37_eq, pay38_eq, pay44_apply, rows_normRows, rows_normRows, mAA_apply, mP0_apply]

/-! ## The block -/

theorem body_row (c : Dev nD) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S1024x1 .i32) (harg7 : arg7.IsWhole) (arg8 : Memref sig .tc .vmem S1x4096 .i32) (harg8 : arg8.IsWhole) (arg9 : Memref sig .tc .vmem S1x1024 .f32) (harg9 : arg9.IsWhole)
    (x0 x1 x2 : Vec Ideal S1024x256 .f32) (x3 x4 x5 : Vec Ideal S4096x256 .bf16) (x6 : Vec Ideal S1024x1 .i32) (x7 : Vec Ideal S1x4096 .i32) (r : Fin 1024) :
    out0_A_8 (F := Ideal) c i arg1 harg1 arg2 harg2 arg3 harg3 arg4 harg4 arg5 harg5 arg6 harg6 arg7 harg7 arg8 harg8 arg9 harg9 x0 x1 x2 x3 x4 x5 x6 x7 (ix2 0 r)
      = rowTotal (x6 (ix2 r 0)) (fun j => x7 (ix2 0 j)) (rows x3 (tileRow i r)) (rows x3) (rows x4) (rows x5)
          (rows x0 r) (rows x1 r) (rows x2 r) := by
  rw [out_eq_bodyVal]
  unfold bodyVal
  rw [pay1_apply, w284_apply, w307_apply, w308_apply]
  rfl

end Cert.KernelIdeal.Gen

end
-- ==== Proof.KValue.lean ====
/-
  The kernel program's run read as a value: the launch leaves in the [1, 4096] output array, at entry 1024·t + r, the
  sum of the two hinge losses of anchor row 1024·t + r (point t writes block t, and the four blocks tile the array);
  the host operations after the launch sum the array and divide by 8192.
-/
import proofs.«425167_j26594437497379_3_alg».proof.Proof.KHost
import proofs.«425167_j26594437497379_3_alg».proof.Proof.KBody
import Idealize.ShloMosaic.Lib.Pipeline.Value
import Idealize.ShloMosaic.PureOps.Ideal.Laws

noncomputable section

namespace Cert.KernelIdeal.Gen

open Idealize.ShloMosaic Idealize.ShloMosaic.TcCoe Idealize.ShloMosaic.ValueIdx Idealize.SL.Sem Cert.Triplet

section Array

variable (m : (ℓ : Loc nD τ sig) → Buf (Elt Ideal) ℓ)

/-! ## Where each window's block sits

The grid has one axis of four points and point t has coordinate t.  The raw anchors, the two raw positive views and the
label column are cut into four tiles of 1024 rows, tile t at point t; the output row is cut into four tiles of 1024
columns, tile t at point t; the three normalized arrays and the label row are staged whole at every point. -/

theorem coords_val : ∀ t : Fin cfg0.N, (grid0.coords t 0).val = t.val :=
  (by decide +kernel : ∀ t : Fin grid0.N, (grid0.coords t 0).val = t.val)

theorem idx_tile : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_8.index t (0 : Fin 2) = 0 ∧ win0_8.index t (1 : Fin 2) = t.val :=
  (by decide +kernel : ∀ t : Fin grid0.N, _)

theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (0 : Fin 2) = 0 ∧ win0_7.index t (1 : Fin 2) = 0 :=
  (by decide +kernel : ∀ t : Fin grid0.N, _)

/-! ## The blocks as entries of the arrays

Entry (r, k) of a row tile at point t is entry (1024·t + r, k) of its array; a window staged whole reads its array. -/

abbrev xb0 (c : Dev nD) (t : Fin cfg0.N) : Vec Ideal S1024x256 .f32 := iblk m c 0 t
abbrev xb1 (c : Dev nD) (t : Fin cfg0.N) : Vec Ideal S1024x256 .f32 := iblk m c 1 t
abbrev xb2 (c : Dev nD) (t : Fin cfg0.N) : Vec Ideal S1024x256 .f32 := iblk m c 2 t
abbrev xb3 (c : Dev nD) (t : Fin cfg0.N) : Vec Ideal S4096x256 .bf16 := iblk m c 3 t
abbrev xb4 (c : Dev nD) (t : Fin cfg0.N) : Vec Ideal S4096x256 .bf16 := iblk m c 4 t
abbrev xb5 (c : Dev nD) (t : Fin cfg0.N) : Vec Ideal S4096x256 .bf16 := iblk m c 5 t
abbrev xb6 (c : Dev nD) (t : Fin cfg0.N) : Vec Ideal S1024x1 .i32 := iblk m c 6 t
abbrev xb7 (c : Dev nD) (t : Fin cfg0.N) : Vec Ideal S1x4096 .i32 := iblk m c 7 t

theorem xb0_apply (c : Dev nD) (t : Fin cfg0.N) (x : S1024x256.Idx) (k : S4096x256.Idx)
    (hk0 : (k 0).val = 1024 * t.val + (x 0).val) (hk1 : (k 1).val = (x 1).val) :
    xb0 m c t x = (V m c main_arg0 : S4096x256.Idx → EReal) k := by
  obtain ⟨e0, e1, -⟩ := idx_tile t
  unfold xb0 iblk
  rw [View.read_apply]
  show V m c main_arg0 _ = V m c main_arg0 _
  congr 1
  funext a
  apply Fin.ext
  match a with
  | ⟨0, _⟩ => show win0_0.index t 0 * 1024 + 1 * (x 0).val = (k 0).val; rw [e0, hk0]; omega
  | ⟨1, _⟩ => show win0_0.index t 1 * 256 + 1 * (x 1).val = (k 1).val; rw [e1, hk1]; omega

theorem xb1_apply (c : Dev nD) (t : Fin cfg0.N) (x : S1024x256.Idx) (k : S4096x256.Idx)
    (hk0 : (k 0).val = 1024 * t.val + (x 0).val) (hk1 : (k 1).val = (x 1).val) :
    xb1 m c t x = (V m c main_v1 : S4096x256.Idx → EReal) k := by
  obtain ⟨-, -, e0, e1, -⟩ := idx_tile t
  unfold xb1 iblk
  rw [View.read_apply]
  show V m c main_v1 _ = V m c main_v1 _
  congr 1
  funext a
  apply Fin.ext
  match a with
  | ⟨0, _⟩ => show win0_1.index t 0 * 1024 + 1 * (x 0).val = (k 0).val; rw [e0, hk0]; omega
  | ⟨1, _⟩ => show win0_1.index t 1 * 256 + 1 * (x 1).val = (k 1).val; rw [e1, hk1]; omega

theorem xb2_apply (c : Dev nD) (t : Fin cfg0.N) (x : S1024x256.Idx) (k : S4096x256.Idx)
    (hk0 : (k 0).val = 1024 * t.val + (x 0).val) (hk1 : (k 1).val = (x 1).val) :
    xb2 m c t x = (V m c main_v3 : S4096x256.Idx → EReal) k := by
  obtain ⟨-, -, -, -, e0, e1, -⟩ := idx_tile t
  unfold xb2 iblk
  rw [View.read_apply]
  show V m c main_v3 _ = V m c main_v3 _
  congr 1
  funext a
  apply Fin.ext
  match a with
  | ⟨0, _⟩ => show win0_2.index t 0 * 1024 + 1 * (x 0).val = (k 0).val; rw [e0, hk0]; omega
  | ⟨1, _⟩ => show win0_2.index t 1 * 256 + 1 * (x 1).val = (k 1).val; rw [e1, hk1]; omega

theorem xb6_apply (c : Dev nD) (t : Fin cfg0.N) (x : S1024x1.Idx) (k : S4096x1.Idx)
    (hk0 : (k 0).val = 1024 * t.val + (x 0).val) (hk1 : (k 1).val = (x 1).val) :
    xb6 m c t x = (V m c main_v4 : S4096x1.Idx → BitVec 32) k := by
  obtain ⟨-, -, -, -, -, -, e0, e1, -⟩ := idx_tile t
  unfold xb6 iblk
  rw [View.read_apply]
  show V m c main_v4 _ = V m c main_v4 _
  congr 1
  funext a
  apply Fin.ext
  match a with
  | ⟨0, _⟩ => show win0_6.index t 0 * 1024 + 1 * (x 0).val = (k 0).val; rw [e0, hk0]; omega
  | ⟨1, _⟩ => show win0_6.index t 1 * 1 + 1 * (x 1).val = (k 1).val; rw [e1, hk1]; omega

theorem xb3_eq (c : Dev nD) (t : Fin cfg0.N) : xb3 m c t = (V m c main_v14 : S4096x256.Idx → EReal) := by
  obtain ⟨e0, e1, -⟩ := idx_whole t
  funext x
  unfold xb3 iblk
  rw [View.read_apply]
  show V m c main_v14 _ = V m c main_v14 _
  congr 1
  funext a
  apply Fin.ext
  match a with
  | ⟨0, _⟩ => show win0_3.index t 0 * 4096 + 1 * (x 0).val = (x 0).val; rw [e0]; omega
  | ⟨1, _⟩ => show win0_3.index t 1 * 256 + 1 * (x 1).val = (x 1).val; rw [e1]; omega

theorem xb4_eq (c : Dev nD) (t : Fin cfg0.N) : xb4 m c t = (V m c main_v23 : S4096x256.Idx → EReal) := by
  obtain ⟨-, -, e0, e1, -⟩ := idx_whole t
  funext x
  unfold xb4 iblk
  rw [View.read_apply]
  show V m c main_v23 _ = V m c main_v23 _
  congr 1
  funext a
  apply Fin.ext
  match a with
  | ⟨0, _⟩ => show win0_4.index t 0 * 4096 + 1 * (x 0).val = (x 0).val; rw [e0]; omega
  | ⟨1, _⟩ => show win0_4.index t 1 * 256 + 1 * (x 1).val = (x 1).val; rw [e1]; omega

theorem xb5_eq (c : Dev nD) (t : Fin cfg0.N) : xb5 m c t = (V m c main_v32 : S4096x256.Idx → EReal) := by
  obtain ⟨-, -, -, -, e0, e1, -⟩ := idx_whole t
  funext x
  unfold xb5 iblk
  rw [View.read_apply]
  show V m c main_v32 _ = V m c main_v32 _
  congr 1
  funext a
  apply Fin.ext
  match a with
  | ⟨0, _⟩ => show win0_5.index t 0 * 4096 + 1 * (x 0).val = (x 0).val; rw [e0]; omega
  | ⟨1, _⟩ => show win0_5.index t 1 * 256 + 1 * (x 1).val = (x 1).val; rw [e1]; omega

theorem xb7_eq (c : Dev nD) (t : Fin cfg0.N) : xb7 m c t = (V m c main_v5 : S1x4096.Idx → BitVec 32) := by
  obtain ⟨-, -, -, -, -, -, e0, e1⟩ := idx_whole t
  funext x
  unfold xb7 iblk
  rw [View.read_apply]
  show V m c main_v5 _ = V m c main_v5 _
  congr 1
  funext a
  apply Fin.ext
  match a with
  | ⟨0, _⟩ => show win0_7.index t 0 * 1 + 1 * (x 0).val = (x 0).val; rw [e0]; omega
  | ⟨1, _⟩ => show win0_7.index t 1 * 4096 + 1 * (x 1).val = (x 1).val; rw [e1]; omega

/-! ## One entry of the output block

Entry r of the block point t leaves is the two losses of anchor row 1024·t + r: the tile's raw rows are the arrays' rows
1024·t + r, the tile's labels are the labels of those rows, and the resident arrays are the normalized rows of all
4096 anchors and positives with all 4096 labels. -/

theorem rowTotal_congr {l l' : BitVec 32} {lc lc' : Fin 4096 → BitVec 32} {a a' : Row} {ca ca' cp0 cp0' cp1 cp1' : Fin 4096 → Row}
    {xa xa' xp0 xp0' xp1 xp1' : Row} (h1 : l = l') (h2 : lc = lc') (h3 : a = a') (h4 : ca = ca') (h5 : cp0 = cp0') (h6 : cp1 = cp1')
    (h7 : xa = xa') (h8 : xp0 = xp0') (h9 : xp1 = xp1') :
    rowTotal l lc a ca cp0 cp1 xa xp0 xp1 = rowTotal l' lc' a' ca' cp0' cp1' xa' xp0' xp1' := by
  subst h1 h2 h3 h4 h5 h6 h7 h8 h9; rfl

theorem outsAt_row (c : Dev nD) (t : Fin cfg0.N) (r : Fin 1024) (i' : Fin 4096) (hi : i'.val = 1024 * t.val + r.val) :
    (outsAt0 m c t : Vec Ideal S1x1024 .f32) (ix2 0 r)
      = totalK (rows (argA m c)) (views (argP m c)) (labs (argL m c)) i' := by
  unfold outsAt0
  refine (body_row c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (xb0 m c t) (xb1 m c t) (xb2 m c t) (xb3 m c t) (xb4 m c t) (xb5 m c t) (xb6 m c t) (xb7 m c t) r).trans ?_
  have hA : rows (xb3 m c t) = uA (rows (argA m c)) := by
    funext i k
    show xb3 m c t (ix2 i k) = _
    rw [xb3_eq, V_unitA]
    rfl
  have hrow : tileRow (grid0.coords t) r = i' := Fin.ext (by rw [tileRow_val, coords_val, hi])
  unfold totalK
  refine rowTotal_congr ?_ ?_ ?_ hA ?_ ?_ ?_ ?_ ?_
  · refine (xb6_apply m c t (ix2 r 0) (ix2 i' 0) hi rfl).trans ?_
    rw [V_lblcol]
    rfl
  · funext j
    show xb7 m c t (ix2 0 j) = _
    rw [xb7_eq, V_lblrow]
    rfl
  · rw [hA, hrow]
  · funext i k
    show xb4 m c t (ix2 i k) = _
    rw [xb4_eq, V_unitP0]
    rfl
  · funext i k
    show xb5 m c t (ix2 i k) = _
    rw [xb5_eq, V_unitP1]
    rfl
  · funext k
    refine (xb0_apply m c t (ix2 r k) (ix2 i' k) hi rfl).trans ?_
    rw [V_main_arg0]
    rfl
  · funext k
    refine (xb1_apply m c t (ix2 r k) (ix2 i' k) hi rfl).trans ?_
    rw [V_pos0]
    rfl
  · funext k
    refine (xb2_apply m c t (ix2 r k) (ix2 i' k) hi rfl).trans ?_
    rw [V_pos1]
    rfl

/-! ## The output array

Block t of the function q ↦ (the two losses of anchor row q) is what point t writes back, and column q lies in the
block of point q / 1024, so the array ends holding that function. -/

/-- Entry (0, q) of the output array: the two losses of anchor row q. -/
abbrev Gout (c : Dev nD) : S1x4096.Idx → EReal :=
  fun y => totalK (rows (argA m c)) (views (argP m c)) (labs (argL m c)) (y 1)

theorem outsAt_at (c : Dev nD) (t : Fin cfg0.N) (y : S1x1024.Idx) (q : S1x4096.Idx)
    (hq : (q 1).val = 1024 * t.val + (y 1).val) :
    (outsAt0 m c t : Vec Ideal S1x1024 .f32) y = Gout m c q := by
  have e : y = ix2 (0 : Fin 1) (⟨(y 1).val, idx2_lt1 y⟩ : Fin 1024) := by
    funext a; apply Fin.ext
    match a with
    | ⟨0, _⟩ => have := idx2_lt0 y; show (y 0).val = 0; omega
    | ⟨1, _⟩ => rfl
  exact (congrArg (outsAt0 m c t : Vec Ideal S1x1024 .f32) e).trans (outsAt_row m c t ⟨(y 1).val, idx2_lt1 y⟩ (q 1) hq)

theorem flushed_eq (c : Dev nD) (t : Fin cfg0.N) :
    (dats m 0 c).flushed 8 t = ((cfg0.win 8).blk t).view.read (Elt Ideal) (Gout m c) := by
  show (cfg0.win 8).cut (grid0.coords t) ((dats m 0 c).after 8 t) = _
  rw [after0_8]
  obtain ⟨-, -, -, -, -, -, -, -, e0, e1⟩ := idx_tile t
  funext y
  refine outsAt_at m c t _ _ ?_
  show win0_8.index t 1 * 1024 + 1 * (y 1).val = 1024 * t.val + (y 1).val
  rw [e1]; omega

theorem cover (i : S1x4096.Idx) :
    ∃ t : Fin cfg0.N, (cfg0.win 8).flush t = true ∧ i ∈ ((cfg0.win 8).blk t).view.set := by
  have hi1 : (i 1).val < 4096 := idx2_lt1 i
  have hi0 : (i 0).val < 1 := idx2_lt0 i
  have hN : cfg0.N = 4 := N_0
  have ht : (i 1).val / 1024 < cfg0.N := by rw [hN]; omega
  obtain ⟨-, -, -, -, -, -, -, -, e0, e1⟩ := idx_tile ⟨(i 1).val / 1024, ht⟩
  refine ⟨⟨(i 1).val / 1024, ht⟩, flush0_8 _, ?_⟩
  show i ∈ ((View.whole main_v33).slice (win0_8.rect ⟨(i 1).val / 1024, ht⟩)).set
  rw [View.set_slice_whole, Rect.mem_set_unit]
  intro a
  match a with
  | ⟨0, _⟩ =>
    show win0_8.index ⟨(i 1).val / 1024, ht⟩ 0 * 1 ≤ (i 0).val ∧ (i 0).val < win0_8.index ⟨(i 1).val / 1024, ht⟩ 0 * 1 + 1
    rw [e0]; omega
  | ⟨1, _⟩ =>
    show win0_8.index ⟨(i 1).val / 1024, ht⟩ 1 * 1024 ≤ (i 1).val ∧ (i 1).val < win0_8.index ⟨(i 1).val / 1024, ht⟩ 1 * 1024 + 1024
    rw [e1]; show (i 1).val / 1024 * 1024 ≤ (i 1).val ∧ (i 1).val < (i 1).val / 1024 * 1024 + 1024; omega

theorem final (c : Dev nD) : (dats m 0 c).arrAt 8 cfg0.N = Gout m c :=
  (dats m 0 c).arrAt_eq_of_cover 8 (Gout m c) (fun t _ => flushed_eq m c t) cover

/-! ## The host operations after the launch

The sum of the [1, 4096] array over both axes from the word 0 is the sum over the 4096 anchor rows, and the quotient by
the word 8192 is the mean. -/

theorem tail_eq (c : Dev nD) :
    Pipeline.afterTail₀ cfgs (dats m) 0 (V0 m) [hostOps1] c main_v35
      = fun _ => resultK (rows (argA m c)) (views (argP m c)) (labs (argL m c)) := by
  unfold Pipeline.afterTail₀
  show StableHlo.after hostOps1 _ (Proc.devRef .tc main_v35) = _
  after_results
  have hw : Pipeline.withArrays (cfgs 0).spec c (V0 m c) (fun w => (dats m 0 c).arrAt w (cfgs 0).N) (Proc.devRef .tc main_v33)
      = Gout m c := (Pipeline.withArrays_arr spec0 launch0.win.arr_inj c _ _ 8).trans (final m c)
  rw [hw]
  funext j
  rw [hostDivf_apply, hostReduceAdd_apply, Ideal.hostReduceAdd_total _ (fun b => b.elim0), constant_apply, constant_apply,
    Ideal.ofBits_zero_f32, zero_add, sum_idx2, Fin.sum_univ_one]
  rfl

end Array

/-! ## The run -/

theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v35)
          = (fun _ => resultK (rows (argA m c)) (views (argP m c)) (labs (argL m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v35 (Pipeline.mem_restRefs_of main_v35 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Gen

end
-- ==== Proof.RefDist.lean ====
/-
  The reference's matrix of pairwise distances, read at an entry: for each view, entry (i, j) of the 8192 × 8192 matrix is the reference's distance between feature rows i and j (the 4096 normalized anchors followed by the view's 4096 normalized positives); and the label mask at (i, j) says whether column j's label (the labels twice over) differs from row i's.
-/
import proofs.«425167_j26594437497379_3_alg».proof.Proof.RefRead
import proofs.«425167_j26594437497379_3_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Triplet

variable (x0 : (⟨S4096x256, .f32⟩ : BufTy).Contents (Elt Ideal)) (x1 : (⟨S4096x2x256, .f32⟩ : BufTy).Contents (Elt Ideal)) (x2 : (⟨S4096, .i32⟩ : BufTy).Contents (Elt Ideal))

/-! The auxiliary facts live in a namespace of their own; the three entry facts follow it. -/
namespace Dist

/-! ## The feature rows -/

/-- A feature row below 4096 is a normalized anchor. -/
theorem feats_lt (A : Fin 4096 → Row) (P : Fin 2 → Fin 4096 → Row) (v : Fin 2) (j : Fin 8192) (h : j.val < 4096) :
    feats A P v j = uA A ⟨j.val, h⟩ := dif_pos h

/-- A feature row from 4096 on is a normalized positive of the view. -/
theorem feats_ge (A : Fin 4096 → Row) (P : Fin 2 → Fin 4096 → Row) (v : Fin 2) (j : Fin 8192) (h : ¬ j.val < 4096) :
    feats A P v j = uP P v ⟨j.val - 4096, by omega⟩ := dif_neg h

/-- The doubled labels below 4096. -/
theorem lab2_lt (L : Fin 4096 → BitVec 32) (j : Fin 8192) (h : j.val < 4096) : lab2 L j = L ⟨j.val, h⟩ := dif_pos h

/-- The doubled labels from 4096 on. -/
theorem lab2_ge (L : Fin 4096 → BitVec 32) (j : Fin 8192) (h : ¬ j.val < 4096) :
    lab2 L j = L ⟨j.val - 4096, by omega⟩ := dif_neg h

/-- The normalized anchors: entry (i, k) is the anchor row i divided by its clamped length, at k. -/
theorem normA_apply (i : Fin 4096) (k : Fin 256) :
    val_main_v4 (F := Ideal) x0 (ix2 i k) = unit (rows x0 i) k := by
  rw [val_main_v4_apply, val_main_v3_apply, val_main_v2_apply, val_main_v0_apply, val_main_call0_v2_apply,
    val_main_call0_v1_apply, val_main_v1_apply, val_main_cst_apply, val_main_call0_cst_apply]
  have e : ∀ k' : Fin 256, idx_main_call0_v1 (idx_main_call0_v2 (idx_main_v3 (ix2 i k))) k' = ix2 i k' := fun k' =>
    funext fun a => Fin.ext (by match a with | ⟨0, _⟩ => rfl | ⟨1, _⟩ => rfl)
  simp only [val_main_call0_v0_apply, e, Ideal.hostDivf_def, Ideal.hostUnary_sqrt_def, Ideal.maximumf_def, Ideal.mulf_def,
    Ideal.ofBits_def, Ideal.ofBits_zero_f32, zero_add]
  rfl

/-- The normalized positives: entry (i, v, k) is row i of view v divided by its clamped length, at k. -/
theorem normP_apply (i : Fin 4096) (v : Fin 2) (k : Fin 256) :
    val_main_v9 (F := Ideal) x1 (ix3 i v k) = unit (views x1 v i) k := by
  rw [val_main_v9_apply, val_main_v8_apply, val_main_v7_apply, val_main_v5_apply, val_main_call1_v2_apply,
    val_main_call1_v1_apply, val_main_v6_apply, val_main_cst_0_apply, val_main_call1_cst_apply]
  have e : ∀ k' : Fin 256, idx_main_call1_v1 (idx_main_call1_v2 (idx_main_v8 (ix3 i v k))) k' = ix3 i v k' := fun k' =>
    funext fun a => Fin.ext (by match a with | ⟨0, _⟩ => rfl | ⟨1, _⟩ => rfl | ⟨2, _⟩ => rfl)
  simp only [val_main_call1_v0_apply, e, Ideal.hostDivf_def, Ideal.hostUnary_sqrt_def, Ideal.maximumf_def, Ideal.mulf_def,
    Ideal.ofBits_def, Ideal.ofBits_zero_f32, zero_add]
  rfl

/-- View 0 of the normalized positives as a matrix. -/
theorem normPos0_apply (i : Fin 4096) (k : Fin 256) :
    val_main_v18 (F := Ideal) x1 (ix2 i k) = unit (views x1 0 i) k := by
  rw [val_main_v18_apply, val_main_v17_apply]
  have e : idx_main_v17 (idx_main_v18 (ix2 i k)) = ix3 i (0 : Fin 2) k := funext fun a => Fin.ext (by
    have hi := i.isLt; have hk := k.isLt
    match a with
    | ⟨0, _⟩ => show (i.val * 256 + k.val) / 256 = i.val; omega
    | ⟨1, _⟩ => rfl
    | ⟨2, _⟩ => show (i.val * 256 + k.val) % 256 = k.val; omega)
  rw [e]
  exact normP_apply x1 i 0 k

/-- View 1 of the normalized positives as a matrix. -/
theorem normPos1_apply (i : Fin 4096) (k : Fin 256) :
    val_main_v62 (F := Ideal) x1 (ix2 i k) = unit (views x1 1 i) k := by
  rw [val_main_v62_apply, val_main_v61_apply]
  have e : idx_main_v61 (idx_main_v62 (ix2 i k)) = ix3 i (1 : Fin 2) k := funext fun a => Fin.ext (by
    have hi := i.isLt; have hk := k.isLt
    match a with
    | ⟨0, _⟩ => show (i.val * 256 + k.val) / 256 = i.val; omega
    | ⟨1, _⟩ => rfl
    | ⟨2, _⟩ => show (i.val * 256 + k.val) % 256 = k.val; omega)
  rw [e]
  exact normP_apply x1 i 1 k

/-- The feature matrix of view 0: the normalized anchors above the view's normalized positives. -/
theorem featsV0_apply (j : Fin 8192) (k : Fin 256) :
    val_main_v19 (F := Ideal) x0 x1 (ix2 j k) = feats (rows x0) (views x1) 0 j k := by
  unfold val_main_v19
  by_cases h : j.val < 4096
  · rw [feats_lt _ _ _ j h]
    refine (concatenate_pair_apply_left _ _ _ concatenates_S4096x256_S4096x256_S8192x256_d0 (ix2 j k) rfl
      (ix2 ⟨j.val, h⟩ k) (fun b => by match b with | ⟨0, _⟩ => rfl | ⟨1, _⟩ => rfl)).trans ?_
    exact normA_apply x0 ⟨j.val, h⟩ k
  · rw [feats_ge _ _ _ j h]
    refine (concatenate_pair_apply_right _ _ _ concatenates_S4096x256_S4096x256_S8192x256_d0 (ix2 j k) rfl rfl
      (ix2 ⟨j.val - 4096, by omega⟩ k)
      (fun b hb => by match b, hb with | ⟨0, _⟩, hb => exact absurd rfl hb | ⟨1, _⟩, _ => rfl)
      (by show j.val - 4096 + 4096 = j.val; omega)).trans ?_
    exact normPos0_apply x1 ⟨j.val - 4096, by omega⟩ k

/-- The feature matrix of view 1. -/
theorem featsV1_apply (j : Fin 8192) (k : Fin 256) :
    val_main_v63 (F := Ideal) x0 x1 (ix2 j k) = feats (rows x0) (views x1) 1 j k := by
  unfold val_main_v63
  by_cases h : j.val < 4096
  · rw [feats_lt _ _ _ j h]
    refine (concatenate_pair_apply_left _ _ _ concatenates_S4096x256_S4096x256_S8192x256_d0 (ix2 j k) rfl
      (ix2 ⟨j.val, h⟩ k) (fun b => by match b with | ⟨0, _⟩ => rfl | ⟨1, _⟩ => rfl)).trans ?_
    exact normA_apply x0 ⟨j.val, h⟩ k
  · rw [feats_ge _ _ _ j h]
    refine (concatenate_pair_apply_right _ _ _ concatenates_S4096x256_S4096x256_S8192x256_d0 (ix2 j k) rfl rfl
      (ix2 ⟨j.val - 4096, by omega⟩ k)
      (fun b hb => by match b, hb with | ⟨0, _⟩, hb => exact absurd rfl hb | ⟨1, _⟩, _ => rfl)
      (by show j.val - 4096 + 4096 = j.val; omega)).trans ?_
    exact normPos1_apply x1 ⟨j.val - 4096, by omega⟩ k

/-! ## The distance matrices -/

/-- The distance formula over any feature matrix: the two squared lengths, less twice the inner product, clamped, under the root. -/
theorem dist_core (f : S8192x256.Idx → EReal) (g : Fin 8192 → Row) (hf : ∀ j k, f (ix2 j k) = g j k) (i j : Fin 8192) :
    Ideal.sqrt (max ((∑ k : Fin 256, f (ix2 i k) * f (ix2 i k)) + (∑ k : Fin 256, f (ix2 j k) * f (ix2 j k))
        - Ideal.ofBits .f32 0x40000000#32 * ∑ k : Fin 256, f (ix2 i k) * f (ix2 j k)) (Ideal.ofBits .f32 0x2B8CBCCC#32))
      = distR (g i) (g j) := by
  simp only [hf]
  rfl

/-! ## The label mask -/

/-- The "not equal" comparison of two words as a one-bit word. -/
theorem cmpi_ne_ite {w : Nat} (a b : BitVec w) : IntOp.cmpi .ne a b = if a ≠ b then 1#1 else 0#1 := by
  show BitVec.ofBool (a != b) = _
  by_cases h : a = b
  · have hb : (a != b) = false := by simp [h]
    rw [hb, if_neg (not_not.mpr h)]; rfl
  · have hb : (a != b) = true := by simpa [bne_iff_ne] using h
    rw [hb, if_pos h]; rfl

/-- The labels twice over, read at a position. -/
theorem labels2_apply (j : Fin 8192) : val_main_v10 (F := Ideal) x2 (ix1 j) = lab2 (labs x2) j := by
  unfold val_main_v10
  by_cases h : j.val < 4096
  · rw [lab2_lt _ j h]
    exact concatenate_pair_apply_left _ _ _ concatenates_S4096_S4096_S8192_d0 (ix1 j) rfl
      (ix1 ⟨j.val, h⟩) (fun b => by match b with | ⟨0, _⟩ => rfl)
  · rw [lab2_ge _ j h]
    exact concatenate_pair_apply_right _ _ _ concatenates_S4096_S4096_S8192_d0 (ix1 j) rfl rfl
      (ix1 ⟨j.val - 4096, by omega⟩)
      (fun b hb => by match b, hb with | ⟨0, _⟩, hb => exact absurd rfl hb)
      (by show j.val - 4096 + 4096 = j.val; omega)

end Dist

open Dist

/-! ## The three entry facts -/

theorem dist0_apply (i j : Fin 8192) :
    val_main_v36 (F := Ideal) x0 x1 (ix2 i j)
      = distR (feats (rows x0) (views x1) 0 i) (feats (rows x0) (views x1) 0 j) := by
  rw [val_main_v36_apply, val_main_v35_apply, val_main_v33_apply, val_main_v28_apply, val_main_v26_apply, val_main_v22_apply,
    val_main_v21_apply, val_main_v27_apply, val_main_v25_apply, val_main_v24_apply, val_main_v32_apply, val_main_v31_apply,
    val_main_v30_apply, val_main_v34_apply, val_main_cst_1_apply, val_main_cst_2_apply, val_main_cst_3_apply, val_main_cst_4_apply]
  have e1 : ∀ k : Fin 256, idx_main_v21 (idx_main_v22 (idx_main_v26 (ix2 i j))) k = ix2 i k := fun k =>
    funext fun a => Fin.ext (by match a with | ⟨0, _⟩ => rfl | ⟨1, _⟩ => rfl)
  have e2 : ∀ k : Fin 256, idx_main_v24 (idx_main_v25 (idx_main_v27 (ix2 i j))) k = ix2 j k := fun k =>
    funext fun a => Fin.ext (by match a with | ⟨0, _⟩ => rfl | ⟨1, _⟩ => rfl)
  have e3 : ∀ k : Fin 256, lidx_main_v30 (ix2 i j) k = ix2 i k := fun k =>
    funext fun a => Fin.ext (by match a with | ⟨0, _⟩ => rfl | ⟨1, _⟩ => rfl)
  have e4 : ∀ k : Fin 256, idx_main_v29 (ridx_main_v30 (ix2 i j) k) = ix2 j k := fun k =>
    funext fun a => Fin.ext (by match a with | ⟨0, _⟩ => rfl | ⟨1, _⟩ => rfl)
  simp only [val_main_v20_apply, val_main_v23_apply, val_main_v29_apply, e1, e2, e3, e4, Ideal.hostUnary_sqrt_def,
    Ideal.maximumf_def, Ideal.mulf_def, Ideal.addf_def, Ideal.subf_def, Ideal.ofBits_def, Ideal.ofBits_zero_f32, zero_add]
  exact dist_core (val_main_v19 (F := Ideal) x0 x1) (feats (rows x0) (views x1) 0) (featsV0_apply x0 x1) i j

theorem dist1_apply (i j : Fin 8192) :
    val_main_v80 (F := Ideal) x0 x1 (ix2 i j)
      = distR (feats (rows x0) (views x1) 1 i) (feats (rows x0) (views x1) 1 j) := by
  rw [val_main_v80_apply, val_main_v79_apply, val_main_v77_apply, val_main_v72_apply, val_main_v70_apply, val_main_v66_apply,
    val_main_v65_apply, val_main_v71_apply, val_main_v69_apply, val_main_v68_apply, val_main_v76_apply, val_main_v75_apply,
    val_main_v74_apply, val_main_v78_apply, val_main_cst_13_apply, val_main_cst_14_apply, val_main_cst_15_apply, val_main_cst_16_apply]
  have e1 : ∀ k : Fin 256, idx_main_v65 (idx_main_v66 (idx_main_v70 (ix2 i j))) k = ix2 i k := fun k =>
    funext fun a => Fin.ext (by match a with | ⟨0, _⟩ => rfl | ⟨1, _⟩ => rfl)
  have e2 : ∀ k : Fin 256, idx_main_v68 (idx_main_v69 (idx_main_v71 (ix2 i j))) k = ix2 j k := fun k =>
    funext fun a => Fin.ext (by match a with | ⟨0, _⟩ => rfl | ⟨1, _⟩ => rfl)
  have e3 : ∀ k : Fin 256, lidx_main_v74 (ix2 i j) k = ix2 i k := fun k =>
    funext fun a => Fin.ext (by match a with | ⟨0, _⟩ => rfl | ⟨1, _⟩ => rfl)
  have e4 : ∀ k : Fin 256, idx_main_v73 (ridx_main_v74 (ix2 i j) k) = ix2 j k := fun k =>
    funext fun a => Fin.ext (by match a with | ⟨0, _⟩ => rfl | ⟨1, _⟩ => rfl)
  simp only [val_main_v64_apply, val_main_v67_apply, val_main_v73_apply, e1, e2, e3, e4, Ideal.hostUnary_sqrt_def,
    Ideal.maximumf_def, Ideal.mulf_def, Ideal.addf_def, Ideal.subf_def, Ideal.ofBits_def, Ideal.ofBits_zero_f32, zero_add]
  exact dist_core (val_main_v63 (F := Ideal) x0 x1) (feats (rows x0) (views x1) 1) (featsV1_apply x0 x1) i j

theorem mask_apply (i : Fin 4096) (j : Fin 8192) :
    val_main_v15 (F := Ideal) x2 (ix2 i j) = if lab2 (labs x2) j ≠ labs x2 i then 1#1 else 0#1 := by
  rw [val_main_v15_apply, val_main_v13_apply, val_main_v11_apply, val_main_v14_apply, val_main_v12_apply]
  have e1 : idx_main_v11 (idx_main_v13 (ix2 i j)) = ix1 j :=
    funext fun a => Fin.ext (by match a with | ⟨0, _⟩ => rfl)
  have e2 : idx_main_v12 (idx_main_v14 (ix2 i j)) = ix1 i :=
    funext fun a => Fin.ext (by match a with | ⟨0, _⟩ => rfl)
  rw [e1, e2, labels2_apply, cmpi_ne_ite]
  rfl

end Cert.ReferenceIdeal.RefValue

end
-- ==== Proof.LibGather2.lean ====
/-
  A gather of single entries of a matrix through an array of index pairs.

  The operand is an [N, M] matrix, the start indices an [n, 2] array of words, the result a vector of length n; both
  operand axes are collapsed and named by the start index map in order, the index vector lies along axis 1 of the
  start indices, every slice has size one, and there are no offset or batching axes.  Result entry p is then the
  operand's entry (r, c), where r is word (p, 0) of the start indices read signed and clamped into [0, N − 1] and c is
  word (p, 1) read signed and clamped into [0, M − 1].  When the two words are the 32-bit words of a row number below
  N and a column number below M (both at most 2³¹), no clamp moves them and the entry read is (r, c).  Last, the wrap
  jnp puts in front of such a gather (a negative index has the extent added) leaves a word below 2³¹ alone.
-/
import Idealize.ShloMosaic.PureOps.ShapeOps
import Idealize.ShloMosaic.Lib.ValueIdx
import Idealize.ShloMosaic.Lib.StableHlo.Predicate

namespace Cert.LibGather2

open Idealize.ShloMosaic Idealize.ShloMosaic.ValueIdx

variable {α : Type}

/-- The start-indices index at which result entry p reads component c of its index pair: (p, c). -/
theorem siIdx_pair {N M n : Nat} (d : GatherDims ⟨2, ![N, M]⟩ ⟨2, ![n, 2]⟩ ⟨1, ![n]⟩) (hivd : d.indexVectorDim = 1)
    (p : Fin n) (c : Fin d.startIndexMap.length) (cv : Fin 2) (hc : c.val = cv.val) :
    d.siIdx (ix1 p) c = ix2 p cv := by
  funext b
  match b with
  | ⟨0, _⟩ =>
    -- the result's one axis is its batch axis, reading axis 0 of the start indices
    unfold GatherDims.siIdx
    rw [dif_neg (by rw [hivd]; simp)]
    unfold GatherDims.siCoord
    apply Fin.ext
    simp only [Fin.val_cast]
    have e : ∀ X : Fin 1, ((ix1 p : (⟨1, ![n]⟩ : Shape).Idx) X).val = p.val := fun X => by
      have hX : X = 0 := Subsingleton.elim _ _
      subst hX; rfl
    exact e _
  | ⟨1, _⟩ =>
    unfold GatherDims.siIdx
    rw [dif_pos (by rw [hivd])]
    apply Fin.ext
    exact hc

/-- THE GATHER OF ENTRIES READ AT p: the operand at the pair of start indices in row p of the index array, each read
    signed and clamped into its axis. -/
theorem gather_pair {N M n w : Nat} (d : GatherDims ⟨2, ![N, M]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N, M]⟩ : Shape).Idx → α) (idx : IVec ⟨2, ![n, 2]⟩ w) (p : Fin n) (hN : 0 < N) (hM : 0 < M) :
    Host.gather d x idx (ix1 p)
      = x (ix2 (⟨min (idx (ix2 p 0)).toInt.toNat (N - 1), by omega⟩ : Fin N)
               (⟨min (idx (ix2 p 1)).toInt.toNat (M - 1), by omega⟩ : Fin M)) := by
  unfold Host.gather
  congr 1
  funext a
  apply Fin.ext
  have hb : a ∉ d.operandBatchingDims := by rw [hob]; exact List.not_mem_nil
  have hcm : a ∈ d.collapsedSliceDims := by
    rw [hcoll]; match a with | ⟨0, _⟩ => simp | ⟨1, _⟩ => simp
  have hk : a ∉ d.sKept := by rw [GatherDims.mem_sKept]; exact fun h => h.1 hcm
  have hm : a ∈ d.startIndexMap := by
    rw [hsim]; match a with | ⟨0, _⟩ => simp | ⟨1, _⟩ => simp
  have hsl : d.sliceSizes a = 1 := d.slice_collapsed a hcm
  have hpos : d.startIndexMap.idxOf a = a.val := by
    rw [hsim]; match a with | ⟨0, _⟩ => rfl | ⟨1, _⟩ => rfl
  show d.start (ix1 p) idx a + d.batchCoord (ix1 p) a + d.offCoord (ix1 p) a = _
  rw [d.batchCoord_eq_zero _ _ hb, d.offCoord_eq_zero _ _ hk, Nat.add_zero]
  unfold GatherDims.start
  rw [dif_pos hm, siIdx_pair d hivd p _ a hpos, hsl]
  match a with
  | ⟨0, _⟩ => rfl
  | ⟨1, _⟩ => rfl

/-- With in-range start indices: when row p of the index array holds the 32-bit words of a row number r and a column
    number c of the operand (whose extents are at most 2³¹, so the words read signed are r and c), result entry p is
    the operand's entry (r, c). -/
theorem gather_pair_of_lt {N M n : Nat} (d : GatherDims ⟨2, ![N, M]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N, M]⟩ : Shape).Idx → α) (idx : IVec ⟨2, ![n, 2]⟩ 32) (p : Fin n) (r : Fin N) (c : Fin M)
    (hN : N ≤ 2 ^ 31) (hM : M ≤ 2 ^ 31)
    (hr : idx (ix2 p 0) = BitVec.ofNat 32 r.val) (hc : idx (ix2 p 1) = BitVec.ofNat 32 c.val) :
    Host.gather d x idx (ix1 p) = x (ix2 r c) := by
  have hrl := r.isLt
  have hcl := c.isLt
  rw [gather_pair d hcoll hob hsim hivd x idx p (by omega) (by omega)]
  congr 1
  have er : (idx (ix2 p 0)).toInt.toNat = r.val := by
    rw [hr, StableHlo.Predicate.toInt_ofNat_small r.val (by omega)]; rfl
  have ec : (idx (ix2 p 1)).toInt.toNat = c.val := by
    rw [hc, StableHlo.Predicate.toInt_ofNat_small c.val (by omega)]; rfl
  funext a
  apply Fin.ext
  match a with
  | ⟨0, _⟩ => show min (idx (ix2 p 0)).toInt.toNat (N - 1) = r.val; rw [er]; omega
  | ⟨1, _⟩ => show min (idx (ix2 p 1)).toInt.toNat (M - 1) = c.val; rw [ec]; omega

/-- jnp's wrap of a negative index, select (w < 0) (w + extent) w with a signed compare, leaves a word below 2³¹ as
    it is, whatever the wrapped alternative. -/
theorem wrap_nonneg (k : Nat) (hk : k < 2 ^ 31) (c : BitVec 32) :
    Scalar.select (IntOp.cmpi .slt (BitVec.ofNat 32 k) 0#32) c (BitVec.ofNat 32 k) = BitVec.ofNat 32 k := by
  have hk' : (BitVec.ofNat 32 k).toNat = k := by rw [BitVec.toNat_ofNat]; omega
  have h : ¬ IntOp.cmpi .slt (BitVec.ofNat 32 k) 0#32 = 1#1 := by
    rw [StableHlo.Predicate.slt_iff_toNat (by omega) (by decide)]
    exact Nat.not_lt_zero _
  rw [eq_zero_of_ne_one h, select_zero]

end Cert.LibGather2
-- ==== Proof.RefGather.lean ====
/-
  The reference's positive distance: the gather through the index pairs (i, i + 4096) reads entry (i, i + 4096) of the distance matrix (the indices are in range, so neither the wrap of negative indices nor the gather's clamp moves them).
-/
import proofs.«425167_j26594437497379_3_alg».proof.Proof.RefRead
import proofs.«425167_j26594437497379_3_alg».proof.Proof.Spec
import proofs.«425167_j26594437497379_3_alg».proof.Proof.LibGather2

noncomputable section

namespace Cert.ReferenceIdeal.RefValue

open Cert.ReferenceIdeal Cert.ReferenceIdeal.Gen Cert.ReferenceIdeal.Read Idealize.ShloMosaic Idealize.ShloMosaic.ValueIdx Cert.Triplet

/-- The word i + 4096 is the sum of the words i and 4096. -/
theorem ofNat_add_4096 (k : Nat) : IntOp.addi (BitVec.ofNat 32 k) 4096#32 = BitVec.ofNat 32 (k + 4096) := by
  unfold IntOp.addi
  exact (BitVec.ofNat_add k 4096).symm

/-- The [4096, 1] column read at (i, 0) is the [4096] vector at i, for both index columns of both views. -/
theorem idx49 (i : Fin 4096) : idx_main_v49 (ix2 i (0 : Fin 1)) = ix1 i := by
  funext a; match a with | ⟨0, _⟩ => rfl
theorem idx50 (i : Fin 4096) : idx_main_v50 (ix2 i (0 : Fin 1)) = ix1 i := by
  funext a; match a with | ⟨0, _⟩ => rfl
theorem idx93 (i : Fin 4096) : idx_main_v93 (ix2 i (0 : Fin 1)) = ix1 i := by
  funext a; match a with | ⟨0, _⟩ => rfl
theorem idx94 (i : Fin 4096) : idx_main_v94 (ix2 i (0 : Fin 1)) = ix1 i := by
  funext a; match a with | ⟨0, _⟩ => rfl

/-! ## View 0: the index array's two columns -/

/-- Column 0 of the index array at row i is the word i: the row number is not negative, so the wrap keeps it. -/
theorem ind0_col0 (i : Fin 4096) : val_main_v51 (F := Ideal) (ix2 i (0 : Fin 2)) = BitVec.ofNat 32 i.val := by
  unfold val_main_v51
  rw [concatenate_pair_apply_left (s₁ := S4096x1) (s₂ := S4096x1) (1 : Fin 2) _ _ concatenates_S4096x1_S4096x1_S4096x2_d1 (ix2 i (0 : Fin 2)) rfl
    (ix2 i (0 : Fin 1)) (fun b => match b with | ⟨0, _⟩ => rfl | ⟨1, _⟩ => rfl)]
  rw [val_main_v49_apply, idx49, val_main_v43_apply, val_main_v40_apply, val_main_v16_apply, val_main_v39_apply,
    val_main_c_5_apply]
  exact LibGather2.wrap_nonneg i.val (by omega) _

/-- Column 1 at row i is the word i + 4096, below 2³¹, so the wrap keeps it. -/
theorem ind0_col1 (i : Fin 4096) : val_main_v51 (F := Ideal) (ix2 i (1 : Fin 2)) = BitVec.ofNat 32 (i.val + 4096) := by
  unfold val_main_v51
  rw [concatenate_pair_apply_right (s₁ := S4096x1) (s₂ := S4096x1) (1 : Fin 2) _ _ concatenates_S4096x1_S4096x1_S4096x2_d1 (ix2 i (1 : Fin 2)) rfl rfl
    (ix2 i (0 : Fin 1)) (fun b hb => match b, hb with | ⟨0, _⟩, _ => rfl | ⟨1, _⟩, hb => absurd rfl hb) rfl]
  rw [val_main_v50_apply, idx50, val_main_v48_apply, val_main_v45_apply, val_main_v38_apply, val_main_v16_apply,
    val_main_v37_apply, val_main_c_apply, val_main_v44_apply, val_main_c_7_apply]
  show Scalar.select (IntOp.cmpi .slt (IntOp.addi (BitVec.ofNat 32 i.val) 4096#32) 0#32) _
    (IntOp.addi (BitVec.ofNat 32 i.val) 4096#32) = _
  rw [ofNat_add_4096]
  exact LibGather2.wrap_nonneg (i.val + 4096) (by omega) _

/-! ## View 1: the same operations again -/

theorem ind1_col0 (i : Fin 4096) : val_main_v95 (F := Ideal) (ix2 i (0 : Fin 2)) = BitVec.ofNat 32 i.val := by
  unfold val_main_v95
  rw [concatenate_pair_apply_left (s₁ := S4096x1) (s₂ := S4096x1) (1 : Fin 2) _ _ concatenates_S4096x1_S4096x1_S4096x2_d1 (ix2 i (0 : Fin 2)) rfl
    (ix2 i (0 : Fin 1)) (fun b => match b with | ⟨0, _⟩ => rfl | ⟨1, _⟩ => rfl)]
  rw [val_main_v93_apply, idx93, val_main_v87_apply, val_main_v84_apply, val_main_v16_apply, val_main_v83_apply,
    val_main_c_18_apply]
  exact LibGather2.wrap_nonneg i.val (by omega) _

theorem ind1_col1 (i : Fin 4096) : val_main_v95 (F := Ideal) (ix2 i (1 : Fin 2)) = BitVec.ofNat 32 (i.val + 4096) := by
  unfold val_main_v95
  rw [concatenate_pair_apply_right (s₁ := S4096x1) (s₂ := S4096x1) (1 : Fin 2) _ _ concatenates_S4096x1_S4096x1_S4096x2_d1 (ix2 i (1 : Fin 2)) rfl rfl
    (ix2 i (0 : Fin 1)) (fun b hb => match b, hb with | ⟨0, _⟩, _ => rfl | ⟨1, _⟩, hb => absurd rfl hb) rfl]
  rw [val_main_v94_apply, idx94, val_main_v92_apply, val_main_v89_apply, val_main_v82_apply, val_main_v16_apply,
    val_main_v81_apply, val_main_c_17_apply, val_main_v88_apply, val_main_c_20_apply]
  show Scalar.select (IntOp.cmpi .slt (IntOp.addi (BitVec.ofNat 32 i.val) 4096#32) 0#32) _
    (IntOp.addi (BitVec.ofNat 32 i.val) 4096#32) = _
  rw [ofNat_add_4096]
  exact LibGather2.wrap_nonneg (i.val + 4096) (by omega) _

/-! ## The two gathers -/

variable (x0 : (⟨S4096x256, .f32⟩ : BufTy).Contents (Elt Ideal)) (x1 : (⟨S4096x2x256, .f32⟩ : BufTy).Contents (Elt Ideal)) (x2 : (⟨S4096, .i32⟩ : BufTy).Contents (Elt Ideal))

theorem pos0_apply (i : Fin 4096) :
    val_main_v52 (F := Ideal) x0 x1 (ix1 i)
      = val_main_v36 (F := Ideal) x0 x1 (ix2 (⟨i.val, by omega⟩ : Fin 8192) (⟨i.val + 4096, by omega⟩ : Fin 8192)) := by
  unfold val_main_v52
  exact LibGather2.gather_pair_of_lt gather_S8192x8192_S4096x2_S4096_n_01_n_n_01_1_11 rfl rfl rfl rfl
    (val_main_v36 (F := Ideal) x0 x1) (val_main_v51 (F := Ideal)) i ⟨i.val, by omega⟩ ⟨i.val + 4096, by omega⟩
    (by norm_num) (by norm_num) (ind0_col0 i) (ind0_col1 i)

theorem pos1_apply (i : Fin 4096) :
    val_main_v96 (F := Ideal) x0 x1 (ix1 i)
      = val_main_v80 (F := Ideal) x0 x1 (ix2 (⟨i.val, by omega⟩ : Fin 8192) (⟨i.val + 4096, by omega⟩ : Fin 8192)) := by
  unfold val_main_v96
  exact LibGather2.gather_pair_of_lt gather_S8192x8192_S4096x2_S4096_n_01_n_n_01_1_11 rfl rfl rfl rfl
    (val_main_v80 (F := Ideal) x0 x1) (val_main_v95 (F := Ideal)) i ⟨i.val, by omega⟩ ⟨i.val + 4096, by omega⟩
    (by norm_num) (by norm_num) (ind1_col0 i) (ind1_col1 i)

end Cert.ReferenceIdeal.RefValue

end
-- ==== Proof.RefValue.lean ====
/-
  The reference's result as a value: per view and row the hinge of the positive distance against the smallest distance to a row of another label, the 2 × 4096 losses summed and divided by 8192.
-/
import proofs.«425167_j26594437497379_3_alg».proof.Proof.RefDist
import proofs.«425167_j26594437497379_3_alg».proof.Proof.RefGather
import proofs.«425167_j26594437497379_3_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Triplet

variable (x0 : (⟨S4096x256, .f32⟩ : BufTy).Contents (Elt Ideal)) (x1 : (⟨S4096x2x256, .f32⟩ : BufTy).Contents (Elt Ideal)) (x2 : (⟨S4096, .i32⟩ : BufTy).Contents (Elt Ideal))

/-! ## Small facts: the word +∞, the first 4096 feature rows and the last 4096, the indices -/

/-- The word 0x7F800000 is +∞. -/
theorem top_word : Ideal.ofBits .f32 0x7F800000#32 = (⊤ : EReal) := by
  simp [Ideal.ofBits, Ideal.ieee]

section Feats
variable (A : Fin 4096 → Row) (P : Fin 2 → Fin 4096 → Row)

/-- Feature row i < 4096 is the normalized anchor i. -/
theorem feats_lo (v : Fin 2) (i : Fin 4096) (h : i.val < 8192) :
    feats A P v (⟨i.val, h⟩ : Fin 8192) = uA A i := by
  unfold feats
  rw [dif_pos (show (⟨i.val, h⟩ : Fin 8192).val < 4096 from i.isLt)]

/-- Feature row i + 4096 is the normalized positive i of the view. -/
theorem feats_hi (v : Fin 2) (i : Fin 4096) (h : i.val + 4096 < 8192) :
    feats A P v (⟨i.val + 4096, h⟩ : Fin 8192) = uP P v i := by
  unfold feats
  rw [dif_neg (show ¬ (⟨i.val + 4096, h⟩ : Fin 8192).val < 4096 from by simp)]
  exact congrArg (uP P v) (Fin.ext (by simp))

end Feats

/-- The one-axis reduction of a [4096, 8192] array along its columns, as the shape fact the fold is read through. -/
theorem red_cols : S4096x8192.Reduces [1] S4096 := by decide

/-- Row i with column k put back is the entry (i, k). -/
theorem lift_cols (i : Fin 4096) (k : Fin (S4096x8192.size 1)) :
    red_cols.lift (ix1 i) k = ix2 i (⟨k.val, k.isLt⟩ : Fin 8192) := by
  funext c; apply Fin.ext
  fin_cases c <;> rfl

/-- The first 4096 rows of the distance matrix: entry (i, j) of the slice is entry (i, j) of the matrix. -/
theorem idx53 (i : Fin 4096) (j : Fin 8192) :
    idx_main_v53 (ix2 i j) = ix2 (⟨i.val, by omega⟩ : Fin 8192) j :=
  funext fun a => Fin.ext (by match a with | ⟨0, _⟩ => rfl | ⟨1, _⟩ => rfl)
theorem idx97 (i : Fin 4096) (j : Fin 8192) :
    idx_main_v97 (ix2 i j) = ix2 (⟨i.val, by omega⟩ : Fin 8192) j :=
  funext fun a => Fin.ext (by match a with | ⟨0, _⟩ => rfl | ⟨1, _⟩ => rfl)

/-! ## The hardest negative: the smallest distance over the columns of another label -/

/-- View 0: the masked entry (i, j): the distance where the labels differ, +∞ elsewhere. -/
theorem where0_apply (i : Fin 4096) (j : Fin 8192) :
    val_main_v54 (F := Ideal) x0 x1 x2 (ix2 i j)
      = if lab2 (labs x2) j ≠ labs x2 i then distR (uA (rows x0) i) (feats (rows x0) (views x1) 0 j) else ⊤ := by
  rw [val_main_v54_apply, val_main_v53_apply, val_main_call2_v1_apply, val_main_call2_v0_apply, val_main_cst_9_apply,
    mask_apply, idx53, dist0_apply, feats_lo, Ideal.ofBits_def, top_word]
  by_cases h : lab2 (labs x2) j ≠ labs x2 i
  · rw [if_pos h, if_pos h, select_one]
  · rw [if_neg h, if_neg h, select_zero]

/-- View 1: the same. -/
theorem where1_apply (i : Fin 4096) (j : Fin 8192) :
    val_main_v98 (F := Ideal) x0 x1 x2 (ix2 i j)
      = if lab2 (labs x2) j ≠ labs x2 i then distR (uA (rows x0) i) (feats (rows x0) (views x1) 1 j) else ⊤ := by
  rw [val_main_v98_apply, val_main_v97_apply, val_main_call3_v1_apply, val_main_call3_v0_apply, val_main_cst_22_apply,
    mask_apply, idx97, dist1_apply, feats_lo, Ideal.ofBits_def, top_word]
  by_cases h : lab2 (labs x2) j ≠ labs x2 i
  · rw [if_pos h, if_pos h, select_one]
  · rw [if_neg h, if_neg h, select_zero]

/-- View 0: the minimum over the columns, from +∞, of the masked row is the hardest negative. -/
theorem neg0_apply (i : Fin 4096) :
    val_main_v55 (F := Ideal) x0 x1 x2 (ix1 i) = negR (rows x0) (views x1) (labs x2) 0 i := by
  unfold val_main_v55
  refine Eq.trans (Host.reduce_eq_fold_single FloatOps.minimumf _ _ reducesTo_S4096x8192_S4096_d1 red_cols h_S_ (ix1 i)) ?_
  have hf : (val_main_v54 (F := Ideal) x0 x1 x2 ∘ red_cols.lift (ix1 i))
      = fun j : Fin (S4096x8192.size 1) => if lab2 (labs x2) ⟨j.val, j.isLt⟩ ≠ labs x2 i
          then distR (uA (rows x0) i) (feats (rows x0) (views x1) 0 ⟨j.val, j.isLt⟩) else ⊤ :=
    funext fun k => by
      show val_main_v54 (F := Ideal) x0 x1 x2 (red_cols.lift (ix1 i) k) = _
      rw [lift_cols, where0_apply]
  rw [hf, val_main_cst_10_apply, Ideal.ofBits_def, top_word]
  rfl

/-- View 1: the same. -/
theorem neg1_apply (i : Fin 4096) :
    val_main_v99 (F := Ideal) x0 x1 x2 (ix1 i) = negR (rows x0) (views x1) (labs x2) 1 i := by
  unfold val_main_v99
  refine Eq.trans (Host.reduce_eq_fold_single FloatOps.minimumf _ _ reducesTo_S4096x8192_S4096_d1 red_cols h_S_ (ix1 i)) ?_
  have hf : (val_main_v98 (F := Ideal) x0 x1 x2 ∘ red_cols.lift (ix1 i))
      = fun j : Fin (S4096x8192.size 1) => if lab2 (labs x2) ⟨j.val, j.isLt⟩ ≠ labs x2 i
          then distR (uA (rows x0) i) (feats (rows x0) (views x1) 1 ⟨j.val, j.isLt⟩) else ⊤ :=
    funext fun k => by
      show val_main_v98 (F := Ideal) x0 x1 x2 (red_cols.lift (ix1 i) k) = _
      rw [lift_cols, where1_apply]
  rw [hf, val_main_cst_23_apply, Ideal.ofBits_def, top_word]
  rfl

/-! ## The hinge per view and row -/

/-- View 0: max (pos − neg + 1) 0 at row i. -/
theorem loss0_apply (i : Fin 4096) :
    val_main_v60 (F := Ideal) x0 x1 x2 (ix1 i) = lossR (rows x0) (views x1) (labs x2) 0 i := by
  rw [val_main_v60_apply, val_main_v58_apply, val_main_v56_apply, val_main_v59_apply, val_main_v57_apply,
    val_main_cst_12_apply, val_main_cst_11_apply, pos0_apply, dist0_apply, neg0_apply, feats_lo, feats_hi]
  simp only [Ideal.maximumf_def, Ideal.addf_def, Ideal.subf_def, Ideal.ofBits_def, Ideal.ofBits_zero_f32]
  rfl

/-- View 1: the same. -/
theorem loss1_apply (i : Fin 4096) :
    val_main_v104 (F := Ideal) x0 x1 x2 (ix1 i) = lossR (rows x0) (views x1) (labs x2) 1 i := by
  rw [val_main_v104_apply, val_main_v102_apply, val_main_v100_apply, val_main_v103_apply, val_main_v101_apply,
    val_main_cst_25_apply, val_main_cst_24_apply, pos1_apply, dist1_apply, neg1_apply, feats_lo, feats_hi]
  simp only [Ideal.maximumf_def, Ideal.addf_def, Ideal.subf_def, Ideal.ofBits_def, Ideal.ofBits_zero_f32]
  rfl

/-! ## The two rows of losses stacked, summed, divided by 8192 -/

theorem idx105 (b : Fin 4096) : idx_main_v105 (ix2 (0 : Fin 1) b) = ix1 b :=
  funext fun a => Fin.ext (by match a with | ⟨0, _⟩ => rfl)
theorem idx106 (b : Fin 4096) : idx_main_v106 (ix2 (0 : Fin 1) b) = ix1 b :=
  funext fun a => Fin.ext (by match a with | ⟨0, _⟩ => rfl)

/-- Row 0 of the stack is view 0's losses. -/
theorem stack0_apply (b : Fin 4096) :
    val_main_v107 (F := Ideal) x0 x1 x2 (ix2 (0 : Fin 2) b) = lossR (rows x0) (views x1) (labs x2) 0 b := by
  unfold val_main_v107
  rw [concatenate_pair_apply_left (0 : Fin S2x4096.rank) _ _ concatenates_S1x4096_S1x4096_S2x4096_d0 (ix2 (0 : Fin 2) b) rfl
    (ix2 (0 : Fin 1) b) (fun c => by match c with | ⟨0, _⟩ => rfl | ⟨1, _⟩ => rfl)]
  rw [val_main_v105_apply, idx105, loss0_apply]

/-- Row 1 of the stack is view 1's losses. -/
theorem stack1_apply (b : Fin 4096) :
    val_main_v107 (F := Ideal) x0 x1 x2 (ix2 (1 : Fin 2) b) = lossR (rows x0) (views x1) (labs x2) 1 b := by
  unfold val_main_v107
  rw [concatenate_pair_apply_right (0 : Fin S2x4096.rank) _ _ concatenates_S1x4096_S1x4096_S2x4096_d0 (ix2 (1 : Fin 2) b) rfl rfl
    (ix2 (0 : Fin 1) b) (fun c hc => by
      match c, hc with
      | ⟨0, _⟩, hc => exact absurd rfl hc
      | ⟨1, _⟩, _ => rfl) rfl]
  rw [val_main_v106_apply, idx106, loss1_apply]

/-- The reference's result: the mean of the 2 × 4096 losses. -/
theorem ref_value :
    val_main_v109 (F := Ideal) x0 x1 x2 = fun _ => resultR (rows x0) (views x1) (labs x2) := by
  funext i
  rw [val_main_v109_apply, val_main_v108_apply, val_main_cst_26_apply, val_main_cst_27_apply, Ideal.hostDivf_def,
    Ideal.ofBits_def, Ideal.ofBits_def, Ideal.ofBits_zero_f32, zero_add, sum_idx2, Fin.sum_univ_two]
  simp only [stack0_apply, stack1_apply]
  unfold resultR cnt
  rw [Fin.sum_univ_two]

end Cert.ReferenceIdeal.RefValue

end
-- ==== Proof.lean ====
/-
  The five claims assembled.  The three frames: the two kernel programs' frame certificates are generated whole; the
  reference is a host program, and its frame is its run with the result dropped.  The idealization rewrote nothing, so
  `preserves` is trivial.  The value claim: the kernel program ends at the mean, over the 8192 (row, view) pairs, of the
  hinge of the positive distance against the distance formed from the LARGEST inner product with a row of another label;
  the reference ends at the same mean with the SMALLEST distance over those rows.  Under the precondition every input is a
  real number and every row is at least ε long, so every normalized row has length exactly one, and then the two agree.
-/
import proofs.«425167_j26594437497379_3_alg».proof.Defs
import proofs.«425167_j26594437497379_3_alg».proof.Proof.Gen.Kernel
import proofs.«425167_j26594437497379_3_alg».proof.Proof.Gen.Kernel.Frame
import proofs.«425167_j26594437497379_3_alg».proof.Proof.Gen.KernelIdeal
import proofs.«425167_j26594437497379_3_alg».proof.Proof.Gen.KernelIdeal.Frame
import proofs.«425167_j26594437497379_3_alg».proof.Proof.Gen.ReferenceIdeal
import proofs.«425167_j26594437497379_3_alg».proof.Proof.Gen.Pre_finite_inputs
import proofs.«425167_j26594437497379_3_alg».proof.Proof.RefRun
import proofs.«425167_j26594437497379_3_alg».proof.Proof.Spec
import proofs.«425167_j26594437497379_3_alg».proof.Proof.Laws
import proofs.«425167_j26594437497379_3_alg».proof.Proof.PreRead
import proofs.«425167_j26594437497379_3_alg».proof.Proof.KValue
import proofs.«425167_j26594437497379_3_alg».proof.Proof.RefValue
import Idealize.ShloMosaic.Adequacy
import Idealize.ShloMosaic.Init

noncomputable section

namespace Cert.Proof

open Idealize.ShloMosaic Idealize.ShloMosaic.TcCoe Idealize.SL.Sem Cert.Triplet

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end at one value: the kernel's mean of hinges is the reference's, on inputs the precondition admits. -/
theorem algebraic : Cert.algebraic_KernelIdeal_ReferenceIdeal := by
  intro m ρ m' ρ' hpre hagree
  refine ⟨fun c _ => resultK (rows (Cert.KernelIdeal.Gen.argA m c)) (views (Cert.KernelIdeal.Gen.argP m c))
    (labs (Cert.KernelIdeal.Gen.argL m c)), Cert.KernelIdeal.Gen.kernel_run m ρ, ?_⟩
  refine (θ_run Cert.ReferenceIdeal.defs _ _).mono (fun r h c => ⟨?_, (h c).2⟩) (Cert.ReferenceIdeal.RefRun.run (F := Ideal) m' ρ')
  obtain ⟨hA, hP, hnA, hnP⟩ := Cert.Triplet.pre_reads _ _ _ (hpre c)
  rw [(h c).1, Cert.ReferenceIdeal.RefValue.ref_value, (hagree c).1, (hagree c).2.1, (hagree c).2.2]
  funext _
  exact (Cert.Triplet.result_eq _ _ _ hA hP hnA hnP).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
